-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x768 : Shape := ⟨3, ![1024, 64, 768]⟩
abbrev S_ : Shape := ⟨0, ![]⟩

class Facts : Prop where
  bcast_S_S1024x64x768 : S_.BroadcastsInDim S1024x64x768 (![] : Fin 0 → Fin S1024x64x768.rank)
  reducesTo_S1024x64x768_S_d0_1_2 : S1024x64x768.ReducesTo [0, 1, 2] S_
  h_S_ : 0 < S_.numel

variable [Facts]

def fn {F : FTy → Type} [FloatOps F] (main_arg0 : FVec F S1024x64x768 .f32) : IVec S_ 1 :=
  let main_v0 : FVec F S1024x64x768 .f32 := Host.absf main_arg0
  let main_cst : FVec F S_ .f32 := constant S_ .f32 0x7F800000#32
  let main_v1 : FVec F S1024x64x768 .f32 := broadcastInDim S1024x64x768 ![] bcast_S_S1024x64x768 main_cst
  let main_v2 : IVec S1024x64x768 1 := cmpf .olt main_v0 main_v1
  let main_c : IVec S_ 1 := constantI S_ 1 1#1
  let main_v3 : IVec S_ 1 := (fun x v => Host.reduce IntOp.andi x v reducesTo_S1024x64x768_S_d0_1_2 h_S_) main_v2 main_c
  main_v3
-- ==== Kernel.lean ====
abbrev S1024x64x768 : Shape := ⟨3, ![1024, 64, 768]⟩
abbrev S1024x49152 : Shape := ⟨2, ![1024, 49152]⟩
abbrev S2x1024x1024 : Shape := ⟨3, ![2, 1024, 1024]⟩
abbrev S2x1024x1 : Shape := ⟨3, ![2, 1024, 1]⟩
abbrev S1024x1024 : Shape := ⟨2, ![1024, 1024]⟩
abbrev S1x1024x1024 : Shape := ⟨3, ![1, 1024, 1024]⟩
abbrev S1x1024x1 : Shape := ⟨3, ![1, 1024, 1]⟩
abbrev S1024x1 : Shape := ⟨2, ![1024, 1]⟩
abbrev S1024 : Shape := ⟨1, ![1024]⟩
abbrev S1x1024 : Shape := ⟨2, ![1, 1024]⟩
abbrev S_ : Shape := ⟨0, ![]⟩

abbrev nBuf : Space → Nat
  | .hbm => 90
  | .vmem => 8
  | .smem => 0
  | _ => 0

abbrev bufTy : (tb : Table) → Fin (tcTables nBuf tb) → BufTy
  | .hbm, ⟨0, _⟩ => ⟨S1024x64x768, .f32⟩
  | .hbm, ⟨1, _⟩ => ⟨S1024x49152, .f32⟩
  | .hbm, ⟨2, _⟩ => ⟨S2x1024x1024, .f32⟩
  | .hbm, ⟨3, _⟩ => ⟨S2x1024x1, .f32⟩
  | .hbm, ⟨4, _⟩ => ⟨S1x1024x1024, .f32⟩
  | .hbm, ⟨5, _⟩ => ⟨S1024x1024, .f32⟩
  | .hbm, ⟨6, _⟩ => ⟨S1x1024x1024, .f32⟩
  | .hbm, ⟨7, _⟩ => ⟨S1024x1024, .f32⟩
  | .hbm, ⟨8, _⟩ => ⟨S1024x1024, .f32⟩
  | .hbm, ⟨9, _⟩ => ⟨S1x1024x1, .f32⟩
  | .hbm, ⟨10, _⟩ => ⟨S1024x1, .f32⟩
  | .hbm, ⟨11, _⟩ => ⟨S1x1024x1, .f32⟩
  | .hbm, ⟨12, _⟩ => ⟨S1024x1, .f32⟩
  | .hbm, ⟨13, _⟩ => ⟨S1024x1, .f32⟩
  | .hbm, ⟨14, _⟩ => ⟨S1x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024, .i32⟩
  | .hbm, ⟨26, _⟩ => ⟨S_, .i32⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S1024, .i32⟩
  | .hbm, ⟨35, _⟩ => ⟨S1024, .i32⟩
  | .hbm, ⟨36, _⟩ => ⟨S_, .i32⟩
  | .hbm, ⟨37, _⟩ => ⟨S1024, .i32⟩
  | .hbm, ⟨38, _⟩ => ⟨S1024, .i1⟩
  | .hbm, ⟨39, _⟩ => ⟨S1024, .i1⟩
  | .hbm, ⟨40, _⟩ => ⟨S_, .i32⟩
  | .hbm, ⟨41, _⟩ => ⟨S1024, .i32⟩
  | .hbm, ⟨42, _⟩ => ⟨S1024, .i32⟩
  | .hbm, ⟨43, _⟩ => ⟨S1024, .i32⟩
  | .hbm, ⟨44, _⟩ => ⟨S1024x1, .i32⟩
  | .hbm, ⟨45, _⟩ => ⟨S1x1024, .i32⟩
  | .hbm, ⟨46, _⟩ => ⟨S1024x1024, .i32⟩
  | .hbm, ⟨47, _⟩ => ⟨S1024x1024, .i32⟩
  | .hbm, ⟨48, _⟩ => ⟨S1024x1024, .i1⟩
  | .hbm, ⟨49, _⟩ => ⟨S1024x1024, .i32⟩
  | .hbm, ⟨50, _⟩ => ⟨S1024x1024, .i32⟩
  | .hbm, ⟨51, _⟩ => ⟨S_, .i32⟩
  | .hbm, ⟨52, _⟩ => ⟨S1024x1024, .i32⟩
  | .hbm, ⟨53, _⟩ => ⟨S1024x1024, .i32⟩
  | .hbm, ⟨54, _⟩ => ⟨S1024x1024, .i1⟩
  | .hbm, ⟨55, _⟩ => ⟨S1024x1024, .i1⟩
  | .hbm, ⟨56, _⟩ => ⟨S1024x1024, .i1⟩
  | .hbm, ⟨57, _⟩ => ⟨S1024x1, .i32⟩
  | .hbm, ⟨58, _⟩ => ⟨S1x1024, .i32⟩
  | .hbm, ⟨59, _⟩ => ⟨S1024x1024, .i32⟩
  | .hbm, ⟨60, _⟩ => ⟨S1024x1024, .i32⟩
  | .hbm, ⟨61, _⟩ => ⟨S1024x1024, .i1⟩
  | .hbm, ⟨62, _⟩ => ⟨S_, .f32⟩
  | .hbm, ⟨63, _⟩ => ⟨S_, .f32⟩
  | .hbm, ⟨64, _⟩ => ⟨S1024x1024, .f32⟩
  | .hbm, ⟨65, _⟩ => ⟨S1024x1024, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S1024x1024, .f32⟩
  | .hbm, ⟨72, _⟩ => ⟨S1024x1024, .f32⟩
  | .hbm, ⟨73, _⟩ => ⟨S_, .f32⟩
  | .hbm, ⟨74, _⟩ => ⟨S1024x1024, .f32⟩
  | .hbm, ⟨75, _⟩ => ⟨S1024x1024, .f32⟩
  | .hbm, ⟨76, _⟩ => ⟨S_, .f32⟩
  | .hbm, ⟨77, _⟩ => ⟨S_, .f32⟩
  | .hbm, ⟨78, _⟩ => ⟨S1024x1024, .f32⟩
  | .hbm, ⟨79, _⟩ => ⟨S1024x1024, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1, .f32⟩
  | .local _ .vmem, ⟨5, _⟩ => ⟨S1x1024x1, .f32⟩
  | .local _ .vmem, ⟨6, _⟩ => ⟨S1024x1024, .f32⟩
  | .local _ .vmem, ⟨7, _⟩ => ⟨S1024x1, .f32⟩
  | _, _ => ⟨S1024x64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_1 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_2 : Ref sig .tc := ⟨.hbm, 62, rfl⟩
abbrev main_call1_v0 : Ref sig .tc := ⟨.hbm, 63, rfl⟩
abbrev main_call1_v1 : Ref sig .tc := ⟨.hbm, 64, rfl⟩
abbrev main_v40 : Ref sig .tc := ⟨.hbm, 65, rfl⟩
abbrev main_cst_3 : Ref sig .tc := ⟨.hbm, 66, rfl⟩
abbrev main_v41 : Ref sig .tc := ⟨.hbm, 67, rfl⟩
abbrev main_cst_4 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_call2_v0 : Ref sig .tc := ⟨.hbm, 77, rfl⟩
abbrev main_call2_v1 : Ref sig .tc := ⟨.hbm, 78, rfl⟩
abbrev main_v47 : Ref sig .tc := ⟨.hbm, 79, rfl⟩
abbrev main_cst_8 : Ref sig .tc := ⟨.hbm, 80, rfl⟩
abbrev main_v48 : Ref sig .tc := ⟨.hbm, 81, rfl⟩
abbrev main_cst_9 : Ref sig .tc := ⟨.hbm, 82, rfl⟩
abbrev main_v49 : Ref sig .tc := ⟨.hbm, 83, rfl⟩
abbrev main_cst_10 : Ref sig .tc := ⟨.hbm, 84, rfl⟩
abbrev main_v50 : Ref sig .tc := ⟨.hbm, 85, rfl⟩
abbrev main_cst_11 : Ref sig .tc := ⟨.hbm, 86, rfl⟩
abbrev main_v51 : Ref sig .tc := ⟨.hbm, 87, rfl⟩
abbrev main_cst_12 : Ref sig .tc := ⟨.hbm, 88, rfl⟩
abbrev main_v52 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 24], ![false, false]⟩

def k0_cond2 (i : grid0.Coords) : BitVec 1 :=
  let arg1 : BitVec 32 := BitVec.ofNat 32 (i 1).val
  let c23_i32 : BitVec 32 := 23#32
  let v21 : BitVec 1 := Scalar.cmpi .eq arg1 c23_i32
  let v22 : BitVec 32 := Scalar.extui v21
  let c0_i32_11 : BitVec 32 := 0#32
  let v23 : BitVec 1 := Scalar.cmpi .ne v22 c0_i32_11
  v23

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S1024x64x768_S1024x49152 : S1024x64x768.ShapeCasts S1024x49152
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  shapeCasts_S1024_S1024x1 : S1024.ShapeCasts S1024x1
  bitsLt_bf16_f32 : FTy.bits .bf16 < FTy.bits .f32
  transposes_S1024x1024_p1_0_S1024x1024 : S1024x1024.Transposes [1, 0] S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  slices_S2x1024x1024_S1x1024x1024_0_0_0 : S2x1024x1024.Slices ![0, 0, 0] S1x1024x1024
  slices_S2x1024x1024_S1x1024x1024_1_0_0 : S2x1024x1024.Slices ![1, 0, 0] S1x1024x1024
  slices_S2x1024x1_S1x1024x1_0_0_0 : S2x1024x1.Slices ![0, 0, 0] S1x1024x1
  slices_S2x1024x1_S1x1024x1_1_0_0 : S2x1024x1.Slices ![1, 0, 0] S1x1024x1
  shapeCasts_S1024x1_S1x1024 : S1024x1.ShapeCasts S1x1024
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  reducesTo_S1024x1024_S_d0_1 : S1024x1024.ReducesTo [0, 1] S_
  h_S_ : 0 < S_.numel
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x49152.size a
  hwx0_0 : ∀ i : grid0.Coords, EltTy.bits .f32 = 32 ∨ (Rect.block (s := S1024x49152) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S2x1024x1024.size a
  hwx0_1 : ∀ i : grid0.Coords, EltTy.bits .f32 = 32 ∨ (Rect.block (s := S2x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S2x1024x1.size a
  hwx0_2 : ∀ i : grid0.Coords, EltTy.bits .f32 = 32 ∨ (Rect.block (s := S2x1024x1) S1x1024x1.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x1024x1024.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1024x64x768 : Shape := ⟨3, ![1024, 64, 768]⟩
abbrev S1024x49152 : Shape := ⟨2, ![1024, 49152]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S49152x1024 : Shape := ⟨2, ![49152, 1024]⟩

abbrev nBuf : Space → Nat
  | .hbm => 84
  | .vmem => 0
  | .smem => 0
  | _ => 0

abbrev bufTy : (tb : Table) → Fin (tcTables nBuf tb) → BufTy
  | .hbm, ⟨0, _⟩ => ⟨S1024x64x768, .f32⟩
  | .hbm, ⟨1, _⟩ => ⟨S1024x49152, .f32⟩
  | .hbm, ⟨2, _⟩ => ⟨S1024x49152, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S1x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S49152x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024, .i32⟩
  | .hbm, ⟨20, _⟩ => ⟨S_, .i32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S1024, .i32⟩
  | .hbm, ⟨29, _⟩ => ⟨S1024, .i32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S1024, .i1⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S1024, .i32⟩
  | .hbm, ⟨38, _⟩ => ⟨S1024x1, .i32⟩
  | .hbm, ⟨39, _⟩ => ⟨S1x1024, .i32⟩
  | .hbm, ⟨40, _⟩ => ⟨S1024x1024, .i32⟩
  | .hbm, ⟨41, _⟩ => ⟨S1024x1024, .i32⟩
  | .hbm, ⟨42, _⟩ => ⟨S1024x1024, .i1⟩
  | .hbm, ⟨43, _⟩ => ⟨S1024x1024, .i32⟩
  | .hbm, ⟨44, _⟩ => ⟨S1024x1024, .i32⟩
  | .hbm, ⟨45, _⟩ => ⟨S_, .i32⟩
  | .hbm, ⟨46, _⟩ => ⟨S1024x1024, .i32⟩
  | .hbm, ⟨47, _⟩ => ⟨S1024x1024, .i32⟩
  | .hbm, ⟨48, _⟩ => ⟨S1024x1024, .i1⟩
  | .hbm, ⟨49, _⟩ => ⟨S1024x1024, .i1⟩
  | .hbm, ⟨50, _⟩ => ⟨S1024x1024, .i1⟩
  | .hbm, ⟨51, _⟩ => ⟨S1024x1, .i32⟩
  | .hbm, ⟨52, _⟩ => ⟨S1x1024, .i32⟩
  | .hbm, ⟨53, _⟩ => ⟨S1024x1024, .i32⟩
  | .hbm, ⟨54, _⟩ => ⟨S1024x1024, .i32⟩
  | .hbm, ⟨55, _⟩ => ⟨S1024x1024, .i1⟩
  | .hbm, ⟨56, _⟩ => ⟨S_, .f32⟩
  | .hbm, ⟨57, _⟩ => ⟨S_, .f32⟩
  | .hbm, ⟨58, _⟩ => ⟨S1024x1024, .f32⟩
  | .hbm, ⟨59, _⟩ => ⟨S1024x1024, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S1024x1024, .f32⟩
  | .hbm, ⟨66, _⟩ => ⟨S1024x1024, .f32⟩
  | .hbm, ⟨67, _⟩ => ⟨S_, .f32⟩
  | .hbm, ⟨68, _⟩ => ⟨S1024x1024, .f32⟩
  | .hbm, ⟨69, _⟩ => ⟨S1024x1024, .f32⟩
  | .hbm, ⟨70, _⟩ => ⟨S_, .f32⟩
  | .hbm, ⟨71, _⟩ => ⟨S_, .f32⟩
  | .hbm, ⟨72, _⟩ => ⟨S1024x1024, .f32⟩
  | .hbm, ⟨73, _⟩ => ⟨S1024x1024, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S1024x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_3 : Ref sig .tc := ⟨.hbm, 56, rfl⟩
abbrev main_call1_v0 : Ref sig .tc := ⟨.hbm, 57, rfl⟩
abbrev main_call1_v1 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_call2_v0 : Ref sig .tc := ⟨.hbm, 71, rfl⟩
abbrev main_call2_v1 : Ref sig .tc := ⟨.hbm, 72, rfl⟩
abbrev main_v41 : Ref sig .tc := ⟨.hbm, 73, rfl⟩
abbrev main_cst_9 : Ref sig .tc := ⟨.hbm, 74, rfl⟩
abbrev main_v42 : Ref sig .tc := ⟨.hbm, 75, rfl⟩
abbrev main_cst_10 : Ref sig .tc := ⟨.hbm, 76, rfl⟩
abbrev main_v43 : Ref sig .tc := ⟨.hbm, 77, rfl⟩
abbrev main_cst_11 : Ref sig .tc := ⟨.hbm, 78, rfl⟩
abbrev main_v44 : Ref sig .tc := ⟨.hbm, 79, rfl⟩
abbrev main_cst_12 : Ref sig .tc := ⟨.hbm, 80, rfl⟩
abbrev main_v45 : Ref sig .tc := ⟨.hbm, 81, rfl⟩
abbrev main_cst_13 : Ref sig .tc := ⟨.hbm, 82, rfl⟩
abbrev main_v46 : Ref sig .tc := ⟨.hbm, 83, rfl⟩

abbrev nD : Nat := 1
abbrev τ : Topo := Topo.v7x

variable {F : FTy → Type} [FloatOps F]

class Facts₀ : Prop where
  shapeCasts_S1024x64x768_S1024x49152 : S1024x64x768.ShapeCasts S1024x49152
  reducesTo_S1024x49152_S1024_d1 : S1024x49152.ReducesTo [1] S1024
  h_S_ : 0 < S_.numel
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  transposes_S1024x49152_S49152x1024_1_0 : S1024x49152.Transposes [1, 0] S49152x1024
  bcast_S_S1024x1024 : S_.BroadcastsInDim S1024x1024 (![] : Fin 0 → Fin S1024x1024.rank)
  bcast_S_S1024 : S_.BroadcastsInDim S1024 (![] : Fin 0 → Fin S1024.rank)
  reducesTo_S1024x1024_S_d0_1 : S1024x1024.ReducesTo [0, 1] S_
  dot_S1024x49152_S49152x1024_S1024x1024_1_0_0_1_n_n_wf : DotDims.WF S1024x49152 S49152x1024 S1024x1024 [1] [0] [0] [1] [] []

variable [Facts₀]

def dot_S1024x49152_S49152x1024_S1024x1024_1_0_0_1_n_n : DotDims S1024x49152 S49152x1024 S1024x1024 where
  lhsContracting := [1]
  rhsContracting := [0]
  lhsNonContracting := [0]
  rhsNonContracting := [1]
  lhsBatch := []
  rhsBatch := []
  wf := dot_S1024x49152_S49152x1024_S1024x1024_1_0_0_1_n_n_wf

class Facts : Prop extends Facts₀ where

variable [Facts]
-- ==== Proof.BitsGramRegion.lean ====
/-
  The accumulation region of the kernel program: what its 48 grid points share.

  The grid is 2 × 24.  Point `t` (half `t / 24`, step `t % 24`) is handed block `t` of the feature matrix: all 1024
  rows, columns `t * 1024 … t * 1024 + 1023`.  Two scratch buffers live across the points of a half: a 1024 × 1024
  matrix of inner products and a 1024 × 1 column of squared norms.  At step 0 both are cleared; at every step the
  block's contribution is added to each; at step 23 they are copied into the half's slice of the two outputs.  So
  the body has three courses through its two conditionals — first step, middle step, last step — and the two
  output windows are touched only at a last step, which is also the only point where they are written back.

  Here: the contents the region is entered with, each window's block, the two conditions in closed form, where the
  output windows are idle, and the memrefs the body is called with.
-/
import proofs.«146502_j20134806684259_1_alg».proof.Proof.Gen.Kernel.Launch
import proofs.«146502_j20134806684259_1_alg».proof.Proof.Gen.Kernel.Skeleton
import proofs.«146502_j20134806684259_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region is entered with -/

/-- Core `c`'s buffers after the one host operation before the region (the reshape of the input to 1024 × 49152). -/
abbrev entry (c : Dev nD) : Valuation τ sig (Elt F) := StableHlo.after (List.flatten [hostOps0]) (fun b => m (c, b))
/-- The same read at a TensorCore reference. -/
abbrev entryAt (c : Dev nD) (b : Ref sig .tc) : Buf (Elt F) ((c : Thread nD τ).loc b) := entry m c (Proc.devRef .tc b)

theorem hostOps0_alloc_none : (hostOps0 : List (HloOp τ sig (Elt F))).Forall fun op => op.fresh = ∅ := by
  simp only [List.Forall]; rfl

/-- The reshape writes its own result only: the argument array is as launched. -/
theorem entryAt_arg0 (c : Dev nD) : entryAt m c main_arg0 = m ((c : Thread nD τ).loc main_arg0) := by
  show StableHlo.after (List.flatten [hostOps0]) (fun b => m (c, b)) (Proc.devRef .tc main_arg0) = _
  rw [StableHlo.after_of_forall_not_mem]
  intro op hop
  simp only [List.flatten_cons, List.flatten_nil, List.append_nil, hostOps0, List.mem_cons, List.mem_nil_iff, or_false] at hop
  subst hop
  simp only [StableHlo.reshape_writes, Finset.mem_singleton]
  exact StableHlo.devRef_ne_of_ne (by decide)

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The input window's staging buffer holds its block at every point, for any proof data whose array is the entry
    contents and whose body leaves the block in place: the window is fetched at every point, uncut and never idle. -/
theorem before_in_of {c : Dev nD} (dat : Dat τ (Elt F) Unit ℕ (UR sig nD τ) ℕ cfg0 c) (hA : dat.A 0 = entryAt m c (Pipeline.arrRef spec0 0))
    (hafter : ∀ t, dat.after 0 t = blk m c 0 t) (t : Fin cfg0.N) (d) : dat.before 0 t d = blk m c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-! ## The two conditions -/

/-- "This is a half's first step": the body's first conditional, from the grid coordinates. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 24 = 0 :=
  (by decide +kernel : ∀ t : Fin grid0.N, isFirst (grid0.coords t) ↔ t.val % 24 = 0)

/-- "This is a half's last step": the body's second conditional. -/
abbrev isLast (i : grid0.Coords) : Prop := k0_cond2 i = 1#1
theorem isLast_iff : ∀ t : Fin cfg0.N, isLast (grid0.coords t) ↔ t.val % 24 = 23 :=
  (by decide +kernel : ∀ t : Fin grid0.N, isLast (grid0.coords t) ↔ t.val % 24 = 23)

/-! ## Where the windows are idle -/

/-- The input window is never idle. -/
theorem live_in : ∀ t : Fin cfg0.N, cfg0.idle 0 (grid0.coords t) = false := by decide +kernel
/-- Off a last step the output windows are idle and not written back; at a last step they are live. -/
theorem idle_gram : ∀ t : Fin cfg0.N, ¬isLast (grid0.coords t) → cfg0.idle 1 (grid0.coords t) = true := by decide +kernel
theorem keep_gram : ∀ t : Fin cfg0.N, ¬isLast (grid0.coords t) → (cfg0.win 1).flush t = false := by decide +kernel
theorem live_gram : ∀ t : Fin cfg0.N, isLast (grid0.coords t) → cfg0.idle 1 (grid0.coords t) = false := by decide +kernel
theorem idle_sq : ∀ t : Fin cfg0.N, ¬isLast (grid0.coords t) → cfg0.idle 2 (grid0.coords t) = true := by decide +kernel
theorem keep_sq : ∀ t : Fin cfg0.N, ¬isLast (grid0.coords t) → (cfg0.win 2).flush t = false := by decide +kernel
theorem live_sq : ∀ t : Fin cfg0.N, isLast (grid0.coords t) → cfg0.idle 2 (grid0.coords t) = false := by decide +kernel

/-! ## The memrefs the body is called with -/

/-- One staging buffer of each output window, through which its contents are stated. -/
abbrev viewGram : View sig .tc .vmem S1x1024x1024 .f32 := (Memref.whole cc0_stg1_0 : Memref sig .tc .vmem S1x1024x1024 .f32).view
abbrev viewSq : View sig .tc .vmem S1x1024x1 .f32 := (Memref.whole cc0_stg2_0 : Memref sig .tc .vmem S1x1024x1 .f32).view
/-- Each window's current staging memref at point `t`, as the pipeline passes it, and its wholeness. -/
abbrev stIn (t : Fin cfg0.N) : Memref sig .tc .vmem S1024x1024 .f32 := win0_0.stage (cfg0.slots t 0)
abbrev stIn_whole (t : Fin cfg0.N) : (stIn t).IsWhole := hstage0_0 ((cfg0.slots t 0).cast nbuf0_0)
abbrev stGram (t : Fin cfg0.N) : Memref sig .tc .vmem S1x1024x1024 .f32 := win0_1.stage (cfg0.slots t 1)
abbrev stGram_whole (t : Fin cfg0.N) : (stGram t).IsWhole := hstage0_1 ((cfg0.slots t 1).cast nbuf0_1)
abbrev stSq (t : Fin cfg0.N) : Memref sig .tc .vmem S1x1024x1 .f32 := win0_2.stage (cfg0.slots t 2)
abbrev stSq_whole (t : Fin cfg0.N) : (stSq t).IsWhole := hstage0_2 ((cfg0.slots t 2).cast nbuf0_2)
/-- The two scratch buffers carried across the points of a half. -/
abbrev accGram : Memref sig .tc .vmem S1024x1024 .f32 := Memref.whole cc0_scratch0
abbrev accSqM : Memref sig .tc .vmem S1024x1 .f32 := Memref.whole cc0_scratch1
abbrev accGramV : View sig .tc .vmem S1024x1024 .f32 := accGram.view
abbrev accSqV : View sig .tc .vmem S1024x1 .f32 := accSqM.view

/-- What the launch hands the region besides the windows: the two scratch buffers at some contents and the generator
    register at some state. -/
theorem scratch_any (c : Dev nD) :
    (Pipeline.ΦA spec0 c : sProp 𝕄)
      = iprop(iprop((∃ d, owns (c : Thread nD τ) accGram fullShare d) ∗ (∃ d, owns (c : Thread nD τ) accSqM fullShare d)) ∗ (∃ r, prngReg c r)) := by
  unfold Pipeline.ΦA; rw [scopedRest0_eq]; simp only [accGram, accSqM, owns_whole]; try rfl

end Cert.Kernel.Fr

end
-- ==== Proof.BitsGramRunFirst.lean ====
/-
  The body at a half's FIRST step (first conditional taken, second not), run once on any whole memrefs.

  Given the input block `x`, the two output buffers at contents handed back untouched, and the two scratch buffers at
  anything, the body runs to its end leaving the input and the outputs as they were and each scratch buffer with a
  list of stored pieces written into it: for each scratch, the clearing store and then the store of the block's
  contribution added to what the clearing left.  The piece lists are what the run finds.
-/
import proofs.«146502_j20134806684259_1_alg».proof.Proof.BitsGramRegion

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runFirst (c : Dev nD) (i : grid0.Coords) (arg2 : Memref sig .tc .vmem S1024x1024 .f32) (harg2 : arg2.IsWhole) (arg3 : Memref sig .tc .vmem S1x1024x1024 .f32) (harg3 : arg3.IsWhole) (arg4 : Memref sig .tc .vmem S1x1024x1 .f32) (harg4 : arg4.IsWhole) (arg5 : Memref sig .tc .vmem S1024x1024 .f32) (harg5 : arg5.IsWhole) (arg6 : Memref sig .tc .vmem S1024x1 .f32) (harg6 : arg6.IsWhole) (hc0 : isFirst i) (hc1 : ¬isLast i)
    (x : Vec F S1024x1024 .f32) :
    Σ' (LG : List (View.Piece (Elt F) S1x1024x1024 .f32)) (LQ : List (View.Piece (Elt F) S1x1024x1 .f32)) (LA : List (View.Piece (Elt F) S1024x1024 .f32)), { LB : List (View.Piece (Elt F) S1024x1 .f32) //
      ∀ (yg : Vec F S1x1024x1024 .f32) (yq : Vec F S1x1024x1 .f32) (E : Set ℕ) (K : PUnit → sProp 𝕄),
        iprop(owns (c : Thread nD τ) arg2 fullShare x ∗ owns (c : Thread nD τ) arg3 fullShare yg ∗ owns (c : Thread nD τ) arg4 fullShare yq
            ∗ (∃ d, owns (c : Thread nD τ) arg5 fullShare d) ∗ (∃ d, owns (c : Thread nD τ) arg6 fullShare d)
            ∗ (iprop(owns (c : Thread nD τ) arg2 fullShare x ∗ owns (c : Thread nD τ) arg3 fullShare yg ∗ owns (c : Thread nD τ) arg4 fullShare yq
                ∗ (∃ f, arg5.view.loc (c : Thread nD τ) ↦[arg5.view.set]{fullShare} arg5.view.writes (Elt F) f LA) ∗ (∃ f, arg6.view.loc (c : Thread nD τ) ↦[arg6.view.set]{fullShare} arg6.view.writes (Elt F) f LB)) -∗ K ⟨⟩))
          ⊢ wp frame (wpE (defs₀ (F := F)) Variants.none c none) E (cc0__gram_kernel i arg2 harg2 arg3 harg3 arg4 harg4 arg5 harg5 arg6 harg6) K } := by
  refine ⟨[], [], ?_, ?_, fun yg yq E K => ?run⟩
  case run =>
    simp only [cc0__gram_kernel_eq_skeleton]; unfold cc0__gram_kernel_skel
    unfold owns
    iintro ⟨⟨%f0, %hf0, H0⟩, ⟨%f1, %hf1, H1⟩, ⟨%f2, %hf2, H2⟩, ⟨%da, %fa, -, HA⟩, ⟨%db, %fb, -, HB⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HA]
    · iexists _; iexact HA
    iexists _; iexact HB

end Cert.Kernel.Fr

end
-- ==== Proof.BitsGramRunMid.lean ====
/-
  The body at a MIDDLE step of a half (neither conditional taken), run once on any whole memrefs.

  Given the input block `x`, the two output buffers at contents handed back untouched, and the two scratch buffers at
  the totals `a`, `b` the step before left, the body runs to its end leaving the input and the outputs as they were
  and each scratch buffer with one stored piece written into it: the block's contribution added to the total.
-/
import proofs.«146502_j20134806684259_1_alg».proof.Proof.BitsGramRunFirst

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runMid (c : Dev nD) (i : grid0.Coords) (arg2 : Memref sig .tc .vmem S1024x1024 .f32) (harg2 : arg2.IsWhole) (arg3 : Memref sig .tc .vmem S1x1024x1024 .f32) (harg3 : arg3.IsWhole) (arg4 : Memref sig .tc .vmem S1x1024x1 .f32) (harg4 : arg4.IsWhole) (arg5 : Memref sig .tc .vmem S1024x1024 .f32) (harg5 : arg5.IsWhole) (arg6 : Memref sig .tc .vmem S1024x1 .f32) (harg6 : arg6.IsWhole) (hc0 : ¬isFirst i) (hc1 : ¬isLast i)
    (x : Vec F S1024x1024 .f32) (a : Vec F S1024x1024 .f32) (b : Vec F S1024x1 .f32) :
    Σ' (LG : List (View.Piece (Elt F) S1x1024x1024 .f32)) (LQ : List (View.Piece (Elt F) S1x1024x1 .f32)) (LA : List (View.Piece (Elt F) S1024x1024 .f32)), { LB : List (View.Piece (Elt F) S1024x1 .f32) //
      ∀ (yg : Vec F S1x1024x1024 .f32) (yq : Vec F S1x1024x1 .f32) (E : Set ℕ) (K : PUnit → sProp 𝕄),
        iprop(owns (c : Thread nD τ) arg2 fullShare x ∗ owns (c : Thread nD τ) arg3 fullShare yg ∗ owns (c : Thread nD τ) arg4 fullShare yq
            ∗ owns (c : Thread nD τ) arg5 fullShare a ∗ owns (c : Thread nD τ) arg6 fullShare b
            ∗ (iprop(owns (c : Thread nD τ) arg2 fullShare x ∗ owns (c : Thread nD τ) arg3 fullShare yg ∗ owns (c : Thread nD τ) arg4 fullShare yq
                ∗ (∃ f, arg5.view.loc (c : Thread nD τ) ↦[arg5.view.set]{fullShare} arg5.view.writes (Elt F) f LA) ∗ (∃ f, arg6.view.loc (c : Thread nD τ) ↦[arg6.view.set]{fullShare} arg6.view.writes (Elt F) f LB)) -∗ K ⟨⟩))
          ⊢ wp frame (wpE (defs₀ (F := F)) Variants.none c none) E (cc0__gram_kernel i arg2 harg2 arg3 harg3 arg4 harg4 arg5 harg5 arg6 harg6) K } := by
  refine ⟨[], [], ?_, ?_, fun yg yq E K => ?run⟩
  case run =>
    simp only [cc0__gram_kernel_eq_skeleton]; unfold cc0__gram_kernel_skel
    unfold owns
    iintro ⟨⟨%f0, %hf0, H0⟩, ⟨%f1, %hf1, H1⟩, ⟨%f2, %hf2, H2⟩, ⟨%fa, %hfa, HA⟩, ⟨%fb, %hfb, HB⟩, Hk⟩
    obtain rfl := harg2.eq_unread hf0; obtain rfl := harg3.eq_unread hf1; obtain rfl := harg4.eq_unread hf2
    obtain rfl := harg5.eq_unread hfa; obtain rfl := harg6.eq_unread hfb
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HA]
    · iexists _; iexact HA
    iexists _; iexact HB

end Cert.Kernel.Fr

end
-- ==== Proof.BitsGramRunLast.lean ====
/-
  The body at a half's LAST step (first conditional not taken, second taken), run once on any whole memrefs.

  Given the input block `x`, the two output buffers at anything, and the two scratch buffers at the totals `a`, `b` the
  step before left, the body runs to its end leaving the input as it was, each scratch buffer with the block's
  contribution added to the total, and each output buffer with one stored piece: the scratch's final total, reshaped.
-/
import proofs.«146502_j20134806684259_1_alg».proof.Proof.BitsGramRunMid

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runLast (c : Dev nD) (i : grid0.Coords) (arg2 : Memref sig .tc .vmem S1024x1024 .f32) (harg2 : arg2.IsWhole) (arg3 : Memref sig .tc .vmem S1x1024x1024 .f32) (harg3 : arg3.IsWhole) (arg4 : Memref sig .tc .vmem S1x1024x1 .f32) (harg4 : arg4.IsWhole) (arg5 : Memref sig .tc .vmem S1024x1024 .f32) (harg5 : arg5.IsWhole) (arg6 : Memref sig .tc .vmem S1024x1 .f32) (harg6 : arg6.IsWhole) (hc0 : ¬isFirst i) (hc1 : isLast i)
    (x : Vec F S1024x1024 .f32) (a : Vec F S1024x1024 .f32) (b : Vec F S1024x1 .f32) :
    Σ' (LG : List (View.Piece (Elt F) S1x1024x1024 .f32)) (LQ : List (View.Piece (Elt F) S1x1024x1 .f32)) (LA : List (View.Piece (Elt F) S1024x1024 .f32)), { LB : List (View.Piece (Elt F) S1024x1 .f32) //
      ∀ (E : Set ℕ) (K : PUnit → sProp 𝕄),
        iprop(owns (c : Thread nD τ) arg2 fullShare x ∗ (∃ d, owns (c : Thread nD τ) arg3 fullShare d) ∗ (∃ d, owns (c : Thread nD τ) arg4 fullShare d)
            ∗ owns (c : Thread nD τ) arg5 fullShare a ∗ owns (c : Thread nD τ) arg6 fullShare b
            ∗ (iprop(owns (c : Thread nD τ) arg2 fullShare x ∗ (∃ f, arg3.view.loc (c : Thread nD τ) ↦[arg3.view.set]{fullShare} arg3.view.writes (Elt F) f LG) ∗ (∃ f, arg4.view.loc (c : Thread nD τ) ↦[arg4.view.set]{fullShare} arg4.view.writes (Elt F) f LQ)
                ∗ (∃ f, arg5.view.loc (c : Thread nD τ) ↦[arg5.view.set]{fullShare} arg5.view.writes (Elt F) f LA) ∗ (∃ f, arg6.view.loc (c : Thread nD τ) ↦[arg6.view.set]{fullShare} arg6.view.writes (Elt F) f LB)) -∗ K ⟨⟩))
          ⊢ wp frame (wpE (defs₀ (F := F)) Variants.none c none) E (cc0__gram_kernel i arg2 harg2 arg3 harg3 arg4 harg4 arg5 harg5 arg6 harg6) K } := by
  refine ⟨?_, ?_, ?_, ?_, fun E K => ?run⟩
  case run =>
    simp only [cc0__gram_kernel_eq_skeleton]; unfold cc0__gram_kernel_skel
    unfold owns
    iintro ⟨⟨%f0, %hf0, H0⟩, ⟨%d1, %f1, -, H1⟩, ⟨%d2, %f2, -, H2⟩, ⟨%fa, %hfa, HA⟩, ⟨%fb, %hfb, HB⟩, Hk⟩
    obtain rfl := harg2.eq_unread hf0
    obtain rfl := harg5.eq_unread hfa; obtain rfl := harg6.eq_unread hfb
    sl_exec (disch := first | exact hc0 | exact hc1)
    sl_step
    iapply Hk
    isplitl [H0]
    · iexists _; isplitr; · ipureintro; exact harg2.read_unread _
      iexact H0
    isplitl [H1]
    · iexists _; iexact H1
    isplitl [H2]
    · iexists _; iexact H2
    isplitl [HA]
    · iexists _; iexact HA
    iexists _; iexact HB

end Cert.Kernel.Fr

end
-- ==== Proof.BitsTailLines.lean ====
/-
  Three bookkeeping facts about the operations a program performs after its accelerator call returns.

  Every such operation computes one result from its operands: it reads the operand buffers and overwrites
  exactly one buffer, the one that holds its result, and it allocates nothing.  The buffers the call streamed
  through its windows (three arrays) are operands or results of the call, never the result of a later operation,
  so they still hold after the last operation what they held when the call returned.  All the buffers the
  later operations touch are plain tensor values of the program: none is scoped to the call, so each lies among the
  buffers that survive it (the windows' arrays and the buffers that bypass the call).

  The operations come in seven consecutive runs (the program's own, interleaved with three inlined helper
  functions); each fact is shown run by run, operation by operation, and assembled.
-/
import proofs.«146502_j20134806684259_1_alg».proof.Proof.Gen.Kernel.Launch
import Idealize.ShloMosaic.Lib.Pipeline.FrameSuffix
import Idealize.ShloMosaic.Lib.StableHlo.Run

noncomputable section

namespace Cert.Kernel.Fr

open Cert.Kernel Cert.Kernel.Gen Idealize.ShloMosaic Idealize.ShloMosaic.TcCoe Idealize.SL.Sem

variable {F : FTy → Type} [FloatOps F]

/-- The operations after the call, as seven consecutive runs. -/
abbrev tailOps : List (List (HloOp τ sig (Elt F))) :=
  [hostOps1, hostOps1_1, hostOps1_2, hostOps1_3, hostOps1_4, hostOps1_5, hostOps1_6]

/-! ## Nothing is allocated -/

/-- The one operation before the call (a reshape) allocates nothing. -/
theorem hostOps0_fresh : (hostOps0 : List (HloOp τ sig (Elt F))).Forall fun op => op.fresh = ∅ := by
  simp only [List.Forall]; repeat' constructor

/-- Each of the 23 operations of this run writes a result computed from its operands: it allocates nothing. -/
theorem fresh1 : (hostOps1 : List (HloOp τ sig (Elt F))).Forall fun op => op.fresh = ∅ := by
  simp only [List.Forall]; repeat' constructor

/-- Each of the 17 operations of this run writes a result computed from its operands: it allocates nothing. -/
theorem fresh1_1 : (hostOps1_1 : List (HloOp τ sig (Elt F))).Forall fun op => op.fresh = ∅ := by
  simp only [List.Forall]; repeat' constructor

/-- Each of the 19 operations of this run writes a result computed from its operands: it allocates nothing. -/
theorem fresh1_2 : (hostOps1_2 : List (HloOp τ sig (Elt F))).Forall fun op => op.fresh = ∅ := by
  simp only [List.Forall]; repeat' constructor

/-- Each of the 3 operations of this run writes a result computed from its operands: it allocates nothing. -/
theorem fresh1_3 : (hostOps1_3 : List (HloOp τ sig (Elt F))).Forall fun op => op.fresh = ∅ := by
  simp only [List.Forall]; repeat' constructor

/-- Each of the 11 operations of this run writes a result computed from its operands: it allocates nothing. -/
theorem fresh1_4 : (hostOps1_4 : List (HloOp τ sig (Elt F))).Forall fun op => op.fresh = ∅ := by
  simp only [List.Forall]; repeat' constructor

/-- Each of the 3 operations of this run writes a result computed from its operands: it allocates nothing. -/
theorem fresh1_5 : (hostOps1_5 : List (HloOp τ sig (Elt F))).Forall fun op => op.fresh = ∅ := by
  simp only [List.Forall]; repeat' constructor

/-- Each of the 10 operations of this run writes a result computed from its operands: it allocates nothing. -/
theorem fresh1_6 : (hostOps1_6 : List (HloOp τ sig (Elt F))).Forall fun op => op.fresh = ∅ := by
  simp only [List.Forall]; repeat' constructor

/-! ## No window's array is overwritten

An operation's only written buffer is its result; the three arrays are results of no operation here, and two
references that differ name different buffers. -/

/-- None of the 23 results of this run is one of the three arrays. -/
theorem keeps1 : (hostOps1 : List (HloOp τ sig (Elt F))).Forall fun op =>
    ∀ w, Proc.devRef .tc (Pipeline.arrRef spec0 w) ∉ op.writes := by
  simp only [List.Forall]
  repeat' apply And.intro
  all_goals
    intro w
    fin_cases w <;>
      simp only [StableHlo.TRef.nullary, StableHlo.TRef.unary, StableHlo.TRef.binary, StableHlo.TRef.ternary,
        StableHlo.nullary_writes, StableHlo.unary_writes, StableHlo.binary_writes, StableHlo.ternary_writes,
        StableHlo.reshape_writes, Finset.mem_singleton] <;>
      exact StableHlo.devRef_ne_of_ne (by decide)

/-- None of the 17 results of this run is one of the three arrays. -/
theorem keeps1_1 : (hostOps1_1 : List (HloOp τ sig (Elt F))).Forall fun op =>
    ∀ w, Proc.devRef .tc (Pipeline.arrRef spec0 w) ∉ op.writes := by
  simp only [List.Forall]
  repeat' apply And.intro
  all_goals
    intro w
    fin_cases w <;>
      simp only [StableHlo.TRef.nullary, StableHlo.TRef.unary, StableHlo.TRef.binary, StableHlo.TRef.ternary,
        StableHlo.nullary_writes, StableHlo.unary_writes, StableHlo.binary_writes, StableHlo.ternary_writes,
        StableHlo.reshape_writes, Finset.mem_singleton] <;>
      exact StableHlo.devRef_ne_of_ne (by decide)

/-- None of the 19 results of this run is one of the three arrays. -/
theorem keeps1_2 : (hostOps1_2 : List (HloOp τ sig (Elt F))).Forall fun op =>
    ∀ w, Proc.devRef .tc (Pipeline.arrRef spec0 w) ∉ op.writes := by
  simp only [List.Forall]
  repeat' apply And.intro
  all_goals
    intro w
    fin_cases w <;>
      simp only [StableHlo.TRef.nullary, StableHlo.TRef.unary, StableHlo.TRef.binary, StableHlo.TRef.ternary,
        StableHlo.nullary_writes, StableHlo.unary_writes, StableHlo.binary_writes, StableHlo.ternary_writes,
        StableHlo.reshape_writes, Finset.mem_singleton] <;>
      exact StableHlo.devRef_ne_of_ne (by decide)

/-- None of the 3 results of this run is one of the three arrays. -/
theorem keeps1_3 : (hostOps1_3 : List (HloOp τ sig (Elt F))).Forall fun op =>
    ∀ w, Proc.devRef .tc (Pipeline.arrRef spec0 w) ∉ op.writes := by
  simp only [List.Forall]
  repeat' apply And.intro
  all_goals
    intro w
    fin_cases w <;>
      simp only [StableHlo.TRef.nullary, StableHlo.TRef.unary, StableHlo.TRef.binary, StableHlo.TRef.ternary,
        StableHlo.nullary_writes, StableHlo.unary_writes, StableHlo.binary_writes, StableHlo.ternary_writes,
        StableHlo.reshape_writes, Finset.mem_singleton] <;>
      exact StableHlo.devRef_ne_of_ne (by decide)

/-- None of the 11 results of this run is one of the three arrays. -/
theorem keeps1_4 : (hostOps1_4 : List (HloOp τ sig (Elt F))).Forall fun op =>
    ∀ w, Proc.devRef .tc (Pipeline.arrRef spec0 w) ∉ op.writes := by
  simp only [List.Forall]
  repeat' apply And.intro
  all_goals
    intro w
    fin_cases w <;>
      simp only [StableHlo.TRef.nullary, StableHlo.TRef.unary, StableHlo.TRef.binary, StableHlo.TRef.ternary,
        StableHlo.nullary_writes, StableHlo.unary_writes, StableHlo.binary_writes, StableHlo.ternary_writes,
        StableHlo.reshape_writes, Finset.mem_singleton] <;>
      exact StableHlo.devRef_ne_of_ne (by decide)

/-- None of the 3 results of this run is one of the three arrays. -/
theorem keeps1_5 : (hostOps1_5 : List (HloOp τ sig (Elt F))).Forall fun op =>
    ∀ w, Proc.devRef .tc (Pipeline.arrRef spec0 w) ∉ op.writes := by
  simp only [List.Forall]
  repeat' apply And.intro
  all_goals
    intro w
    fin_cases w <;>
      simp only [StableHlo.TRef.nullary, StableHlo.TRef.unary, StableHlo.TRef.binary, StableHlo.TRef.ternary,
        StableHlo.nullary_writes, StableHlo.unary_writes, StableHlo.binary_writes, StableHlo.ternary_writes,
        StableHlo.reshape_writes, Finset.mem_singleton] <;>
      exact StableHlo.devRef_ne_of_ne (by decide)

/-- None of the 10 results of this run is one of the three arrays. -/
theorem keeps1_6 : (hostOps1_6 : List (HloOp τ sig (Elt F))).Forall fun op =>
    ∀ w, Proc.devRef .tc (Pipeline.arrRef spec0 w) ∉ op.writes := by
  simp only [List.Forall]
  repeat' apply And.intro
  all_goals
    intro w
    fin_cases w <;>
      simp only [StableHlo.TRef.nullary, StableHlo.TRef.unary, StableHlo.TRef.binary, StableHlo.TRef.ternary,
        StableHlo.nullary_writes, StableHlo.unary_writes, StableHlo.binary_writes, StableHlo.ternary_writes,
        StableHlo.reshape_writes, Finset.mem_singleton] <;>
      exact StableHlo.devRef_ne_of_ne (by decide)

/-! ## The program's argument is not overwritten

The argument's buffer is the result of no operation after the call either, so it holds at the end what it held
when the call returned. -/

/-- None of the 23 results of this run is the argument. -/
theorem arg1 : (hostOps1 : List (HloOp τ sig (Elt F))).Forall fun op =>
    Proc.devRef .tc main_arg0 ∉ op.writes := by
  simp only [List.Forall]
  repeat' apply And.intro
  all_goals
    simp only [StableHlo.TRef.nullary, StableHlo.TRef.unary, StableHlo.TRef.binary, StableHlo.TRef.ternary,
      StableHlo.nullary_writes, StableHlo.unary_writes, StableHlo.binary_writes, StableHlo.ternary_writes,
      StableHlo.reshape_writes, Finset.mem_singleton]
    exact StableHlo.devRef_ne_of_ne (by decide)

/-- None of the 17 results of this run is the argument. -/
theorem arg1_1 : (hostOps1_1 : List (HloOp τ sig (Elt F))).Forall fun op =>
    Proc.devRef .tc main_arg0 ∉ op.writes := by
  simp only [List.Forall]
  repeat' apply And.intro
  all_goals
    simp only [StableHlo.TRef.nullary, StableHlo.TRef.unary, StableHlo.TRef.binary, StableHlo.TRef.ternary,
      StableHlo.nullary_writes, StableHlo.unary_writes, StableHlo.binary_writes, StableHlo.ternary_writes,
      StableHlo.reshape_writes, Finset.mem_singleton]
    exact StableHlo.devRef_ne_of_ne (by decide)

/-- None of the 19 results of this run is the argument. -/
theorem arg1_2 : (hostOps1_2 : List (HloOp τ sig (Elt F))).Forall fun op =>
    Proc.devRef .tc main_arg0 ∉ op.writes := by
  simp only [List.Forall]
  repeat' apply And.intro
  all_goals
    simp only [StableHlo.TRef.nullary, StableHlo.TRef.unary, StableHlo.TRef.binary, StableHlo.TRef.ternary,
      StableHlo.nullary_writes, StableHlo.unary_writes, StableHlo.binary_writes, StableHlo.ternary_writes,
      StableHlo.reshape_writes, Finset.mem_singleton]
    exact StableHlo.devRef_ne_of_ne (by decide)

/-- None of the 3 results of this run is the argument. -/
theorem arg1_3 : (hostOps1_3 : List (HloOp τ sig (Elt F))).Forall fun op =>
    Proc.devRef .tc main_arg0 ∉ op.writes := by
  simp only [List.Forall]
  repeat' apply And.intro
  all_goals
    simp only [StableHlo.TRef.nullary, StableHlo.TRef.unary, StableHlo.TRef.binary, StableHlo.TRef.ternary,
      StableHlo.nullary_writes, StableHlo.unary_writes, StableHlo.binary_writes, StableHlo.ternary_writes,
      StableHlo.reshape_writes, Finset.mem_singleton]
    exact StableHlo.devRef_ne_of_ne (by decide)

/-- None of the 11 results of this run is the argument. -/
theorem arg1_4 : (hostOps1_4 : List (HloOp τ sig (Elt F))).Forall fun op =>
    Proc.devRef .tc main_arg0 ∉ op.writes := by
  simp only [List.Forall]
  repeat' apply And.intro
  all_goals
    simp only [StableHlo.TRef.nullary, StableHlo.TRef.unary, StableHlo.TRef.binary, StableHlo.TRef.ternary,
      StableHlo.nullary_writes, StableHlo.unary_writes, StableHlo.binary_writes, StableHlo.ternary_writes,
      StableHlo.reshape_writes, Finset.mem_singleton]
    exact StableHlo.devRef_ne_of_ne (by decide)

/-- None of the 3 results of this run is the argument. -/
theorem arg1_5 : (hostOps1_5 : List (HloOp τ sig (Elt F))).Forall fun op =>
    Proc.devRef .tc main_arg0 ∉ op.writes := by
  simp only [List.Forall]
  repeat' apply And.intro
  all_goals
    simp only [StableHlo.TRef.nullary, StableHlo.TRef.unary, StableHlo.TRef.binary, StableHlo.TRef.ternary,
      StableHlo.nullary_writes, StableHlo.unary_writes, StableHlo.binary_writes, StableHlo.ternary_writes,
      StableHlo.reshape_writes, Finset.mem_singleton]
    exact StableHlo.devRef_ne_of_ne (by decide)

/-- None of the 10 results of this run is the argument. -/
theorem arg1_6 : (hostOps1_6 : List (HloOp τ sig (Elt F))).Forall fun op =>
    Proc.devRef .tc main_arg0 ∉ op.writes := by
  simp only [List.Forall]
  repeat' apply And.intro
  all_goals
    simp only [StableHlo.TRef.nullary, StableHlo.TRef.unary, StableHlo.TRef.binary, StableHlo.TRef.ternary,
      StableHlo.nullary_writes, StableHlo.unary_writes, StableHlo.binary_writes, StableHlo.ternary_writes,
      StableHlo.reshape_writes, Finset.mem_singleton]
    exact StableHlo.devRef_ne_of_ne (by decide)

/-! ## The facts over all seven runs -/

/-- Every buffer touched after the call is one of the windows' arrays or bypasses the call: each is an unscoped
    tensor value, and with nothing prefetched those are exactly the buffers that survive the call. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- No operation after the call allocates. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop
  · exact (List.forall_iff_forall_mem.mp fresh1_5) op hop
  · exact (List.forall_iff_forall_mem.mp fresh1_6) op hop

/-- No operation after the call writes a window's array. -/
theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl
  · exact (List.forall_iff_forall_mem.mp keeps1) op hop
  · exact (List.forall_iff_forall_mem.mp keeps1_1) op hop
  · exact (List.forall_iff_forall_mem.mp keeps1_2) op hop
  · exact (List.forall_iff_forall_mem.mp keeps1_3) op hop
  · exact (List.forall_iff_forall_mem.mp keeps1_4) op hop
  · exact (List.forall_iff_forall_mem.mp keeps1_5) op hop
  · exact (List.forall_iff_forall_mem.mp keeps1_6) op hop

/-- No operation after the call writes the program's argument. -/
theorem tail_keeps_arg0 : ∀ ops ∈ (tailOps : List (List (HloOp τ sig (Elt F)))), ∀ op ∈ ops,
    Proc.devRef .tc main_arg0 ∉ op.writes := by
  intro ops hops op hop
  simp only [tailOps, List.mem_cons, List.mem_nil_iff, or_false] at hops
  rcases hops with rfl | rfl | rfl | rfl | rfl | rfl | rfl
  · exact (List.forall_iff_forall_mem.mp arg1) op hop
  · exact (List.forall_iff_forall_mem.mp arg1_1) op hop
  · exact (List.forall_iff_forall_mem.mp arg1_2) op hop
  · exact (List.forall_iff_forall_mem.mp arg1_3) op hop
  · exact (List.forall_iff_forall_mem.mp arg1_4) op hop
  · exact (List.forall_iff_forall_mem.mp arg1_5) op hop
  · exact (List.forall_iff_forall_mem.mp arg1_6) op hop

/-- So after all of them the argument's buffer holds what it held before the first. -/
theorem tail_arg0 (W : Valuation τ sig (Elt F)) :
    StableHlo.after (tailOps : List (List (HloOp τ sig (Elt F)))).flatten W (Proc.devRef .tc main_arg0)
      = W (Proc.devRef .tc main_arg0) :=
  StableHlo.after_of_forall_not_mem _ W fun op hop => by
    obtain ⟨ops, hops, hop'⟩ := List.mem_flatten.mp hop
    exact tail_keeps_arg0 ops hops op hop'

end Cert.Kernel.Fr

end
-- ==== Proof.BitsGramFrame.lean ====
/-
  The frame of the kernel program: it runs to the end, faults nowhere, and leaves its argument as it found it.

  What each course of the body leaves in the two scratch buffers (and, at a last step, in the two output buffers) is
  read back from the pieces its run stored; `contentsAt` says what the four buffers hold after each grid point, by
  recursion on the point: a first step's contents depend on the block alone, a middle or last step's also on the two
  totals the step before left.  The region's invariant carries the two totals from point to point.  The proof data
  hand the pipeline the input's block at every point and the outputs' contents at the last steps; the body obligation
  is the three runs, one per course; the launch theorem then gives the run of the whole program, through the host
  operations after the region, and the argument array is read back unchanged.
-/
import proofs.«146502_j20134806684259_1_alg».proof.Proof.BitsGramRunLast
import proofs.«146502_j20134806684259_1_alg».proof.Proof.BitsTailLines

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three runs at a grid point -/

abbrev firstAt (c : Dev nD) (n : ℕ) (hn : n < cfg0.N) (h0 : n % 24 = 0) (h1 : ¬n % 24 = 23) (x : Vec F S1024x1024 .f32) :=
  runFirst (F := F) c (grid0.coords ⟨n, hn⟩) (stIn ⟨n, hn⟩) (stIn_whole ⟨n, hn⟩) (stGram ⟨n, hn⟩) (stGram_whole ⟨n, hn⟩) (stSq ⟨n, hn⟩) (stSq_whole ⟨n, hn⟩) accGram (Memref.isWhole_whole _) accSqM (Memref.isWhole_whole _) ((isFirst_iff ⟨n, hn⟩).mpr h0) (fun h => h1 ((isLast_iff ⟨n, hn⟩).mp h)) x
abbrev midAt (c : Dev nD) (n : ℕ) (hn : n < cfg0.N) (h0 : ¬n % 24 = 0) (h1 : ¬n % 24 = 23) (x : Vec F S1024x1024 .f32) (a : Vec F S1024x1024 .f32) (b : Vec F S1024x1 .f32) :=
  runMid (F := F) c (grid0.coords ⟨n, hn⟩) (stIn ⟨n, hn⟩) (stIn_whole ⟨n, hn⟩) (stGram ⟨n, hn⟩) (stGram_whole ⟨n, hn⟩) (stSq ⟨n, hn⟩) (stSq_whole ⟨n, hn⟩) accGram (Memref.isWhole_whole _) accSqM (Memref.isWhole_whole _) (fun h => h0 ((isFirst_iff ⟨n, hn⟩).mp h)) (fun h => h1 ((isLast_iff ⟨n, hn⟩).mp h)) x a b
abbrev lastAt (c : Dev nD) (n : ℕ) (hn : n < cfg0.N) (h0 : ¬n % 24 = 0) (h1 : n % 24 = 23) (x : Vec F S1024x1024 .f32) (a : Vec F S1024x1024 .f32) (b : Vec F S1024x1 .f32) :=
  runLast (F := F) c (grid0.coords ⟨n, hn⟩) (stIn ⟨n, hn⟩) (stIn_whole ⟨n, hn⟩) (stGram ⟨n, hn⟩) (stGram_whole ⟨n, hn⟩) (stSq ⟨n, hn⟩) (stSq_whole ⟨n, hn⟩) accGram (Memref.isWhole_whole _) accSqM (Memref.isWhole_whole _) (fun h => h0 ((isFirst_iff ⟨n, hn⟩).mp h)) ((isLast_iff ⟨n, hn⟩).mpr h1) x a b

/-! ## The stored pieces cover their buffers -/

theorem gramFirst_cover (c : Dev nD) (n : ℕ) (hn : n < cfg0.N) (h0 : n % 24 = 0) (h1 : ¬n % 24 = 23) (x : Vec F S1024x1024 .f32) (y : S1024x1024.Idx) :
    ∃ pc ∈ (firstAt c n hn h0 h1 x).2.2.1, y ∈ pc.1.set :=
  View.cover_of_tiledL (firstAt c n hn h0 h1 x).2.2.1 S1024x1024.size (by sl_kernel_rfl) y
theorem sqFirst_cover (c : Dev nD) (n : ℕ) (hn : n < cfg0.N) (h0 : n % 24 = 0) (h1 : ¬n % 24 = 23) (x : Vec F S1024x1024 .f32) (y : S1024x1.Idx) :
    ∃ pc ∈ (firstAt c n hn h0 h1 x).2.2.2.1, y ∈ pc.1.set :=
  View.cover_of_tiledL (firstAt c n hn h0 h1 x).2.2.2.1 S1024x1.size (by sl_kernel_rfl) y
theorem gramMid_cover (c : Dev nD) (n : ℕ) (hn : n < cfg0.N) (h0 : ¬n % 24 = 0) (h1 : ¬n % 24 = 23) (x : Vec F S1024x1024 .f32) (a : Vec F S1024x1024 .f32) (b : Vec F S1024x1 .f32) (y : S1024x1024.Idx) :
    ∃ pc ∈ (midAt c n hn h0 h1 x a b).2.2.1, y ∈ pc.1.set :=
  View.cover_of_tiledL (midAt c n hn h0 h1 x a b).2.2.1 S1024x1024.size (by sl_kernel_rfl) y
theorem sqMid_cover (c : Dev nD) (n : ℕ) (hn : n < cfg0.N) (h0 : ¬n % 24 = 0) (h1 : ¬n % 24 = 23) (x : Vec F S1024x1024 .f32) (a : Vec F S1024x1024 .f32) (b : Vec F S1024x1 .f32) (y : S1024x1.Idx) :
    ∃ pc ∈ (midAt c n hn h0 h1 x a b).2.2.2.1, y ∈ pc.1.set :=
  View.cover_of_tiledL (midAt c n hn h0 h1 x a b).2.2.2.1 S1024x1.size (by sl_kernel_rfl) y
theorem gramLast_cover (c : Dev nD) (n : ℕ) (hn : n < cfg0.N) (h0 : ¬n % 24 = 0) (h1 : n % 24 = 23) (x : Vec F S1024x1024 .f32) (a : Vec F S1024x1024 .f32) (b : Vec F S1024x1 .f32) (y : S1024x1024.Idx) :
    ∃ pc ∈ (lastAt c n hn h0 h1 x a b).2.2.1, y ∈ pc.1.set :=
  View.cover_of_tiledL (lastAt c n hn h0 h1 x a b).2.2.1 S1024x1024.size (by sl_kernel_rfl) y
theorem sqLast_cover (c : Dev nD) (n : ℕ) (hn : n < cfg0.N) (h0 : ¬n % 24 = 0) (h1 : n % 24 = 23) (x : Vec F S1024x1024 .f32) (a : Vec F S1024x1024 .f32) (b : Vec F S1024x1 .f32) (y : S1024x1.Idx) :
    ∃ pc ∈ (lastAt c n hn h0 h1 x a b).2.2.2.1, y ∈ pc.1.set :=
  View.cover_of_tiledL (lastAt c n hn h0 h1 x a b).2.2.2.1 S1024x1.size (by sl_kernel_rfl) y
theorem outGram_cover (c : Dev nD) (n : ℕ) (hn : n < cfg0.N) (h0 : ¬n % 24 = 0) (h1 : n % 24 = 23) (x : Vec F S1024x1024 .f32) (a : Vec F S1024x1024 .f32) (b : Vec F S1024x1 .f32) (y : S1x1024x1024.Idx) :
    ∃ pc ∈ (lastAt c n hn h0 h1 x a b).1, y ∈ pc.1.set :=
  View.cover_of_tiledL (lastAt c n hn h0 h1 x a b).1 S1x1024x1024.size (by sl_kernel_rfl) y
theorem outSq_cover (c : Dev nD) (n : ℕ) (hn : n < cfg0.N) (h0 : ¬n % 24 = 0) (h1 : n % 24 = 23) (x : Vec F S1024x1024 .f32) (a : Vec F S1024x1024 .f32) (b : Vec F S1024x1 .f32) (y : S1x1024x1.Idx) :
    ∃ pc ∈ (lastAt c n hn h0 h1 x a b).2.1, y ∈ pc.1.set :=
  View.cover_of_tiledL (lastAt c n hn h0 h1 x a b).2.1 S1x1024x1.size (by sl_kernel_rfl) y

/-! ## What each course leaves, read back from its pieces -/

def gramFirst (c : Dev nD) (n : ℕ) (hn : n < cfg0.N) (h0 : n % 24 = 0) (h1 : ¬n % 24 = 23) (x : Vec F S1024x1024 .f32) : Vec F S1024x1024 .f32 :=
  accGramV.read (Elt F) (accGramV.writes (Elt F) accGramV.junk (firstAt c n hn h0 h1 x).2.2.1)
def sqFirst (c : Dev nD) (n : ℕ) (hn : n < cfg0.N) (h0 : n % 24 = 0) (h1 : ¬n % 24 = 23) (x : Vec F S1024x1024 .f32) : Vec F S1024x1 .f32 :=
  accSqV.read (Elt F) (accSqV.writes (Elt F) accSqV.junk (firstAt c n hn h0 h1 x).2.2.2.1)
def gramMid (c : Dev nD) (n : ℕ) (hn : n < cfg0.N) (h0 : ¬n % 24 = 0) (h1 : ¬n % 24 = 23) (x : Vec F S1024x1024 .f32) (a : Vec F S1024x1024 .f32) (b : Vec F S1024x1 .f32) : Vec F S1024x1024 .f32 :=
  accGramV.read (Elt F) (accGramV.writes (Elt F) accGramV.junk (midAt c n hn h0 h1 x a b).2.2.1)
def sqMid (c : Dev nD) (n : ℕ) (hn : n < cfg0.N) (h0 : ¬n % 24 = 0) (h1 : ¬n % 24 = 23) (x : Vec F S1024x1024 .f32) (a : Vec F S1024x1024 .f32) (b : Vec F S1024x1 .f32) : Vec F S1024x1 .f32 :=
  accSqV.read (Elt F) (accSqV.writes (Elt F) accSqV.junk (midAt c n hn h0 h1 x a b).2.2.2.1)
def gramLast (c : Dev nD) (n : ℕ) (hn : n < cfg0.N) (h0 : ¬n % 24 = 0) (h1 : n % 24 = 23) (x : Vec F S1024x1024 .f32) (a : Vec F S1024x1024 .f32) (b : Vec F S1024x1 .f32) : Vec F S1024x1024 .f32 :=
  accGramV.read (Elt F) (accGramV.writes (Elt F) accGramV.junk (lastAt c n hn h0 h1 x a b).2.2.1)
def sqLast (c : Dev nD) (n : ℕ) (hn : n < cfg0.N) (h0 : ¬n % 24 = 0) (h1 : n % 24 = 23) (x : Vec F S1024x1024 .f32) (a : Vec F S1024x1024 .f32) (b : Vec F S1024x1 .f32) : Vec F S1024x1 .f32 :=
  accSqV.read (Elt F) (accSqV.writes (Elt F) accSqV.junk (lastAt c n hn h0 h1 x a b).2.2.2.1)
def outGram (c : Dev nD) (n : ℕ) (hn : n < cfg0.N) (h0 : ¬n % 24 = 0) (h1 : n % 24 = 23) (x : Vec F S1024x1024 .f32) (a : Vec F S1024x1024 .f32) (b : Vec F S1024x1 .f32) : Vec F S1x1024x1024 .f32 :=
  viewGram.read (Elt F) (viewGram.writes (Elt F) viewGram.junk (lastAt c n hn h0 h1 x a b).1)
def outSq (c : Dev nD) (n : ℕ) (hn : n < cfg0.N) (h0 : ¬n % 24 = 0) (h1 : n % 24 = 23) (x : Vec F S1024x1024 .f32) (a : Vec F S1024x1024 .f32) (b : Vec F S1024x1 .f32) : Vec F S1x1024x1 .f32 :=
  viewSq.read (Elt F) (viewSq.writes (Elt F) viewSq.junk (lastAt c n hn h0 h1 x a b).2.1)

/-- Off a last step the output buffers are not stored into: a placeholder nothing consults. -/
def untouchedGram : Vec F S1x1024x1024 .f32 := viewGram.read (Elt F) viewGram.junk
def untouchedSq : Vec F S1x1024x1 .f32 := viewSq.read (Elt F) viewSq.junk

/-! ## The contents after each point -/

/-- The two output buffers and the two scratch buffers, in that order. -/
abbrev Four (F : FTy → Type) [FloatOps F] : Type := Vec F S1x1024x1024 .f32 × Vec F S1x1024x1 .f32 × Vec F S1024x1024 .f32 × Vec F S1024x1 .f32

/-- What the four buffers hold after the body at point `n`. -/
def contentsAt (c : Dev nD) : (n : ℕ) → n < cfg0.N → Four F
  | 0, hn => (untouchedGram, untouchedSq, gramFirst c 0 hn (Nat.zero_mod _) (by decide) (blk m c 0 ⟨0, hn⟩), sqFirst c 0 hn (Nat.zero_mod _) (by decide) (blk m c 0 ⟨0, hn⟩))
  | n + 1, hn =>
    if h0 : (n + 1) % 24 = 0 then
      if h1 : (n + 1) % 24 = 23 then False.elim (by omega)
      else (untouchedGram, untouchedSq, gramFirst c (n + 1) hn h0 h1 (blk m c 0 ⟨n + 1, hn⟩), sqFirst c (n + 1) hn h0 h1 (blk m c 0 ⟨n + 1, hn⟩))
    else
      if h1 : (n + 1) % 24 = 23 then
        (outGram c (n + 1) hn h0 h1 (blk m c 0 ⟨n + 1, hn⟩) (contentsAt c n (Nat.lt_of_succ_lt hn)).2.2.1 (contentsAt c n (Nat.lt_of_succ_lt hn)).2.2.2,
         outSq c (n + 1) hn h0 h1 (blk m c 0 ⟨n + 1, hn⟩) (contentsAt c n (Nat.lt_of_succ_lt hn)).2.2.1 (contentsAt c n (Nat.lt_of_succ_lt hn)).2.2.2,
         gramLast c (n + 1) hn h0 h1 (blk m c 0 ⟨n + 1, hn⟩) (contentsAt c n (Nat.lt_of_succ_lt hn)).2.2.1 (contentsAt c n (Nat.lt_of_succ_lt hn)).2.2.2,
         sqLast c (n + 1) hn h0 h1 (blk m c 0 ⟨n + 1, hn⟩) (contentsAt c n (Nat.lt_of_succ_lt hn)).2.2.1 (contentsAt c n (Nat.lt_of_succ_lt hn)).2.2.2)
      else
        (untouchedGram, untouchedSq,
         gramMid c (n + 1) hn h0 h1 (blk m c 0 ⟨n + 1, hn⟩) (contentsAt c n (Nat.lt_of_succ_lt hn)).2.2.1 (contentsAt c n (Nat.lt_of_succ_lt hn)).2.2.2,
         sqMid c (n + 1) hn h0 h1 (blk m c 0 ⟨n + 1, hn⟩) (contentsAt c n (Nat.lt_of_succ_lt hn)).2.2.1 (contentsAt c n (Nat.lt_of_succ_lt hn)).2.2.2)

/-- The totals the point before `t` left. -/
abbrev prevGram (c : Dev nD) (t : Fin cfg0.N) : Vec F S1024x1024 .f32 := (contentsAt m c (t.val - 1) (Nat.lt_of_le_of_lt (Nat.sub_le _ _) t.isLt)).2.2.1
abbrev prevSq (c : Dev nD) (t : Fin cfg0.N) : Vec F S1024x1 .f32 := (contentsAt m c (t.val - 1) (Nat.lt_of_le_of_lt (Nat.sub_le _ _) t.isLt)).2.2.2

theorem contentsAt_first (c : Dev nD) (t : Fin cfg0.N) (h0 : t.val % 24 = 0) (h1 : ¬t.val % 24 = 23) :
    contentsAt m c t.val t.isLt = (untouchedGram, untouchedSq, gramFirst c t.val t.isLt h0 h1 (blk m c 0 t), sqFirst c t.val t.isLt h0 h1 (blk m c 0 t)) := by
  obtain ⟨n, hn⟩ := t
  cases n with
  | zero => exact rfl
  | succ n => exact (dif_pos h0).trans ((dif_neg h1).trans rfl)

theorem contentsAt_mid (c : Dev nD) (t : Fin cfg0.N) (h0 : ¬t.val % 24 = 0) (h1 : ¬t.val % 24 = 23) :
    contentsAt m c t.val t.isLt = (untouchedGram, untouchedSq, gramMid c t.val t.isLt h0 h1 (blk m c 0 t) (prevGram m c t) (prevSq m c t),
      sqMid c t.val t.isLt h0 h1 (blk m c 0 t) (prevGram m c t) (prevSq m c t)) := by
  obtain ⟨n, hn⟩ := t
  cases n with
  | zero => exact (by exfalso; (try dsimp only at h0); exact absurd (Nat.zero_mod _) h0)
  | succ n => exact (dif_neg h0).trans ((dif_neg h1).trans rfl)

theorem contentsAt_last (c : Dev nD) (t : Fin cfg0.N) (h0 : ¬t.val % 24 = 0) (h1 : t.val % 24 = 23) :
    contentsAt m c t.val t.isLt = (outGram c t.val t.isLt h0 h1 (blk m c 0 t) (prevGram m c t) (prevSq m c t), outSq c t.val t.isLt h0 h1 (blk m c 0 t) (prevGram m c t) (prevSq m c t),
      gramLast c t.val t.isLt h0 h1 (blk m c 0 t) (prevGram m c t) (prevSq m c t), sqLast c t.val t.isLt h0 h1 (blk m c 0 t) (prevGram m c t) (prevSq m c t)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point the scratch buffers hold anything; afterwards the two totals the point before left. -/
def carried (c : Dev nD) : (n : ℕ) → n ≤ cfg0.N → sProp 𝕄
  | 0, _ => Pipeline.ΦA spec0 c
  | n + 1, hn => iprop(iprop(owns (c : Thread nD τ) accGram fullShare ((contentsAt m c n hn).2.2.1) ∗ owns (c : Thread nD τ) accSqM fullShare ((contentsAt m c n hn).2.2.2)) ∗ (∃ r, prngReg c r))

theorem carried_zero (c : Dev nD) (n : ℕ) (h : n ≤ cfg0.N) (hz : n = 0) : carried m c n h = Pipeline.ΦA spec0 c := by
  subst hz; rfl
theorem carried_succ (c : Dev nD) (n : ℕ) (hn : n < cfg0.N) :
    carried m c (n + 1) hn = iprop(iprop(owns (c : Thread nD τ) accGram fullShare ((contentsAt m c n hn).2.2.1) ∗ owns (c : Thread nD τ) accSqM fullShare ((contentsAt m c n hn).2.2.2)) ∗ (∃ r, prngReg c r)) := rfl
theorem carried_pos (c : Dev nD) (n : ℕ) (h : n ≤ cfg0.N) (hz : n ≠ 0) :
    carried m c n h = iprop(iprop(owns (c : Thread nD τ) accGram fullShare ((contentsAt m c (n - 1) (by omega)).2.2.1) ∗ owns (c : Thread nD τ) accSqM fullShare ((contentsAt m c (n - 1) (by omega)).2.2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := entryAt m c (Pipeline.arrRef spec0 w)
  after w t := match w with
    | ⟨0, _⟩ => blk m c 0 t
    | ⟨1, _⟩ => (contentsAt m c t.val t.isLt).1
    | ⟨2, _⟩ => (contentsAt m c t.val t.isLt).2.1
  Φ t := carried m c t.val (Nat.le_of_lt_succ t.isLt)
  q _ := fullShare
  owed _ := 0

theorem A_eq (c : Dev nD) (w : Fin cfg0.W) : (dats m 0 c).A w = entryAt m c (Pipeline.arrRef spec0 w) := by
  dsimp only [dats]
theorem carried_castSucc (c : Dev nD) (t : Fin cfg0.N) :
    (dats m 0 c).Φ t.castSucc = carried m c t.val (Nat.le_of_lt t.isLt) := by
  dsimp only [dats]; simp only [Fin.coe_castSucc]
theorem after_in (c : Dev nD) (t : Fin cfg0.N) : (dats m 0 c).after 0 t = blk m c 0 t := by dsimp only [dats]
theorem after_gram (c : Dev nD) (t : Fin cfg0.N) : (dats m 0 c).after 1 t = (contentsAt m c t.val t.isLt).1 := by dsimp only [dats]
theorem after_sq (c : Dev nD) (t : Fin cfg0.N) : (dats m 0 c).after 2 t = (contentsAt m c t.val t.isLt).2.1 := by dsimp only [dats]
theorem before_in (c : Dev nD) (t : Fin cfg0.N) (d) : (dats m 0 c).before 0 t d = blk m c 0 t :=
  before_in_of m (dats m 0 c) (A_eq m c 0) (after_in m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (stIn t) fullShare ((dats m 0 c).before 0 t d))
    ∗ (∃ d, owns (c : Thread nD τ) (stGram t) fullShare ((dats m 0 c).before 1 t d))
    ∗ (∃ d, owns (c : Thread nD τ) (stSq t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = carried m c (t.val + 1) t.isLt from rfl, carried_succ]
  have hN : t.val < 48 := lt_of_lt_of_eq t.isLt (show cfg0.N = 48 from N_0)
  rw [show (dats m 0 c).leavesExact 0 t = owns (c : Thread nD τ) (stIn t) fullShare ((dats m 0 c).after 0 t) from by
    unfold Dat.leavesExact; rw [live_in t], after_in]
  by_cases h1 : t.val % 24 = 23
  · -- a last step
    have h0 : ¬t.val % 24 = 0 := by omega
    have hl : isLast (grid0.coords t) := (isLast_iff t).mpr h1
    rw [show (dats m 0 c).leavesExact 1 t = owns (c : Thread nD τ) (stGram t) fullShare ((dats m 0 c).after 1 t) from by
      unfold Dat.leavesExact; rw [live_gram t hl], after_gram]
    rw [show (dats m 0 c).leavesExact 2 t = owns (c : Thread nD τ) (stSq t) fullShare ((dats m 0 c).after 2 t) from by
      unfold Dat.leavesExact; rw [live_sq t hl], after_sq]
    rw [contentsAt_last m c t h0 h1]
    unfold outGram outSq gramLast sqLast; (try dsimp only)
    have hz : t.val ≠ 0 := by omega
    rw [carried_castSucc m c t, carried_pos m c _ _ hz]
    iintro ⟨⟨⟨HA, HB⟩, Hg⟩, Ho, ⟨%d0, H0⟩, ⟨%d1, H1⟩, ⟨%d2, H2⟩⟩
    iapply ((lastAt c t.val t.isLt h0 h1 (blk m c 0 t) _ _).2.2.2.2 Set.univ _)
    isplitl [H0]; · iexact H0
    isplitl [H1]; · iexists _; iexact H1
    isplitl [H2]; · iexists _; iexact H2
    isplitl [HA]; · iexact HA
    isplitl [HB]; · iexact HB
    iintro ⟨H0, ⟨%e1, H1⟩, ⟨%e2, H2⟩, ⟨%ea, HA⟩, ⟨%eb, HB⟩⟩
    isplitl [HA HB Hg]
    · isplitl [HA HB]
      · isplitl [HA]
        · unfold owns; iexists _; isplitr
          swap; · iexact HA
          ipureintro; exact View.read_writes_of_cover _ _ _ _ _ (gramLast_cover c _ _ _ _ _ _ _)
        · unfold owns; iexists _; isplitr
          swap; · iexact HB
          ipureintro; exact View.read_writes_of_cover _ _ _ _ _ (sqLast_cover c _ _ _ _ _ _ _)
      iexact Hg
    isplitl [Ho]; · iexact Ho
    isplitl [H0]; · iexact H0
    isplitl [H1]
    · unfold owns; iexists _; isplitr
      swap; · iexact H1
      ipureintro; exact View.read_writes_of_cover _ _ _ _ _ (outGram_cover c _ _ _ _ _ _ _)
    · unfold owns; iexists _; isplitr
      swap; · iexact H2
      ipureintro; exact View.read_writes_of_cover _ _ _ _ _ (outSq_cover c _ _ _ _ _ _ _)
  · have hl : ¬isLast (grid0.coords t) := fun h => h1 ((isLast_iff t).mp h)
    rw [Dat.leavesExact_idle (dats m 0 c) 1 t (idle_gram t hl) (keep_gram t hl)]
    rw [Dat.leavesExact_idle (dats m 0 c) 2 t (idle_sq t hl) (keep_sq t hl)]
    by_cases h0 : t.val % 24 = 0
    · -- a first step
      rw [contentsAt_first m c t h0 h1]
      unfold gramFirst sqFirst; (try dsimp only)
      by_cases hz : t.val = 0
      · rw [carried_castSucc m c t, carried_zero m c _ _ hz, scratch_any]
        iintro ⟨⟨⟨HA, HB⟩, Hg⟩, Ho, ⟨%d0, H0⟩, ⟨%d1, H1⟩, ⟨%d2, H2⟩⟩
        iapply ((firstAt c t.val t.isLt h0 h1 (blk m c 0 t)).2.2.2.2 _ _ Set.univ _)
        isplitl [H0]; · iexact H0
        isplitl [H1]; · iexact H1
        isplitl [H2]; · iexact H2
        isplitl [HA]; · iexact HA
        isplitl [HB]; · iexact HB
        iintro ⟨H0, H1, H2, ⟨%ea, HA⟩, ⟨%eb, HB⟩⟩
        isplitl [HA HB Hg]
        · isplitl [HA HB]
          · isplitl [HA]
            · unfold owns; iexists _; isplitr
              swap; · iexact HA
              ipureintro; exact View.read_writes_of_cover _ _ _ _ _ (gramFirst_cover c _ _ _ _ _)
            · unfold owns; iexists _; isplitr
              swap; · iexact HB
              ipureintro; exact View.read_writes_of_cover _ _ _ _ _ (sqFirst_cover c _ _ _ _ _)
          iexact Hg
        isplitl [Ho]; · iexact Ho
        isplitl [H0]; · iexact H0
        isplitl [H1]; · iexists _; iexact H1
        iexists _; iexact H2
      · rw [carried_castSucc m c t, carried_pos m c _ _ hz]
        iintro ⟨⟨⟨HA, HB⟩, Hg⟩, Ho, ⟨%d0, H0⟩, ⟨%d1, H1⟩, ⟨%d2, H2⟩⟩
        iapply ((firstAt c t.val t.isLt h0 h1 (blk m c 0 t)).2.2.2.2 _ _ Set.univ _)
        isplitl [H0]; · iexact H0
        isplitl [H1]; · iexact H1
        isplitl [H2]; · iexact H2
        isplitl [HA]; · iexists _; iexact HA
        isplitl [HB]; · iexists _; iexact HB
        iintro ⟨H0, H1, H2, ⟨%ea, HA⟩, ⟨%eb, HB⟩⟩
        isplitl [HA HB Hg]
        · isplitl [HA HB]
          · isplitl [HA]
            · unfold owns; iexists _; isplitr
              swap; · iexact HA
              ipureintro; exact View.read_writes_of_cover _ _ _ _ _ (gramFirst_cover c _ _ _ _ _)
            · unfold owns; iexists _; isplitr
              swap; · iexact HB
              ipureintro; exact View.read_writes_of_cover _ _ _ _ _ (sqFirst_cover c _ _ _ _ _)
          iexact Hg
        isplitl [Ho]; · iexact Ho
        isplitl [H0]; · iexact H0
        isplitl [H1]; · iexists _; iexact H1
        iexists _; iexact H2
    · -- a middle step
      rw [contentsAt_mid m c t h0 h1]
      unfold gramMid sqMid; (try dsimp only)
      have hz : t.val ≠ 0 := by omega
      rw [carried_castSucc m c t, carried_pos m c _ _ hz]
      iintro ⟨⟨⟨HA, HB⟩, Hg⟩, Ho, ⟨%d0, H0⟩, ⟨%d1, H1⟩, ⟨%d2, H2⟩⟩
      iapply ((midAt c t.val t.isLt h0 h1 (blk m c 0 t) _ _).2.2.2.2 _ _ Set.univ _)
      isplitl [H0]; · iexact H0
      isplitl [H1]; · iexact H1
      isplitl [H2]; · iexact H2
      isplitl [HA]; · iexact HA
      isplitl [HB]; · iexact HB
      iintro ⟨H0, H1, H2, ⟨%ea, HA⟩, ⟨%eb, HB⟩⟩
      isplitl [HA HB Hg]
      · isplitl [HA HB]
        · isplitl [HA]
          · unfold owns; iexists _; isplitr
            swap; · iexact HA
            ipureintro; exact View.read_writes_of_cover _ _ _ _ _ (gramMid_cover c _ _ _ _ _ _ _)
          · unfold owns; iexists _; isplitr
            swap; · iexact HB
            ipureintro; exact View.read_writes_of_cover _ _ _ _ _ (sqMid_cover c _ _ _ _ _ _ _)
        iexact Hg
      isplitl [Ho]; · iexact Ho
      isplitl [H0]; · iexact H0
      isplitl [H1]; · iexists _; iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 48 := N_0; omega
  rw [show (dats m 0 c).Φ (Fin.last cfg0.N) = carried m c (Fin.last cfg0.N).val (Nat.le_of_lt_succ (Fin.last cfg0.N).isLt) from rfl,
    carried_pos m c _ _ ht, scratch_any]
  iintro ⟨⟨HA, HB⟩, Hg⟩
  isplitl [HA HB]
  · isplitl [HA]
    · iexists _; iexact HA
    · iexists _; iexact HB
  iexact Hg

/-! ## The run and the frame -/

/-- @main is the reshape, the region, then the host operations after it. -/
theorem hmain (𝒱₀ : Variants) : Pipeline.HMainK (Ix := Unit) (Name := ℕ) (U := UR sig nD τ) (Lvl := ℕ) cfgs 0 defs₀ 𝒱₀ m (main (F := F)) (entryAt m)
      (fun _ => Pipeline.chain ((tailOps (F := F)).map StableHlo.seq)) :=
  Pipeline.hmain_around cfgs 0 defs₀ 𝒱₀ m main [hostOps0] tailOps hostOps0_sub hostOps0_alloc_none main_chain

set_option backward.isDefEq.respectTransparency.types false in
theorem run_main : θ_run defs (onTc (τ := τ) (main (F := F))) (s₀ m ρ) (Pipeline.FramePost cfgs (dats m) 0 (Pipeline.afterTail₀ cfgs (dats m) 0 (entry m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := entry m) (opss := tailOps) (hsub := tail_sub) (hfresh := tail_fresh) (hkeep := tail_keeps)
    (hmain := hmain m Variants.none) (hA := A_eq m) (hin := hin m) (hout := hout m)

/-- The argument array is unscoped and is no window's array: it bypasses the region. -/
theorem arg0_bypasses : main_arg0 ∈ Pipeline.restRefs sig spec0 :=
  Pipeline.mem_restRefs_of main_arg0 (by decide) (by decide)

/-- After the whole program the argument array holds what it was launched with: the region does not stage it, and
    neither the reshape before nor the operations after write it. -/
theorem afterTail_arg0 (c : Dev nD) : Pipeline.afterTail₀ cfgs (dats m) 0 (entry m) tailOps c main_arg0 = m ((c : Thread nD τ).loc main_arg0) := by
  unfold Pipeline.afterTail₀
  rw [tail_arg0, Pipeline.withArrays_of_ne _ c _ _ main_arg0 (by decide)]
  exact entryAt_arg0 m c

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 arg0_bypasses).trans (afterTail_arg0 m c)) (run_main m ρ)

end Cert.Kernel.Fr

end
-- ==== Proof.GramRegion.lean ====
/-
  The accumulation region of the kernel program: what its 48 grid points share.

  The grid is 2 × 24.  Point `t` (half `t / 24`, step `t % 24`) is handed block `t` of the feature matrix: all 1024
  rows, columns `t * 1024 … t * 1024 + 1023`.  Two scratch buffers live across the points of a half: a 1024 × 1024
  matrix of inner products and a 1024 × 1 column of squared norms.  At step 0 both are cleared; at every step the
  block's contribution is added to each; at step 23 they are copied into the half's slice of the two outputs.  So
  the body has three courses through its two conditionals — first step, middle step, last step — and the two
  output windows are touched only at a last step, which is also the only point where they are written back.

  Here: the contents the region is entered with, each window's block, the two conditions in closed form, where the
  output windows are idle, and the memrefs the body is called with.
-/
import proofs.«146502_j20134806684259_1_alg».proof.Proof.Gen.KernelIdeal.Launch
import proofs.«146502_j20134806684259_1_alg».proof.Proof.Gen.KernelIdeal.Skeleton
import proofs.«146502_j20134806684259_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region is entered with -/

/-- Core `c`'s buffers after the one host operation before the region (the reshape of the input to 1024 × 49152). -/
abbrev entry (c : Dev nD) : Valuation τ sig (Elt F) := StableHlo.after (List.flatten [hostOps0]) (fun b => m (c, b))
/-- The same read at a TensorCore reference. -/
abbrev entryAt (c : Dev nD) (b : Ref sig .tc) : Buf (Elt F) ((c : Thread nD τ).loc b) := entry m c (Proc.devRef .tc b)

theorem hostOps0_alloc_none : (hostOps0 : List (HloOp τ sig (Elt F))).Forall fun op => op.fresh = ∅ := by
  simp only [List.Forall]; rfl

/-- The reshape writes its own result only: the argument array is as launched. -/
theorem entryAt_arg0 (c : Dev nD) : entryAt m c main_arg0 = m ((c : Thread nD τ).loc main_arg0) := by
  show StableHlo.after (List.flatten [hostOps0]) (fun b => m (c, b)) (Proc.devRef .tc main_arg0) = _
  rw [StableHlo.after_of_forall_not_mem]
  intro op hop
  simp only [List.flatten_cons, List.flatten_nil, List.append_nil, hostOps0, List.mem_cons, List.mem_nil_iff, or_false] at hop
  subst hop
  simp only [StableHlo.reshape_writes, Finset.mem_singleton]
  exact StableHlo.devRef_ne_of_ne (by decide)

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The input window's staging buffer holds its block at every point, for any proof data whose array is the entry
    contents and whose body leaves the block in place: the window is fetched at every point, uncut and never idle. -/
theorem before_in_of {c : Dev nD} (dat : Dat τ (Elt F) Unit ℕ (UR sig nD τ) ℕ cfg0 c) (hA : dat.A 0 = entryAt m c (Pipeline.arrRef spec0 0))
    (hafter : ∀ t, dat.after 0 t = blk m c 0 t) (t : Fin cfg0.N) (d) : dat.before 0 t d = blk m c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-! ## The two conditions -/

/-- "This is a half's first step": the body's first conditional, from the grid coordinates. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 24 = 0 :=
  (by decide +kernel : ∀ t : Fin grid0.N, isFirst (grid0.coords t) ↔ t.val % 24 = 0)

/-- "This is a half's last step": the body's second conditional. -/
abbrev isLast (i : grid0.Coords) : Prop := k0_cond2 i = 1#1
theorem isLast_iff : ∀ t : Fin cfg0.N, isLast (grid0.coords t) ↔ t.val % 24 = 23 :=
  (by decide +kernel : ∀ t : Fin grid0.N, isLast (grid0.coords t) ↔ t.val % 24 = 23)

/-! ## Where the windows are idle -/

/-- The input window is never idle. -/
theorem live_in : ∀ t : Fin cfg0.N, cfg0.idle 0 (grid0.coords t) = false := by decide +kernel
/-- Off a last step the output windows are idle and not written back; at a last step they are live. -/
theorem idle_gram : ∀ t : Fin cfg0.N, ¬isLast (grid0.coords t) → cfg0.idle 1 (grid0.coords t) = true := by decide +kernel
theorem keep_gram : ∀ t : Fin cfg0.N, ¬isLast (grid0.coords t) → (cfg0.win 1).flush t = false := by decide +kernel
theorem live_gram : ∀ t : Fin cfg0.N, isLast (grid0.coords t) → cfg0.idle 1 (grid0.coords t) = false := by decide +kernel
theorem idle_sq : ∀ t : Fin cfg0.N, ¬isLast (grid0.coords t) → cfg0.idle 2 (grid0.coords t) = true := by decide +kernel
theorem keep_sq : ∀ t : Fin cfg0.N, ¬isLast (grid0.coords t) → (cfg0.win 2).flush t = false := by decide +kernel
theorem live_sq : ∀ t : Fin cfg0.N, isLast (grid0.coords t) → cfg0.idle 2 (grid0.coords t) = false := by decide +kernel

/-! ## The memrefs the body is called with -/

/-- One staging buffer of each output window, through which its contents are stated. -/
abbrev viewGram : View sig .tc .vmem S1x1024x1024 .f32 := (Memref.whole cc0_stg1_0 : Memref sig .tc .vmem S1x1024x1024 .f32).view
abbrev viewSq : View sig .tc .vmem S1x1024x1 .f32 := (Memref.whole cc0_stg2_0 : Memref sig .tc .vmem S1x1024x1 .f32).view
/-- Each window's current staging memref at point `t`, as the pipeline passes it, and its wholeness. -/
abbrev stIn (t : Fin cfg0.N) : Memref sig .tc .vmem S1024x1024 .f32 := win0_0.stage (cfg0.slots t 0)
abbrev stIn_whole (t : Fin cfg0.N) : (stIn t).IsWhole := hstage0_0 ((cfg0.slots t 0).cast nbuf0_0)
abbrev stGram (t : Fin cfg0.N) : Memref sig .tc .vmem S1x1024x1024 .f32 := win0_1.stage (cfg0.slots t 1)
abbrev stGram_whole (t : Fin cfg0.N) : (stGram t).IsWhole := hstage0_1 ((cfg0.slots t 1).cast nbuf0_1)
abbrev stSq (t : Fin cfg0.N) : Memref sig .tc .vmem S1x1024x1 .f32 := win0_2.stage (cfg0.slots t 2)
abbrev stSq_whole (t : Fin cfg0.N) : (stSq t).IsWhole := hstage0_2 ((cfg0.slots t 2).cast nbuf0_2)
/-- The two scratch buffers carried across the points of a half. -/
abbrev accGram : Memref sig .tc .vmem S1024x1024 .f32 := Memref.whole cc0_scratch0
abbrev accSqM : Memref sig .tc .vmem S1024x1 .f32 := Memref.whole cc0_scratch1
abbrev accGramV : View sig .tc .vmem S1024x1024 .f32 := accGram.view
abbrev accSqV : View sig .tc .vmem S1024x1 .f32 := accSqM.view

/-- What the launch hands the region besides the windows: the two scratch buffers at some contents and the generator
    register at some state. -/
theorem scratch_any (c : Dev nD) :
    (Pipeline.ΦA spec0 c : sProp 𝕄)
      = iprop(iprop((∃ d, owns (c : Thread nD τ) accGram fullShare d) ∗ (∃ d, owns (c : Thread nD τ) accSqM fullShare d)) ∗ (∃ r, prngReg c r)) := by
  unfold Pipeline.ΦA; rw [scopedRest0_eq]; simp only [accGram, accSqM, owns_whole]; try rfl

end Cert.KernelIdeal.Fr

end
-- ==== Proof.GramRunFirst.lean ====
/-
  The body at a half's FIRST step (first conditional taken, second not), run once on any whole memrefs.

  Given the input block `x`, the two output buffers at contents handed back untouched, and the two scratch buffers at
  anything, the body runs to its end leaving the input and the outputs as they were and each scratch buffer with a
  list of stored pieces written into it: for each scratch, the clearing store and then the store of the block's
  contribution added to what the clearing left.  The piece lists are what the run finds.
-/
import proofs.«146502_j20134806684259_1_alg».proof.Proof.GramRegion

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runFirst (c : Dev nD) (i : grid0.Coords) (arg2 : Memref sig .tc .vmem S1024x1024 .f32) (harg2 : arg2.IsWhole) (arg3 : Memref sig .tc .vmem S1x1024x1024 .f32) (harg3 : arg3.IsWhole) (arg4 : Memref sig .tc .vmem S1x1024x1 .f32) (harg4 : arg4.IsWhole) (arg5 : Memref sig .tc .vmem S1024x1024 .f32) (harg5 : arg5.IsWhole) (arg6 : Memref sig .tc .vmem S1024x1 .f32) (harg6 : arg6.IsWhole) (hc0 : isFirst i) (hc1 : ¬isLast i)
    (x : Vec F S1024x1024 .f32) :
    Σ' (LG : List (View.Piece (Elt F) S1x1024x1024 .f32)) (LQ : List (View.Piece (Elt F) S1x1024x1 .f32)) (LA : List (View.Piece (Elt F) S1024x1024 .f32)), { LB : List (View.Piece (Elt F) S1024x1 .f32) //
      ∀ (yg : Vec F S1x1024x1024 .f32) (yq : Vec F S1x1024x1 .f32) (E : Set ℕ) (K : PUnit → sProp 𝕄),
        iprop(owns (c : Thread nD τ) arg2 fullShare x ∗ owns (c : Thread nD τ) arg3 fullShare yg ∗ owns (c : Thread nD τ) arg4 fullShare yq
            ∗ (∃ d, owns (c : Thread nD τ) arg5 fullShare d) ∗ (∃ d, owns (c : Thread nD τ) arg6 fullShare d)
            ∗ (iprop(owns (c : Thread nD τ) arg2 fullShare x ∗ owns (c : Thread nD τ) arg3 fullShare yg ∗ owns (c : Thread nD τ) arg4 fullShare yq
                ∗ (∃ f, arg5.view.loc (c : Thread nD τ) ↦[arg5.view.set]{fullShare} arg5.view.writes (Elt F) f LA) ∗ (∃ f, arg6.view.loc (c : Thread nD τ) ↦[arg6.view.set]{fullShare} arg6.view.writes (Elt F) f LB)) -∗ K ⟨⟩))
          ⊢ wp frame (wpE (defs₀ (F := F)) Variants.none c none) E (cc0__gram_kernel i arg2 harg2 arg3 harg3 arg4 harg4 arg5 harg5 arg6 harg6) K } := by
  refine ⟨[], [], ?_, ?_, fun yg yq E K => ?run⟩
  case run =>
    simp only [cc0__gram_kernel_eq_skeleton]; unfold cc0__gram_kernel_skel
    unfold owns
    iintro ⟨⟨%f0, %hf0, H0⟩, ⟨%f1, %hf1, H1⟩, ⟨%f2, %hf2, H2⟩, ⟨%da, %fa, -, HA⟩, ⟨%db, %fb, -, HB⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HA]
    · iexists _; iexact HA
    iexists _; iexact HB

end Cert.KernelIdeal.Fr

end
-- ==== Proof.GramRunMid.lean ====
/-
  The body at a MIDDLE step of a half (neither conditional taken), run once on any whole memrefs.

  Given the input block `x`, the two output buffers at contents handed back untouched, and the two scratch buffers at
  the totals `a`, `b` the step before left, the body runs to its end leaving the input and the outputs as they were
  and each scratch buffer with one stored piece written into it: the block's contribution added to the total.
-/
import proofs.«146502_j20134806684259_1_alg».proof.Proof.GramRunFirst

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runMid (c : Dev nD) (i : grid0.Coords) (arg2 : Memref sig .tc .vmem S1024x1024 .f32) (harg2 : arg2.IsWhole) (arg3 : Memref sig .tc .vmem S1x1024x1024 .f32) (harg3 : arg3.IsWhole) (arg4 : Memref sig .tc .vmem S1x1024x1 .f32) (harg4 : arg4.IsWhole) (arg5 : Memref sig .tc .vmem S1024x1024 .f32) (harg5 : arg5.IsWhole) (arg6 : Memref sig .tc .vmem S1024x1 .f32) (harg6 : arg6.IsWhole) (hc0 : ¬isFirst i) (hc1 : ¬isLast i)
    (x : Vec F S1024x1024 .f32) (a : Vec F S1024x1024 .f32) (b : Vec F S1024x1 .f32) :
    Σ' (LG : List (View.Piece (Elt F) S1x1024x1024 .f32)) (LQ : List (View.Piece (Elt F) S1x1024x1 .f32)) (LA : List (View.Piece (Elt F) S1024x1024 .f32)), { LB : List (View.Piece (Elt F) S1024x1 .f32) //
      ∀ (yg : Vec F S1x1024x1024 .f32) (yq : Vec F S1x1024x1 .f32) (E : Set ℕ) (K : PUnit → sProp 𝕄),
        iprop(owns (c : Thread nD τ) arg2 fullShare x ∗ owns (c : Thread nD τ) arg3 fullShare yg ∗ owns (c : Thread nD τ) arg4 fullShare yq
            ∗ owns (c : Thread nD τ) arg5 fullShare a ∗ owns (c : Thread nD τ) arg6 fullShare b
            ∗ (iprop(owns (c : Thread nD τ) arg2 fullShare x ∗ owns (c : Thread nD τ) arg3 fullShare yg ∗ owns (c : Thread nD τ) arg4 fullShare yq
                ∗ (∃ f, arg5.view.loc (c : Thread nD τ) ↦[arg5.view.set]{fullShare} arg5.view.writes (Elt F) f LA) ∗ (∃ f, arg6.view.loc (c : Thread nD τ) ↦[arg6.view.set]{fullShare} arg6.view.writes (Elt F) f LB)) -∗ K ⟨⟩))
          ⊢ wp frame (wpE (defs₀ (F := F)) Variants.none c none) E (cc0__gram_kernel i arg2 harg2 arg3 harg3 arg4 harg4 arg5 harg5 arg6 harg6) K } := by
  refine ⟨[], [], ?_, ?_, fun yg yq E K => ?run⟩
  case run =>
    simp only [cc0__gram_kernel_eq_skeleton]; unfold cc0__gram_kernel_skel
    unfold owns
    iintro ⟨⟨%f0, %hf0, H0⟩, ⟨%f1, %hf1, H1⟩, ⟨%f2, %hf2, H2⟩, ⟨%fa, %hfa, HA⟩, ⟨%fb, %hfb, HB⟩, Hk⟩
    obtain rfl := harg2.eq_unread hf0; obtain rfl := harg3.eq_unread hf1; obtain rfl := harg4.eq_unread hf2
    obtain rfl := harg5.eq_unread hfa; obtain rfl := harg6.eq_unread hfb
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HA]
    · iexists _; iexact HA
    iexists _; iexact HB

end Cert.KernelIdeal.Fr

end
-- ==== Proof.GramRunLast.lean ====
/-
  The body at a half's LAST step (first conditional not taken, second taken), run once on any whole memrefs.

  Given the input block `x`, the two output buffers at anything, and the two scratch buffers at the totals `a`, `b` the
  step before left, the body runs to its end leaving the input as it was, each scratch buffer with the block's
  contribution added to the total, and each output buffer with one stored piece: the scratch's final total, reshaped.
-/
import proofs.«146502_j20134806684259_1_alg».proof.Proof.GramRunMid

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runLast (c : Dev nD) (i : grid0.Coords) (arg2 : Memref sig .tc .vmem S1024x1024 .f32) (harg2 : arg2.IsWhole) (arg3 : Memref sig .tc .vmem S1x1024x1024 .f32) (harg3 : arg3.IsWhole) (arg4 : Memref sig .tc .vmem S1x1024x1 .f32) (harg4 : arg4.IsWhole) (arg5 : Memref sig .tc .vmem S1024x1024 .f32) (harg5 : arg5.IsWhole) (arg6 : Memref sig .tc .vmem S1024x1 .f32) (harg6 : arg6.IsWhole) (hc0 : ¬isFirst i) (hc1 : isLast i)
    (x : Vec F S1024x1024 .f32) (a : Vec F S1024x1024 .f32) (b : Vec F S1024x1 .f32) :
    Σ' (LG : List (View.Piece (Elt F) S1x1024x1024 .f32)) (LQ : List (View.Piece (Elt F) S1x1024x1 .f32)) (LA : List (View.Piece (Elt F) S1024x1024 .f32)), { LB : List (View.Piece (Elt F) S1024x1 .f32) //
      ∀ (E : Set ℕ) (K : PUnit → sProp 𝕄),
        iprop(owns (c : Thread nD τ) arg2 fullShare x ∗ (∃ d, owns (c : Thread nD τ) arg3 fullShare d) ∗ (∃ d, owns (c : Thread nD τ) arg4 fullShare d)
            ∗ owns (c : Thread nD τ) arg5 fullShare a ∗ owns (c : Thread nD τ) arg6 fullShare b
            ∗ (iprop(owns (c : Thread nD τ) arg2 fullShare x ∗ (∃ f, arg3.view.loc (c : Thread nD τ) ↦[arg3.view.set]{fullShare} arg3.view.writes (Elt F) f LG) ∗ (∃ f, arg4.view.loc (c : Thread nD τ) ↦[arg4.view.set]{fullShare} arg4.view.writes (Elt F) f LQ)
                ∗ (∃ f, arg5.view.loc (c : Thread nD τ) ↦[arg5.view.set]{fullShare} arg5.view.writes (Elt F) f LA) ∗ (∃ f, arg6.view.loc (c : Thread nD τ) ↦[arg6.view.set]{fullShare} arg6.view.writes (Elt F) f LB)) -∗ K ⟨⟩))
          ⊢ wp frame (wpE (defs₀ (F := F)) Variants.none c none) E (cc0__gram_kernel i arg2 harg2 arg3 harg3 arg4 harg4 arg5 harg5 arg6 harg6) K } := by
  refine ⟨?_, ?_, ?_, ?_, fun E K => ?run⟩
  case run =>
    simp only [cc0__gram_kernel_eq_skeleton]; unfold cc0__gram_kernel_skel
    unfold owns
    iintro ⟨⟨%f0, %hf0, H0⟩, ⟨%d1, %f1, -, H1⟩, ⟨%d2, %f2, -, H2⟩, ⟨%fa, %hfa, HA⟩, ⟨%fb, %hfb, HB⟩, Hk⟩
    obtain rfl := harg2.eq_unread hf0
    obtain rfl := harg5.eq_unread hfa; obtain rfl := harg6.eq_unread hfb
    sl_exec (disch := first | exact hc0 | exact hc1)
    sl_step
    iapply Hk
    isplitl [H0]
    · iexists _; isplitr; · ipureintro; exact harg2.read_unread _
      iexact H0
    isplitl [H1]
    · iexists _; iexact H1
    isplitl [H2]
    · iexists _; iexact H2
    isplitl [HA]
    · iexists _; iexact HA
    iexists _; iexact HB

end Cert.KernelIdeal.Fr

end
-- ==== Proof.TailLines.lean ====
/-
  Three bookkeeping facts about the operations a program performs after its accelerator call returns.

  Every such operation computes one result from its operands: it reads the operand buffers and overwrites
  exactly one buffer, the one that holds its result, and it allocates nothing.  The buffers the call streamed
  through its windows (three arrays) are operands or results of the call, never the result of a later operation,
  so they still hold after the last operation what they held when the call returned.  All the buffers the
  later operations touch are plain tensor values of the program: none is scoped to the call, so each lies among the
  buffers that survive it (the windows' arrays and the buffers that bypass the call).

  The operations come in seven consecutive runs (the program's own, interleaved with three inlined helper
  functions); each fact is shown run by run, operation by operation, and assembled.
-/
import proofs.«146502_j20134806684259_1_alg».proof.Proof.Gen.KernelIdeal.Launch
import Idealize.ShloMosaic.Lib.Pipeline.FrameSuffix
import Idealize.ShloMosaic.Lib.StableHlo.Run

noncomputable section

namespace Cert.KernelIdeal.Fr

open Cert.KernelIdeal Cert.KernelIdeal.Gen Idealize.ShloMosaic Idealize.ShloMosaic.TcCoe Idealize.SL.Sem

variable {F : FTy → Type} [FloatOps F]

/-- The operations after the call, as seven consecutive runs. -/
abbrev tailOps : List (List (HloOp τ sig (Elt F))) :=
  [hostOps1, hostOps1_1, hostOps1_2, hostOps1_3, hostOps1_4, hostOps1_5, hostOps1_6]

/-! ## Nothing is allocated -/

/-- The one operation before the call (a reshape) allocates nothing. -/
theorem hostOps0_fresh : (hostOps0 : List (HloOp τ sig (Elt F))).Forall fun op => op.fresh = ∅ := by
  simp only [List.Forall]; repeat' constructor

/-- Each of the 23 operations of this run writes a result computed from its operands: it allocates nothing. -/
theorem fresh1 : (hostOps1 : List (HloOp τ sig (Elt F))).Forall fun op => op.fresh = ∅ := by
  simp only [List.Forall]; repeat' constructor

/-- Each of the 17 operations of this run writes a result computed from its operands: it allocates nothing. -/
theorem fresh1_1 : (hostOps1_1 : List (HloOp τ sig (Elt F))).Forall fun op => op.fresh = ∅ := by
  simp only [List.Forall]; repeat' constructor

/-- Each of the 19 operations of this run writes a result computed from its operands: it allocates nothing. -/
theorem fresh1_2 : (hostOps1_2 : List (HloOp τ sig (Elt F))).Forall fun op => op.fresh = ∅ := by
  simp only [List.Forall]; repeat' constructor

/-- Each of the 3 operations of this run writes a result computed from its operands: it allocates nothing. -/
theorem fresh1_3 : (hostOps1_3 : List (HloOp τ sig (Elt F))).Forall fun op => op.fresh = ∅ := by
  simp only [List.Forall]; repeat' constructor

/-- Each of the 11 operations of this run writes a result computed from its operands: it allocates nothing. -/
theorem fresh1_4 : (hostOps1_4 : List (HloOp τ sig (Elt F))).Forall fun op => op.fresh = ∅ := by
  simp only [List.Forall]; repeat' constructor

/-- Each of the 3 operations of this run writes a result computed from its operands: it allocates nothing. -/
theorem fresh1_5 : (hostOps1_5 : List (HloOp τ sig (Elt F))).Forall fun op => op.fresh = ∅ := by
  simp only [List.Forall]; repeat' constructor

/-- Each of the 10 operations of this run writes a result computed from its operands: it allocates nothing. -/
theorem fresh1_6 : (hostOps1_6 : List (HloOp τ sig (Elt F))).Forall fun op => op.fresh = ∅ := by
  simp only [List.Forall]; repeat' constructor

/-! ## No window's array is overwritten

An operation's only written buffer is its result; the three arrays are results of no operation here, and two
references that differ name different buffers. -/

/-- None of the 23 results of this run is one of the three arrays. -/
theorem keeps1 : (hostOps1 : List (HloOp τ sig (Elt F))).Forall fun op =>
    ∀ w, Proc.devRef .tc (Pipeline.arrRef spec0 w) ∉ op.writes := by
  simp only [List.Forall]
  repeat' apply And.intro
  all_goals
    intro w
    fin_cases w <;>
      simp only [StableHlo.TRef.nullary, StableHlo.TRef.unary, StableHlo.TRef.binary, StableHlo.TRef.ternary,
        StableHlo.nullary_writes, StableHlo.unary_writes, StableHlo.binary_writes, StableHlo.ternary_writes,
        StableHlo.reshape_writes, Finset.mem_singleton] <;>
      exact StableHlo.devRef_ne_of_ne (by decide)

/-- None of the 17 results of this run is one of the three arrays. -/
theorem keeps1_1 : (hostOps1_1 : List (HloOp τ sig (Elt F))).Forall fun op =>
    ∀ w, Proc.devRef .tc (Pipeline.arrRef spec0 w) ∉ op.writes := by
  simp only [List.Forall]
  repeat' apply And.intro
  all_goals
    intro w
    fin_cases w <;>
      simp only [StableHlo.TRef.nullary, StableHlo.TRef.unary, StableHlo.TRef.binary, StableHlo.TRef.ternary,
        StableHlo.nullary_writes, StableHlo.unary_writes, StableHlo.binary_writes, StableHlo.ternary_writes,
        StableHlo.reshape_writes, Finset.mem_singleton] <;>
      exact StableHlo.devRef_ne_of_ne (by decide)

/-- None of the 19 results of this run is one of the three arrays. -/
theorem keeps1_2 : (hostOps1_2 : List (HloOp τ sig (Elt F))).Forall fun op =>
    ∀ w, Proc.devRef .tc (Pipeline.arrRef spec0 w) ∉ op.writes := by
  simp only [List.Forall]
  repeat' apply And.intro
  all_goals
    intro w
    fin_cases w <;>
      simp only [StableHlo.TRef.nullary, StableHlo.TRef.unary, StableHlo.TRef.binary, StableHlo.TRef.ternary,
        StableHlo.nullary_writes, StableHlo.unary_writes, StableHlo.binary_writes, StableHlo.ternary_writes,
        StableHlo.reshape_writes, Finset.mem_singleton] <;>
      exact StableHlo.devRef_ne_of_ne (by decide)

/-- None of the 3 results of this run is one of the three arrays. -/
theorem keeps1_3 : (hostOps1_3 : List (HloOp τ sig (Elt F))).Forall fun op =>
    ∀ w, Proc.devRef .tc (Pipeline.arrRef spec0 w) ∉ op.writes := by
  simp only [List.Forall]
  repeat' apply And.intro
  all_goals
    intro w
    fin_cases w <;>
      simp only [StableHlo.TRef.nullary, StableHlo.TRef.unary, StableHlo.TRef.binary, StableHlo.TRef.ternary,
        StableHlo.nullary_writes, StableHlo.unary_writes, StableHlo.binary_writes, StableHlo.ternary_writes,
        StableHlo.reshape_writes, Finset.mem_singleton] <;>
      exact StableHlo.devRef_ne_of_ne (by decide)

/-- None of the 11 results of this run is one of the three arrays. -/
theorem keeps1_4 : (hostOps1_4 : List (HloOp τ sig (Elt F))).Forall fun op =>
    ∀ w, Proc.devRef .tc (Pipeline.arrRef spec0 w) ∉ op.writes := by
  simp only [List.Forall]
  repeat' apply And.intro
  all_goals
    intro w
    fin_cases w <;>
      simp only [StableHlo.TRef.nullary, StableHlo.TRef.unary, StableHlo.TRef.binary, StableHlo.TRef.ternary,
        StableHlo.nullary_writes, StableHlo.unary_writes, StableHlo.binary_writes, StableHlo.ternary_writes,
        StableHlo.reshape_writes, Finset.mem_singleton] <;>
      exact StableHlo.devRef_ne_of_ne (by decide)

/-- None of the 3 results of this run is one of the three arrays. -/
theorem keeps1_5 : (hostOps1_5 : List (HloOp τ sig (Elt F))).Forall fun op =>
    ∀ w, Proc.devRef .tc (Pipeline.arrRef spec0 w) ∉ op.writes := by
  simp only [List.Forall]
  repeat' apply And.intro
  all_goals
    intro w
    fin_cases w <;>
      simp only [StableHlo.TRef.nullary, StableHlo.TRef.unary, StableHlo.TRef.binary, StableHlo.TRef.ternary,
        StableHlo.nullary_writes, StableHlo.unary_writes, StableHlo.binary_writes, StableHlo.ternary_writes,
        StableHlo.reshape_writes, Finset.mem_singleton] <;>
      exact StableHlo.devRef_ne_of_ne (by decide)

/-- None of the 10 results of this run is one of the three arrays. -/
theorem keeps1_6 : (hostOps1_6 : List (HloOp τ sig (Elt F))).Forall fun op =>
    ∀ w, Proc.devRef .tc (Pipeline.arrRef spec0 w) ∉ op.writes := by
  simp only [List.Forall]
  repeat' apply And.intro
  all_goals
    intro w
    fin_cases w <;>
      simp only [StableHlo.TRef.nullary, StableHlo.TRef.unary, StableHlo.TRef.binary, StableHlo.TRef.ternary,
        StableHlo.nullary_writes, StableHlo.unary_writes, StableHlo.binary_writes, StableHlo.ternary_writes,
        StableHlo.reshape_writes, Finset.mem_singleton] <;>
      exact StableHlo.devRef_ne_of_ne (by decide)

/-! ## The program's argument is not overwritten

The argument's buffer is the result of no operation after the call either, so it holds at the end what it held
when the call returned. -/

/-- None of the 23 results of this run is the argument. -/
theorem arg1 : (hostOps1 : List (HloOp τ sig (Elt F))).Forall fun op =>
    Proc.devRef .tc main_arg0 ∉ op.writes := by
  simp only [List.Forall]
  repeat' apply And.intro
  all_goals
    simp only [StableHlo.TRef.nullary, StableHlo.TRef.unary, StableHlo.TRef.binary, StableHlo.TRef.ternary,
      StableHlo.nullary_writes, StableHlo.unary_writes, StableHlo.binary_writes, StableHlo.ternary_writes,
      StableHlo.reshape_writes, Finset.mem_singleton]
    exact StableHlo.devRef_ne_of_ne (by decide)

/-- None of the 17 results of this run is the argument. -/
theorem arg1_1 : (hostOps1_1 : List (HloOp τ sig (Elt F))).Forall fun op =>
    Proc.devRef .tc main_arg0 ∉ op.writes := by
  simp only [List.Forall]
  repeat' apply And.intro
  all_goals
    simp only [StableHlo.TRef.nullary, StableHlo.TRef.unary, StableHlo.TRef.binary, StableHlo.TRef.ternary,
      StableHlo.nullary_writes, StableHlo.unary_writes, StableHlo.binary_writes, StableHlo.ternary_writes,
      StableHlo.reshape_writes, Finset.mem_singleton]
    exact StableHlo.devRef_ne_of_ne (by decide)

/-- None of the 19 results of this run is the argument. -/
theorem arg1_2 : (hostOps1_2 : List (HloOp τ sig (Elt F))).Forall fun op =>
    Proc.devRef .tc main_arg0 ∉ op.writes := by
  simp only [List.Forall]
  repeat' apply And.intro
  all_goals
    simp only [StableHlo.TRef.nullary, StableHlo.TRef.unary, StableHlo.TRef.binary, StableHlo.TRef.ternary,
      StableHlo.nullary_writes, StableHlo.unary_writes, StableHlo.binary_writes, StableHlo.ternary_writes,
      StableHlo.reshape_writes, Finset.mem_singleton]
    exact StableHlo.devRef_ne_of_ne (by decide)

/-- None of the 3 results of this run is the argument. -/
theorem arg1_3 : (hostOps1_3 : List (HloOp τ sig (Elt F))).Forall fun op =>
    Proc.devRef .tc main_arg0 ∉ op.writes := by
  simp only [List.Forall]
  repeat' apply And.intro
  all_goals
    simp only [StableHlo.TRef.nullary, StableHlo.TRef.unary, StableHlo.TRef.binary, StableHlo.TRef.ternary,
      StableHlo.nullary_writes, StableHlo.unary_writes, StableHlo.binary_writes, StableHlo.ternary_writes,
      StableHlo.reshape_writes, Finset.mem_singleton]
    exact StableHlo.devRef_ne_of_ne (by decide)

/-- None of the 11 results of this run is the argument. -/
theorem arg1_4 : (hostOps1_4 : List (HloOp τ sig (Elt F))).Forall fun op =>
    Proc.devRef .tc main_arg0 ∉ op.writes := by
  simp only [List.Forall]
  repeat' apply And.intro
  all_goals
    simp only [StableHlo.TRef.nullary, StableHlo.TRef.unary, StableHlo.TRef.binary, StableHlo.TRef.ternary,
      StableHlo.nullary_writes, StableHlo.unary_writes, StableHlo.binary_writes, StableHlo.ternary_writes,
      StableHlo.reshape_writes, Finset.mem_singleton]
    exact StableHlo.devRef_ne_of_ne (by decide)

/-- None of the 3 results of this run is the argument. -/
theorem arg1_5 : (hostOps1_5 : List (HloOp τ sig (Elt F))).Forall fun op =>
    Proc.devRef .tc main_arg0 ∉ op.writes := by
  simp only [List.Forall]
  repeat' apply And.intro
  all_goals
    simp only [StableHlo.TRef.nullary, StableHlo.TRef.unary, StableHlo.TRef.binary, StableHlo.TRef.ternary,
      StableHlo.nullary_writes, StableHlo.unary_writes, StableHlo.binary_writes, StableHlo.ternary_writes,
      StableHlo.reshape_writes, Finset.mem_singleton]
    exact StableHlo.devRef_ne_of_ne (by decide)

/-- None of the 10 results of this run is the argument. -/
theorem arg1_6 : (hostOps1_6 : List (HloOp τ sig (Elt F))).Forall fun op =>
    Proc.devRef .tc main_arg0 ∉ op.writes := by
  simp only [List.Forall]
  repeat' apply And.intro
  all_goals
    simp only [StableHlo.TRef.nullary, StableHlo.TRef.unary, StableHlo.TRef.binary, StableHlo.TRef.ternary,
      StableHlo.nullary_writes, StableHlo.unary_writes, StableHlo.binary_writes, StableHlo.ternary_writes,
      StableHlo.reshape_writes, Finset.mem_singleton]
    exact StableHlo.devRef_ne_of_ne (by decide)

/-! ## The facts over all seven runs -/

/-- Every buffer touched after the call is one of the windows' arrays or bypasses the call: each is an unscoped
    tensor value, and with nothing prefetched those are exactly the buffers that survive the call. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- No operation after the call allocates. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop
  · exact (List.forall_iff_forall_mem.mp fresh1_4) op hop
  · exact (List.forall_iff_forall_mem.mp fresh1_5) op hop
  · exact (List.forall_iff_forall_mem.mp fresh1_6) op hop

/-- No operation after the call writes a window's array. -/
theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl
  · exact (List.forall_iff_forall_mem.mp keeps1) op hop
  · exact (List.forall_iff_forall_mem.mp keeps1_1) op hop
  · exact (List.forall_iff_forall_mem.mp keeps1_2) op hop
  · exact (List.forall_iff_forall_mem.mp keeps1_3) op hop
  · exact (List.forall_iff_forall_mem.mp keeps1_4) op hop
  · exact (List.forall_iff_forall_mem.mp keeps1_5) op hop
  · exact (List.forall_iff_forall_mem.mp keeps1_6) op hop

/-- No operation after the call writes the program's argument. -/
theorem tail_keeps_arg0 : ∀ ops ∈ (tailOps : List (List (HloOp τ sig (Elt F)))), ∀ op ∈ ops,
    Proc.devRef .tc main_arg0 ∉ op.writes := by
  intro ops hops op hop
  simp only [tailOps, List.mem_cons, List.mem_nil_iff, or_false] at hops
  rcases hops with rfl | rfl | rfl | rfl | rfl | rfl | rfl
  · exact (List.forall_iff_forall_mem.mp arg1) op hop
  · exact (List.forall_iff_forall_mem.mp arg1_1) op hop
  · exact (List.forall_iff_forall_mem.mp arg1_2) op hop
  · exact (List.forall_iff_forall_mem.mp arg1_3) op hop
  · exact (List.forall_iff_forall_mem.mp arg1_4) op hop
  · exact (List.forall_iff_forall_mem.mp arg1_5) op hop
  · exact (List.forall_iff_forall_mem.mp arg1_6) op hop

/-- So after all of them the argument's buffer holds what it held before the first. -/
theorem tail_arg0 (W : Valuation τ sig (Elt F)) :
    StableHlo.after (tailOps : List (List (HloOp τ sig (Elt F)))).flatten W (Proc.devRef .tc main_arg0)
      = W (Proc.devRef .tc main_arg0) :=
  StableHlo.after_of_forall_not_mem _ W fun op hop => by
    obtain ⟨ops, hops, hop'⟩ := List.mem_flatten.mp hop
    exact tail_keeps_arg0 ops hops op hop'

end Cert.KernelIdeal.Fr

end
-- ==== Proof.GramFrame.lean ====
/-
  The frame of the kernel program: it runs to the end, faults nowhere, and leaves its argument as it found it.

  What each course of the body leaves in the two scratch buffers (and, at a last step, in the two output buffers) is
  read back from the pieces its run stored; `contentsAt` says what the four buffers hold after each grid point, by
  recursion on the point: a first step's contents depend on the block alone, a middle or last step's also on the two
  totals the step before left.  The region's invariant carries the two totals from point to point.  The proof data
  hand the pipeline the input's block at every point and the outputs' contents at the last steps; the body obligation
  is the three runs, one per course; the launch theorem then gives the run of the whole program, through the host
  operations after the region, and the argument array is read back unchanged.
-/
import proofs.«146502_j20134806684259_1_alg».proof.Proof.GramRunLast
import proofs.«146502_j20134806684259_1_alg».proof.Proof.TailLines

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three runs at a grid point -/

abbrev firstAt (c : Dev nD) (n : ℕ) (hn : n < cfg0.N) (h0 : n % 24 = 0) (h1 : ¬n % 24 = 23) (x : Vec F S1024x1024 .f32) :=
  runFirst (F := F) c (grid0.coords ⟨n, hn⟩) (stIn ⟨n, hn⟩) (stIn_whole ⟨n, hn⟩) (stGram ⟨n, hn⟩) (stGram_whole ⟨n, hn⟩) (stSq ⟨n, hn⟩) (stSq_whole ⟨n, hn⟩) accGram (Memref.isWhole_whole _) accSqM (Memref.isWhole_whole _) ((isFirst_iff ⟨n, hn⟩).mpr h0) (fun h => h1 ((isLast_iff ⟨n, hn⟩).mp h)) x
abbrev midAt (c : Dev nD) (n : ℕ) (hn : n < cfg0.N) (h0 : ¬n % 24 = 0) (h1 : ¬n % 24 = 23) (x : Vec F S1024x1024 .f32) (a : Vec F S1024x1024 .f32) (b : Vec F S1024x1 .f32) :=
  runMid (F := F) c (grid0.coords ⟨n, hn⟩) (stIn ⟨n, hn⟩) (stIn_whole ⟨n, hn⟩) (stGram ⟨n, hn⟩) (stGram_whole ⟨n, hn⟩) (stSq ⟨n, hn⟩) (stSq_whole ⟨n, hn⟩) accGram (Memref.isWhole_whole _) accSqM (Memref.isWhole_whole _) (fun h => h0 ((isFirst_iff ⟨n, hn⟩).mp h)) (fun h => h1 ((isLast_iff ⟨n, hn⟩).mp h)) x a b
abbrev lastAt (c : Dev nD) (n : ℕ) (hn : n < cfg0.N) (h0 : ¬n % 24 = 0) (h1 : n % 24 = 23) (x : Vec F S1024x1024 .f32) (a : Vec F S1024x1024 .f32) (b : Vec F S1024x1 .f32) :=
  runLast (F := F) c (grid0.coords ⟨n, hn⟩) (stIn ⟨n, hn⟩) (stIn_whole ⟨n, hn⟩) (stGram ⟨n, hn⟩) (stGram_whole ⟨n, hn⟩) (stSq ⟨n, hn⟩) (stSq_whole ⟨n, hn⟩) accGram (Memref.isWhole_whole _) accSqM (Memref.isWhole_whole _) (fun h => h0 ((isFirst_iff ⟨n, hn⟩).mp h)) ((isLast_iff ⟨n, hn⟩).mpr h1) x a b

/-! ## The stored pieces cover their buffers -/

theorem gramFirst_cover (c : Dev nD) (n : ℕ) (hn : n < cfg0.N) (h0 : n % 24 = 0) (h1 : ¬n % 24 = 23) (x : Vec F S1024x1024 .f32) (y : S1024x1024.Idx) :
    ∃ pc ∈ (firstAt c n hn h0 h1 x).2.2.1, y ∈ pc.1.set :=
  View.cover_of_tiledL (firstAt c n hn h0 h1 x).2.2.1 S1024x1024.size (by sl_kernel_rfl) y
theorem sqFirst_cover (c : Dev nD) (n : ℕ) (hn : n < cfg0.N) (h0 : n % 24 = 0) (h1 : ¬n % 24 = 23) (x : Vec F S1024x1024 .f32) (y : S1024x1.Idx) :
    ∃ pc ∈ (firstAt c n hn h0 h1 x).2.2.2.1, y ∈ pc.1.set :=
  View.cover_of_tiledL (firstAt c n hn h0 h1 x).2.2.2.1 S1024x1.size (by sl_kernel_rfl) y
theorem gramMid_cover (c : Dev nD) (n : ℕ) (hn : n < cfg0.N) (h0 : ¬n % 24 = 0) (h1 : ¬n % 24 = 23) (x : Vec F S1024x1024 .f32) (a : Vec F S1024x1024 .f32) (b : Vec F S1024x1 .f32) (y : S1024x1024.Idx) :
    ∃ pc ∈ (midAt c n hn h0 h1 x a b).2.2.1, y ∈ pc.1.set :=
  View.cover_of_tiledL (midAt c n hn h0 h1 x a b).2.2.1 S1024x1024.size (by sl_kernel_rfl) y
theorem sqMid_cover (c : Dev nD) (n : ℕ) (hn : n < cfg0.N) (h0 : ¬n % 24 = 0) (h1 : ¬n % 24 = 23) (x : Vec F S1024x1024 .f32) (a : Vec F S1024x1024 .f32) (b : Vec F S1024x1 .f32) (y : S1024x1.Idx) :
    ∃ pc ∈ (midAt c n hn h0 h1 x a b).2.2.2.1, y ∈ pc.1.set :=
  View.cover_of_tiledL (midAt c n hn h0 h1 x a b).2.2.2.1 S1024x1.size (by sl_kernel_rfl) y
theorem gramLast_cover (c : Dev nD) (n : ℕ) (hn : n < cfg0.N) (h0 : ¬n % 24 = 0) (h1 : n % 24 = 23) (x : Vec F S1024x1024 .f32) (a : Vec F S1024x1024 .f32) (b : Vec F S1024x1 .f32) (y : S1024x1024.Idx) :
    ∃ pc ∈ (lastAt c n hn h0 h1 x a b).2.2.1, y ∈ pc.1.set :=
  View.cover_of_tiledL (lastAt c n hn h0 h1 x a b).2.2.1 S1024x1024.size (by sl_kernel_rfl) y
theorem sqLast_cover (c : Dev nD) (n : ℕ) (hn : n < cfg0.N) (h0 : ¬n % 24 = 0) (h1 : n % 24 = 23) (x : Vec F S1024x1024 .f32) (a : Vec F S1024x1024 .f32) (b : Vec F S1024x1 .f32) (y : S1024x1.Idx) :
    ∃ pc ∈ (lastAt c n hn h0 h1 x a b).2.2.2.1, y ∈ pc.1.set :=
  View.cover_of_tiledL (lastAt c n hn h0 h1 x a b).2.2.2.1 S1024x1.size (by sl_kernel_rfl) y
theorem outGram_cover (c : Dev nD) (n : ℕ) (hn : n < cfg0.N) (h0 : ¬n % 24 = 0) (h1 : n % 24 = 23) (x : Vec F S1024x1024 .f32) (a : Vec F S1024x1024 .f32) (b : Vec F S1024x1 .f32) (y : S1x1024x1024.Idx) :
    ∃ pc ∈ (lastAt c n hn h0 h1 x a b).1, y ∈ pc.1.set :=
  View.cover_of_tiledL (lastAt c n hn h0 h1 x a b).1 S1x1024x1024.size (by sl_kernel_rfl) y
theorem outSq_cover (c : Dev nD) (n : ℕ) (hn : n < cfg0.N) (h0 : ¬n % 24 = 0) (h1 : n % 24 = 23) (x : Vec F S1024x1024 .f32) (a : Vec F S1024x1024 .f32) (b : Vec F S1024x1 .f32) (y : S1x1024x1.Idx) :
    ∃ pc ∈ (lastAt c n hn h0 h1 x a b).2.1, y ∈ pc.1.set :=
  View.cover_of_tiledL (lastAt c n hn h0 h1 x a b).2.1 S1x1024x1.size (by sl_kernel_rfl) y

/-! ## What each course leaves, read back from its pieces -/

def gramFirst (c : Dev nD) (n : ℕ) (hn : n < cfg0.N) (h0 : n % 24 = 0) (h1 : ¬n % 24 = 23) (x : Vec F S1024x1024 .f32) : Vec F S1024x1024 .f32 :=
  accGramV.read (Elt F) (accGramV.writes (Elt F) accGramV.junk (firstAt c n hn h0 h1 x).2.2.1)
def sqFirst (c : Dev nD) (n : ℕ) (hn : n < cfg0.N) (h0 : n % 24 = 0) (h1 : ¬n % 24 = 23) (x : Vec F S1024x1024 .f32) : Vec F S1024x1 .f32 :=
  accSqV.read (Elt F) (accSqV.writes (Elt F) accSqV.junk (firstAt c n hn h0 h1 x).2.2.2.1)
def gramMid (c : Dev nD) (n : ℕ) (hn : n < cfg0.N) (h0 : ¬n % 24 = 0) (h1 : ¬n % 24 = 23) (x : Vec F S1024x1024 .f32) (a : Vec F S1024x1024 .f32) (b : Vec F S1024x1 .f32) : Vec F S1024x1024 .f32 :=
  accGramV.read (Elt F) (accGramV.writes (Elt F) accGramV.junk (midAt c n hn h0 h1 x a b).2.2.1)
def sqMid (c : Dev nD) (n : ℕ) (hn : n < cfg0.N) (h0 : ¬n % 24 = 0) (h1 : ¬n % 24 = 23) (x : Vec F S1024x1024 .f32) (a : Vec F S1024x1024 .f32) (b : Vec F S1024x1 .f32) : Vec F S1024x1 .f32 :=
  accSqV.read (Elt F) (accSqV.writes (Elt F) accSqV.junk (midAt c n hn h0 h1 x a b).2.2.2.1)
def gramLast (c : Dev nD) (n : ℕ) (hn : n < cfg0.N) (h0 : ¬n % 24 = 0) (h1 : n % 24 = 23) (x : Vec F S1024x1024 .f32) (a : Vec F S1024x1024 .f32) (b : Vec F S1024x1 .f32) : Vec F S1024x1024 .f32 :=
  accGramV.read (Elt F) (accGramV.writes (Elt F) accGramV.junk (lastAt c n hn h0 h1 x a b).2.2.1)
def sqLast (c : Dev nD) (n : ℕ) (hn : n < cfg0.N) (h0 : ¬n % 24 = 0) (h1 : n % 24 = 23) (x : Vec F S1024x1024 .f32) (a : Vec F S1024x1024 .f32) (b : Vec F S1024x1 .f32) : Vec F S1024x1 .f32 :=
  accSqV.read (Elt F) (accSqV.writes (Elt F) accSqV.junk (lastAt c n hn h0 h1 x a b).2.2.2.1)
def outGram (c : Dev nD) (n : ℕ) (hn : n < cfg0.N) (h0 : ¬n % 24 = 0) (h1 : n % 24 = 23) (x : Vec F S1024x1024 .f32) (a : Vec F S1024x1024 .f32) (b : Vec F S1024x1 .f32) : Vec F S1x1024x1024 .f32 :=
  viewGram.read (Elt F) (viewGram.writes (Elt F) viewGram.junk (lastAt c n hn h0 h1 x a b).1)
def outSq (c : Dev nD) (n : ℕ) (hn : n < cfg0.N) (h0 : ¬n % 24 = 0) (h1 : n % 24 = 23) (x : Vec F S1024x1024 .f32) (a : Vec F S1024x1024 .f32) (b : Vec F S1024x1 .f32) : Vec F S1x1024x1 .f32 :=
  viewSq.read (Elt F) (viewSq.writes (Elt F) viewSq.junk (lastAt c n hn h0 h1 x a b).2.1)

/-- Off a last step the output buffers are not stored into: a placeholder nothing consults. -/
def untouchedGram : Vec F S1x1024x1024 .f32 := viewGram.read (Elt F) viewGram.junk
def untouchedSq : Vec F S1x1024x1 .f32 := viewSq.read (Elt F) viewSq.junk

/-! ## The contents after each point -/

/-- The two output buffers and the two scratch buffers, in that order. -/
abbrev Four (F : FTy → Type) [FloatOps F] : Type := Vec F S1x1024x1024 .f32 × Vec F S1x1024x1 .f32 × Vec F S1024x1024 .f32 × Vec F S1024x1 .f32

/-- What the four buffers hold after the body at point `n`. -/
def contentsAt (c : Dev nD) : (n : ℕ) → n < cfg0.N → Four F
  | 0, hn => (untouchedGram, untouchedSq, gramFirst c 0 hn (Nat.zero_mod _) (by decide) (blk m c 0 ⟨0, hn⟩), sqFirst c 0 hn (Nat.zero_mod _) (by decide) (blk m c 0 ⟨0, hn⟩))
  | n + 1, hn =>
    if h0 : (n + 1) % 24 = 0 then
      if h1 : (n + 1) % 24 = 23 then False.elim (by omega)
      else (untouchedGram, untouchedSq, gramFirst c (n + 1) hn h0 h1 (blk m c 0 ⟨n + 1, hn⟩), sqFirst c (n + 1) hn h0 h1 (blk m c 0 ⟨n + 1, hn⟩))
    else
      if h1 : (n + 1) % 24 = 23 then
        (outGram c (n + 1) hn h0 h1 (blk m c 0 ⟨n + 1, hn⟩) (contentsAt c n (Nat.lt_of_succ_lt hn)).2.2.1 (contentsAt c n (Nat.lt_of_succ_lt hn)).2.2.2,
         outSq c (n + 1) hn h0 h1 (blk m c 0 ⟨n + 1, hn⟩) (contentsAt c n (Nat.lt_of_succ_lt hn)).2.2.1 (contentsAt c n (Nat.lt_of_succ_lt hn)).2.2.2,
         gramLast c (n + 1) hn h0 h1 (blk m c 0 ⟨n + 1, hn⟩) (contentsAt c n (Nat.lt_of_succ_lt hn)).2.2.1 (contentsAt c n (Nat.lt_of_succ_lt hn)).2.2.2,
         sqLast c (n + 1) hn h0 h1 (blk m c 0 ⟨n + 1, hn⟩) (contentsAt c n (Nat.lt_of_succ_lt hn)).2.2.1 (contentsAt c n (Nat.lt_of_succ_lt hn)).2.2.2)
      else
        (untouchedGram, untouchedSq,
         gramMid c (n + 1) hn h0 h1 (blk m c 0 ⟨n + 1, hn⟩) (contentsAt c n (Nat.lt_of_succ_lt hn)).2.2.1 (contentsAt c n (Nat.lt_of_succ_lt hn)).2.2.2,
         sqMid c (n + 1) hn h0 h1 (blk m c 0 ⟨n + 1, hn⟩) (contentsAt c n (Nat.lt_of_succ_lt hn)).2.2.1 (contentsAt c n (Nat.lt_of_succ_lt hn)).2.2.2)

/-- The totals the point before `t` left. -/
abbrev prevGram (c : Dev nD) (t : Fin cfg0.N) : Vec F S1024x1024 .f32 := (contentsAt m c (t.val - 1) (Nat.lt_of_le_of_lt (Nat.sub_le _ _) t.isLt)).2.2.1
abbrev prevSq (c : Dev nD) (t : Fin cfg0.N) : Vec F S1024x1 .f32 := (contentsAt m c (t.val - 1) (Nat.lt_of_le_of_lt (Nat.sub_le _ _) t.isLt)).2.2.2

theorem contentsAt_first (c : Dev nD) (t : Fin cfg0.N) (h0 : t.val % 24 = 0) (h1 : ¬t.val % 24 = 23) :
    contentsAt m c t.val t.isLt = (untouchedGram, untouchedSq, gramFirst c t.val t.isLt h0 h1 (blk m c 0 t), sqFirst c t.val t.isLt h0 h1 (blk m c 0 t)) := by
  obtain ⟨n, hn⟩ := t
  cases n with
  | zero => exact rfl
  | succ n => exact (dif_pos h0).trans ((dif_neg h1).trans rfl)

theorem contentsAt_mid (c : Dev nD) (t : Fin cfg0.N) (h0 : ¬t.val % 24 = 0) (h1 : ¬t.val % 24 = 23) :
    contentsAt m c t.val t.isLt = (untouchedGram, untouchedSq, gramMid c t.val t.isLt h0 h1 (blk m c 0 t) (prevGram m c t) (prevSq m c t),
      sqMid c t.val t.isLt h0 h1 (blk m c 0 t) (prevGram m c t) (prevSq m c t)) := by
  obtain ⟨n, hn⟩ := t
  cases n with
  | zero => exact (by exfalso; (try dsimp only at h0); exact absurd (Nat.zero_mod _) h0)
  | succ n => exact (dif_neg h0).trans ((dif_neg h1).trans rfl)

theorem contentsAt_last (c : Dev nD) (t : Fin cfg0.N) (h0 : ¬t.val % 24 = 0) (h1 : t.val % 24 = 23) :
    contentsAt m c t.val t.isLt = (outGram c t.val t.isLt h0 h1 (blk m c 0 t) (prevGram m c t) (prevSq m c t), outSq c t.val t.isLt h0 h1 (blk m c 0 t) (prevGram m c t) (prevSq m c t),
      gramLast c t.val t.isLt h0 h1 (blk m c 0 t) (prevGram m c t) (prevSq m c t), sqLast c t.val t.isLt h0 h1 (blk m c 0 t) (prevGram m c t) (prevSq m c t)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point the scratch buffers hold anything; afterwards the two totals the point before left. -/
def carried (c : Dev nD) : (n : ℕ) → n ≤ cfg0.N → sProp 𝕄
  | 0, _ => Pipeline.ΦA spec0 c
  | n + 1, hn => iprop(iprop(owns (c : Thread nD τ) accGram fullShare ((contentsAt m c n hn).2.2.1) ∗ owns (c : Thread nD τ) accSqM fullShare ((contentsAt m c n hn).2.2.2)) ∗ (∃ r, prngReg c r))

theorem carried_zero (c : Dev nD) (n : ℕ) (h : n ≤ cfg0.N) (hz : n = 0) : carried m c n h = Pipeline.ΦA spec0 c := by
  subst hz; rfl
theorem carried_succ (c : Dev nD) (n : ℕ) (hn : n < cfg0.N) :
    carried m c (n + 1) hn = iprop(iprop(owns (c : Thread nD τ) accGram fullShare ((contentsAt m c n hn).2.2.1) ∗ owns (c : Thread nD τ) accSqM fullShare ((contentsAt m c n hn).2.2.2)) ∗ (∃ r, prngReg c r)) := rfl
theorem carried_pos (c : Dev nD) (n : ℕ) (h : n ≤ cfg0.N) (hz : n ≠ 0) :
    carried m c n h = iprop(iprop(owns (c : Thread nD τ) accGram fullShare ((contentsAt m c (n - 1) (by omega)).2.2.1) ∗ owns (c : Thread nD τ) accSqM fullShare ((contentsAt m c (n - 1) (by omega)).2.2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := entryAt m c (Pipeline.arrRef spec0 w)
  after w t := match w with
    | ⟨0, _⟩ => blk m c 0 t
    | ⟨1, _⟩ => (contentsAt m c t.val t.isLt).1
    | ⟨2, _⟩ => (contentsAt m c t.val t.isLt).2.1
  Φ t := carried m c t.val (Nat.le_of_lt_succ t.isLt)
  q _ := fullShare
  owed _ := 0

theorem A_eq (c : Dev nD) (w : Fin cfg0.W) : (dats m 0 c).A w = entryAt m c (Pipeline.arrRef spec0 w) := by
  dsimp only [dats]
theorem carried_castSucc (c : Dev nD) (t : Fin cfg0.N) :
    (dats m 0 c).Φ t.castSucc = carried m c t.val (Nat.le_of_lt t.isLt) := by
  dsimp only [dats]; simp only [Fin.coe_castSucc]
theorem after_in (c : Dev nD) (t : Fin cfg0.N) : (dats m 0 c).after 0 t = blk m c 0 t := by dsimp only [dats]
theorem after_gram (c : Dev nD) (t : Fin cfg0.N) : (dats m 0 c).after 1 t = (contentsAt m c t.val t.isLt).1 := by dsimp only [dats]
theorem after_sq (c : Dev nD) (t : Fin cfg0.N) : (dats m 0 c).after 2 t = (contentsAt m c t.val t.isLt).2.1 := by dsimp only [dats]
theorem before_in (c : Dev nD) (t : Fin cfg0.N) (d) : (dats m 0 c).before 0 t d = blk m c 0 t :=
  before_in_of m (dats m 0 c) (A_eq m c 0) (after_in m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (stIn t) fullShare ((dats m 0 c).before 0 t d))
    ∗ (∃ d, owns (c : Thread nD τ) (stGram t) fullShare ((dats m 0 c).before 1 t d))
    ∗ (∃ d, owns (c : Thread nD τ) (stSq t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = carried m c (t.val + 1) t.isLt from rfl, carried_succ]
  have hN : t.val < 48 := lt_of_lt_of_eq t.isLt (show cfg0.N = 48 from N_0)
  rw [show (dats m 0 c).leavesExact 0 t = owns (c : Thread nD τ) (stIn t) fullShare ((dats m 0 c).after 0 t) from by
    unfold Dat.leavesExact; rw [live_in t], after_in]
  by_cases h1 : t.val % 24 = 23
  · -- a last step
    have h0 : ¬t.val % 24 = 0 := by omega
    have hl : isLast (grid0.coords t) := (isLast_iff t).mpr h1
    rw [show (dats m 0 c).leavesExact 1 t = owns (c : Thread nD τ) (stGram t) fullShare ((dats m 0 c).after 1 t) from by
      unfold Dat.leavesExact; rw [live_gram t hl], after_gram]
    rw [show (dats m 0 c).leavesExact 2 t = owns (c : Thread nD τ) (stSq t) fullShare ((dats m 0 c).after 2 t) from by
      unfold Dat.leavesExact; rw [live_sq t hl], after_sq]
    rw [contentsAt_last m c t h0 h1]
    unfold outGram outSq gramLast sqLast; (try dsimp only)
    have hz : t.val ≠ 0 := by omega
    rw [carried_castSucc m c t, carried_pos m c _ _ hz]
    iintro ⟨⟨⟨HA, HB⟩, Hg⟩, Ho, ⟨%d0, H0⟩, ⟨%d1, H1⟩, ⟨%d2, H2⟩⟩
    iapply ((lastAt c t.val t.isLt h0 h1 (blk m c 0 t) _ _).2.2.2.2 Set.univ _)
    isplitl [H0]; · iexact H0
    isplitl [H1]; · iexists _; iexact H1
    isplitl [H2]; · iexists _; iexact H2
    isplitl [HA]; · iexact HA
    isplitl [HB]; · iexact HB
    iintro ⟨H0, ⟨%e1, H1⟩, ⟨%e2, H2⟩, ⟨%ea, HA⟩, ⟨%eb, HB⟩⟩
    isplitl [HA HB Hg]
    · isplitl [HA HB]
      · isplitl [HA]
        · unfold owns; iexists _; isplitr
          swap; · iexact HA
          ipureintro; exact View.read_writes_of_cover _ _ _ _ _ (gramLast_cover c _ _ _ _ _ _ _)
        · unfold owns; iexists _; isplitr
          swap; · iexact HB
          ipureintro; exact View.read_writes_of_cover _ _ _ _ _ (sqLast_cover c _ _ _ _ _ _ _)
      iexact Hg
    isplitl [Ho]; · iexact Ho
    isplitl [H0]; · iexact H0
    isplitl [H1]
    · unfold owns; iexists _; isplitr
      swap; · iexact H1
      ipureintro; exact View.read_writes_of_cover _ _ _ _ _ (outGram_cover c _ _ _ _ _ _ _)
    · unfold owns; iexists _; isplitr
      swap; · iexact H2
      ipureintro; exact View.read_writes_of_cover _ _ _ _ _ (outSq_cover c _ _ _ _ _ _ _)
  · have hl : ¬isLast (grid0.coords t) := fun h => h1 ((isLast_iff t).mp h)
    rw [Dat.leavesExact_idle (dats m 0 c) 1 t (idle_gram t hl) (keep_gram t hl)]
    rw [Dat.leavesExact_idle (dats m 0 c) 2 t (idle_sq t hl) (keep_sq t hl)]
    by_cases h0 : t.val % 24 = 0
    · -- a first step
      rw [contentsAt_first m c t h0 h1]
      unfold gramFirst sqFirst; (try dsimp only)
      by_cases hz : t.val = 0
      · rw [carried_castSucc m c t, carried_zero m c _ _ hz, scratch_any]
        iintro ⟨⟨⟨HA, HB⟩, Hg⟩, Ho, ⟨%d0, H0⟩, ⟨%d1, H1⟩, ⟨%d2, H2⟩⟩
        iapply ((firstAt c t.val t.isLt h0 h1 (blk m c 0 t)).2.2.2.2 _ _ Set.univ _)
        isplitl [H0]; · iexact H0
        isplitl [H1]; · iexact H1
        isplitl [H2]; · iexact H2
        isplitl [HA]; · iexact HA
        isplitl [HB]; · iexact HB
        iintro ⟨H0, H1, H2, ⟨%ea, HA⟩, ⟨%eb, HB⟩⟩
        isplitl [HA HB Hg]
        · isplitl [HA HB]
          · isplitl [HA]
            · unfold owns; iexists _; isplitr
              swap; · iexact HA
              ipureintro; exact View.read_writes_of_cover _ _ _ _ _ (gramFirst_cover c _ _ _ _ _)
            · unfold owns; iexists _; isplitr
              swap; · iexact HB
              ipureintro; exact View.read_writes_of_cover _ _ _ _ _ (sqFirst_cover c _ _ _ _ _)
          iexact Hg
        isplitl [Ho]; · iexact Ho
        isplitl [H0]; · iexact H0
        isplitl [H1]; · iexists _; iexact H1
        iexists _; iexact H2
      · rw [carried_castSucc m c t, carried_pos m c _ _ hz]
        iintro ⟨⟨⟨HA, HB⟩, Hg⟩, Ho, ⟨%d0, H0⟩, ⟨%d1, H1⟩, ⟨%d2, H2⟩⟩
        iapply ((firstAt c t.val t.isLt h0 h1 (blk m c 0 t)).2.2.2.2 _ _ Set.univ _)
        isplitl [H0]; · iexact H0
        isplitl [H1]; · iexact H1
        isplitl [H2]; · iexact H2
        isplitl [HA]; · iexists _; iexact HA
        isplitl [HB]; · iexists _; iexact HB
        iintro ⟨H0, H1, H2, ⟨%ea, HA⟩, ⟨%eb, HB⟩⟩
        isplitl [HA HB Hg]
        · isplitl [HA HB]
          · isplitl [HA]
            · unfold owns; iexists _; isplitr
              swap; · iexact HA
              ipureintro; exact View.read_writes_of_cover _ _ _ _ _ (gramFirst_cover c _ _ _ _ _)
            · unfold owns; iexists _; isplitr
              swap; · iexact HB
              ipureintro; exact View.read_writes_of_cover _ _ _ _ _ (sqFirst_cover c _ _ _ _ _)
          iexact Hg
        isplitl [Ho]; · iexact Ho
        isplitl [H0]; · iexact H0
        isplitl [H1]; · iexists _; iexact H1
        iexists _; iexact H2
    · -- a middle step
      rw [contentsAt_mid m c t h0 h1]
      unfold gramMid sqMid; (try dsimp only)
      have hz : t.val ≠ 0 := by omega
      rw [carried_castSucc m c t, carried_pos m c _ _ hz]
      iintro ⟨⟨⟨HA, HB⟩, Hg⟩, Ho, ⟨%d0, H0⟩, ⟨%d1, H1⟩, ⟨%d2, H2⟩⟩
      iapply ((midAt c t.val t.isLt h0 h1 (blk m c 0 t) _ _).2.2.2.2 _ _ Set.univ _)
      isplitl [H0]; · iexact H0
      isplitl [H1]; · iexact H1
      isplitl [H2]; · iexact H2
      isplitl [HA]; · iexact HA
      isplitl [HB]; · iexact HB
      iintro ⟨H0, H1, H2, ⟨%ea, HA⟩, ⟨%eb, HB⟩⟩
      isplitl [HA HB Hg]
      · isplitl [HA HB]
        · isplitl [HA]
          · unfold owns; iexists _; isplitr
            swap; · iexact HA
            ipureintro; exact View.read_writes_of_cover _ _ _ _ _ (gramMid_cover c _ _ _ _ _ _ _)
          · unfold owns; iexists _; isplitr
            swap; · iexact HB
            ipureintro; exact View.read_writes_of_cover _ _ _ _ _ (sqMid_cover c _ _ _ _ _ _ _)
        iexact Hg
      isplitl [Ho]; · iexact Ho
      isplitl [H0]; · iexact H0
      isplitl [H1]; · iexists _; iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 48 := N_0; omega
  rw [show (dats m 0 c).Φ (Fin.last cfg0.N) = carried m c (Fin.last cfg0.N).val (Nat.le_of_lt_succ (Fin.last cfg0.N).isLt) from rfl,
    carried_pos m c _ _ ht, scratch_any]
  iintro ⟨⟨HA, HB⟩, Hg⟩
  isplitl [HA HB]
  · isplitl [HA]
    · iexists _; iexact HA
    · iexists _; iexact HB
  iexact Hg

/-! ## The run and the frame -/

/-- @main is the reshape, the region, then the host operations after it. -/
theorem hmain (𝒱₀ : Variants) : Pipeline.HMainK (Ix := Unit) (Name := ℕ) (U := UR sig nD τ) (Lvl := ℕ) cfgs 0 defs₀ 𝒱₀ m (main (F := F)) (entryAt m)
      (fun _ => Pipeline.chain ((tailOps (F := F)).map StableHlo.seq)) :=
  Pipeline.hmain_around cfgs 0 defs₀ 𝒱₀ m main [hostOps0] tailOps hostOps0_sub hostOps0_alloc_none main_chain

set_option backward.isDefEq.respectTransparency.types false in
theorem run_main : θ_run defs (onTc (τ := τ) (main (F := F))) (s₀ m ρ) (Pipeline.FramePost cfgs (dats m) 0 (Pipeline.afterTail₀ cfgs (dats m) 0 (entry m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := entry m) (opss := tailOps) (hsub := tail_sub) (hfresh := tail_fresh) (hkeep := tail_keeps)
    (hmain := hmain m Variants.none) (hA := A_eq m) (hin := hin m) (hout := hout m)

/-- The argument array is unscoped and is no window's array: it bypasses the region. -/
theorem arg0_bypasses : main_arg0 ∈ Pipeline.restRefs sig spec0 :=
  Pipeline.mem_restRefs_of main_arg0 (by decide) (by decide)

/-- After the whole program the argument array holds what it was launched with: the region does not stage it, and
    neither the reshape before nor the operations after write it. -/
theorem afterTail_arg0 (c : Dev nD) : Pipeline.afterTail₀ cfgs (dats m) 0 (entry m) tailOps c main_arg0 = m ((c : Thread nD τ).loc main_arg0) := by
  unfold Pipeline.afterTail₀
  rw [tail_arg0, Pipeline.withArrays_of_ne _ c _ _ main_arg0 (by decide)]
  exact entryAt_arg0 m c

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 arg0_bypasses).trans (afterTail_arg0 m c)) (run_main m ρ)

end Cert.KernelIdeal.Fr

end
-- ==== Proof.GramPieces.lean ====
/-
  What each course of the body leaves, as the body's own arithmetic.

  A first step clears both scratch buffers and then adds the block's contribution to the cleared contents; a middle
  step adds it to the totals it found; a last step does the same and then copies the new totals, reshaped, into the
  two output buffers.  Each is read here off the pieces the course's run stored: a buffer covered by its last store
  holds that store's value, and a load of a buffer after a covering store in the same run reads the stored value.
-/
import proofs.«146502_j20134806684259_1_alg».proof.Proof.GramFrame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

theorem gramFirst_eq (c : Dev nD) (n : ℕ) (hn : n < cfg0.N) (h0 : n % 24 = 0) (h1 : ¬n % 24 = 23) (x : Vec F S1024x1024 .f32) : gramFirst (F := F) c n hn h0 h1 x = k0_pay5 x (k0_pay1 (F := F)) := by
  unfold gramFirst
  rw [View.read_writes_eq_canon _ _ _ (gramFirst_cover c n hn h0 h1 x)]
  unfold firstAt runFirst
  dsimp only
  sl_unfold_words
  rw [View.canon_cons_unit_zero (S := S1024x1024) zero2, View.readCov_unit_zero (S := S1024x1024) _ zero2]
  simp only [View.readAt_eq_ld, (stIn_whole ⟨n, hn⟩).read_unread, (Memref.isWhole_whole cc0_scratch0).read_unread, (Memref.isWhole_whole cc0_scratch1).read_unread, View.ld_unit_zero (S := S1024x1024) zero2, View.ld_unit_zero (S := S1024x1) zero2]

theorem sqFirst_eq (c : Dev nD) (n : ℕ) (hn : n < cfg0.N) (h0 : n % 24 = 0) (h1 : ¬n % 24 = 23) (x : Vec F S1024x1024 .f32) : sqFirst (F := F) c n hn h0 h1 x = k0_pay4 x (k0_pay2 (F := F)) := by
  unfold sqFirst
  rw [View.read_writes_eq_canon _ _ _ (sqFirst_cover c n hn h0 h1 x)]
  unfold firstAt runFirst
  dsimp only
  sl_unfold_words
  rw [View.canon_cons_unit_zero (S := S1024x1) zero2, View.readCov_unit_zero (S := S1024x1) _ zero2]
  simp only [View.readAt_eq_ld, (stIn_whole ⟨n, hn⟩).read_unread, (Memref.isWhole_whole cc0_scratch0).read_unread, (Memref.isWhole_whole cc0_scratch1).read_unread, View.ld_unit_zero (S := S1024x1024) zero2, View.ld_unit_zero (S := S1024x1) zero2]

theorem gramMid_eq (c : Dev nD) (n : ℕ) (hn : n < cfg0.N) (h0 : ¬n % 24 = 0) (h1 : ¬n % 24 = 23) (x : Vec F S1024x1024 .f32) (a : Vec F S1024x1024 .f32) (b : Vec F S1024x1 .f32) : gramMid (F := F) c n hn h0 h1 x a b = k0_pay5 x a := by
  unfold gramMid
  rw [View.read_writes_eq_canon _ _ _ (gramMid_cover c n hn h0 h1 x a b)]
  unfold midAt runMid
  dsimp only
  sl_unfold_words
  rw [View.canon_unit_zero zero2]
  simp only [View.readAt_eq_ld, (stIn_whole ⟨n, hn⟩).read_unread, (Memref.isWhole_whole cc0_scratch0).read_unread, (Memref.isWhole_whole cc0_scratch1).read_unread, View.ld_unit_zero (S := S1024x1024) zero2, View.ld_unit_zero (S := S1024x1) zero2]

theorem sqMid_eq (c : Dev nD) (n : ℕ) (hn : n < cfg0.N) (h0 : ¬n % 24 = 0) (h1 : ¬n % 24 = 23) (x : Vec F S1024x1024 .f32) (a : Vec F S1024x1024 .f32) (b : Vec F S1024x1 .f32) : sqMid (F := F) c n hn h0 h1 x a b = k0_pay4 x b := by
  unfold sqMid
  rw [View.read_writes_eq_canon _ _ _ (sqMid_cover c n hn h0 h1 x a b)]
  unfold midAt runMid
  dsimp only
  sl_unfold_words
  rw [View.canon_unit_zero zero2]
  simp only [View.readAt_eq_ld, (stIn_whole ⟨n, hn⟩).read_unread, (Memref.isWhole_whole cc0_scratch0).read_unread, (Memref.isWhole_whole cc0_scratch1).read_unread, View.ld_unit_zero (S := S1024x1024) zero2, View.ld_unit_zero (S := S1024x1) zero2]

theorem gramLast_eq (c : Dev nD) (n : ℕ) (hn : n < cfg0.N) (h0 : ¬n % 24 = 0) (h1 : n % 24 = 23) (x : Vec F S1024x1024 .f32) (a : Vec F S1024x1024 .f32) (b : Vec F S1024x1 .f32) : gramLast (F := F) c n hn h0 h1 x a b = k0_pay5 x a := by
  unfold gramLast
  rw [View.read_writes_eq_canon _ _ _ (gramLast_cover c n hn h0 h1 x a b)]
  unfold lastAt runLast
  dsimp only
  sl_unfold_words
  rw [View.canon_unit_zero zero2]
  simp only [View.readAt_eq_ld, (stIn_whole ⟨n, hn⟩).read_unread, (Memref.isWhole_whole cc0_scratch0).read_unread, (Memref.isWhole_whole cc0_scratch1).read_unread, View.ld_unit_zero (S := S1024x1024) zero2, View.ld_unit_zero (S := S1024x1) zero2]

theorem sqLast_eq (c : Dev nD) (n : ℕ) (hn : n < cfg0.N) (h0 : ¬n % 24 = 0) (h1 : n % 24 = 23) (x : Vec F S1024x1024 .f32) (a : Vec F S1024x1024 .f32) (b : Vec F S1024x1 .f32) : sqLast (F := F) c n hn h0 h1 x a b = k0_pay4 x b := by
  unfold sqLast
  rw [View.read_writes_eq_canon _ _ _ (sqLast_cover c n hn h0 h1 x a b)]
  unfold lastAt runLast
  dsimp only
  sl_unfold_words
  rw [View.canon_unit_zero zero2]
  simp only [View.readAt_eq_ld, (stIn_whole ⟨n, hn⟩).read_unread, (Memref.isWhole_whole cc0_scratch0).read_unread, (Memref.isWhole_whole cc0_scratch1).read_unread, View.ld_unit_zero (S := S1024x1024) zero2, View.ld_unit_zero (S := S1024x1) zero2]

theorem outGram_eq (c : Dev nD) (n : ℕ) (hn : n < cfg0.N) (h0 : ¬n % 24 = 0) (h1 : n % 24 = 23) (x : Vec F S1024x1024 .f32) (a : Vec F S1024x1024 .f32) (b : Vec F S1024x1 .f32) : outGram (F := F) c n hn h0 h1 x a b = k0_pay6 (k0_pay5 x a) := by
  unfold outGram
  rw [View.read_writes_eq_canon _ _ _ (outGram_cover c n hn h0 h1 x a b)]
  unfold lastAt runLast
  dsimp only
  sl_unfold_words
  rw [View.canon_unit_zero zero3]
  simp only [View.readAt_eq_ld, (stIn_whole ⟨n, hn⟩).read_unread, (Memref.isWhole_whole cc0_scratch0).read_unread, (Memref.isWhole_whole cc0_scratch1).read_unread, View.ld_unit_zero (S := S1024x1024) zero2, View.ld_unit_zero (S := S1024x1) zero2, View.readCov_unit_zero (S := S1024x1024) _ zero2]

theorem outSq_eq (c : Dev nD) (n : ℕ) (hn : n < cfg0.N) (h0 : ¬n % 24 = 0) (h1 : n % 24 = 23) (x : Vec F S1024x1024 .f32) (a : Vec F S1024x1024 .f32) (b : Vec F S1024x1 .f32) : outSq (F := F) c n hn h0 h1 x a b = k0_pay7 (k0_pay4 x b) := by
  unfold outSq
  rw [View.read_writes_eq_canon _ _ _ (outSq_cover c n hn h0 h1 x a b)]
  unfold lastAt runLast
  dsimp only
  sl_unfold_words
  rw [View.canon_unit_zero zero3]
  simp only [View.readAt_eq_ld, (stIn_whole ⟨n, hn⟩).read_unread, (Memref.isWhole_whole cc0_scratch0).read_unread, (Memref.isWhole_whole cc0_scratch1).read_unread, View.ld_unit_zero (S := S1024x1024) zero2, View.ld_unit_zero (S := S1024x1) zero2, View.readCov_unit_zero (S := S1024x1) _ zero2]

end Cert.KernelIdeal.Fr

end
-- ==== Proof.GramPayload.lean ====
/-
  The kernel body's arithmetic, read one element at a time, at the ideal values.

  At each grid point the body is handed one 1024 × 1024 block X of the feature matrix and keeps two running
  totals: a 1024 × 1024 matrix A of inner products and a 1024 × 1 column B of squared norms.  One step replaces

      A[i, j]  by  A[i, j] + ∑ k, X[i, k] * X[j, k]        (the block times its own transpose)
      B[i, 0]  by  B[i, 0] + ∑ k, X[i, k] * X[i, k]        (the row sums of the squared entries)

  the first step starts both from zero, and the last step copies both out unchanged under a leading axis of
  extent one.  On the extended reals nothing is rounded: narrowing the block to a shorter format before the
  product is the identity, and the zero word the product accumulates into is the number 0.

  Every stored value is one term over the values the body loaded.  The statements below read each such term at
  an element named by its coordinates.  The steps that are not elementwise are: a reshape to the same shape (the
  identity); a vector of 1024 entries viewed as a 1024 × 1 column (entry i sits at (i, 0), same row-major
  position); a matrix viewed under a leading unit axis (entry (i, j) sits at (0, i, j)); the sum along the
  second axis; the transpose; and the matrix product, whose contraction runs over one axis of extent 1024 and
  is re-indexed by that axis's coordinate.
-/
import proofs.«146502_j20134806684259_1_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-! ## A vector viewed as a column -/

/-- A vector of a entries viewed as an a × 1 column reads, at (i, u), entry i: row-major position
    i * 1 + u = i, the unit coordinate u being 0. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The loaded block -/

/-- The block reshaped to its own shape is the block. -/
theorem pay3_eq (x : Vec Ideal S1024x1024 .f32) : k0_pay3 x = x := by
  unfold k0_pay3
  exact shapeCast_self x _

/-! ## The first step's zeros -/

/-- The matrix of inner products starts from zero. -/
theorem pay1_apply (y : S1024x1024.Idx) : k0_pay1 (F := Ideal) y = 0 := by
  unfold k0_pay1
  refine (congrFun (shapeCast_self _ _) y).trans ?_
  exact Ideal.ofBits_zero_f32

/-- The column of squared norms starts from zero. -/
theorem pay2_apply (y : S1024x1.Idx) : k0_pay2 (F := Ideal) y = 0 := by
  unfold k0_pay2
  refine (congrFun (shapeCast_self _ _) y).trans ?_
  exact Ideal.ofBits_zero_f32

/-! ## The last step's copies -/

/-- The matrix of inner products is copied out under a leading unit axis. -/
theorem pay6_apply (v : Vec Ideal S1024x1024 .f32) (i j : Fin 1024) :
    k0_pay6 v (ix3 (0 : Fin 1) i j) = v (ix2 i j) := by
  unfold k0_pay6
  exact shapeCast_ab_1ab_apply v _ (0 : Fin 1) i j

/-- The column of squared norms is copied out under a leading unit axis. -/
theorem pay7_apply (v : Vec Ideal S1024x1 .f32) (i : Fin 1024) :
    k0_pay7 v (ix3 (0 : Fin 1) i (0 : Fin 1)) = v (ix2 i (0 : Fin 1)) := by
  unfold k0_pay7
  exact shapeCast_ab_1ab_apply v _ (0 : Fin 1) i (0 : Fin 1)

/-! ## The squared norms' step -/

/-- The sum along the second axis of a 1024 × 1024 matrix, at row i, is the sum over the columns k of
    the entries (i, k). -/
theorem rowSum_apply (src : FVec Ideal S1024x1024 .f32) (h : S1024x1024.Reduces [1] S1024)
    (hφ : FKind.Formats .f32) (hacc : (0x00000000#32 : BitVec 32) = FKind.add.neutral .f32 hφ) (i : Fin 1024) :
    multiReduction (F := Ideal) .add [1] S1024 src 0x00000000#32 h hφ hacc (ix1 i)
      = ∑ k : Fin 1024, src (ix2 i k) := by
  refine (Ideal.multiReduction_add_single src 0x00000000#32 h hφ hacc (ix1 i)).trans ?_
  refine Finset.sum_congr rfl fun k _ => congrArg src ?_
  funext a
  refine Fin.ext ?_
  match a with
  | ⟨0, _⟩ => rfl
  | ⟨1, _⟩ => rfl

/-- One step adds to the squared norm of row i the sum of the squares of the block's row i. -/
theorem pay4_apply (x : Vec Ideal S1024x1024 .f32) (b : Vec Ideal S1024x1 .f32) (i : Fin 1024) :
    k0_pay4 x b (ix2 i (0 : Fin 1)) = b (ix2 i (0 : Fin 1)) + ∑ k : Fin 1024, x (ix2 i k) * x (ix2 i k) := by
  unfold k0_pay4
  refine (congrFun (shapeCast_self _ _) _).trans ?_
  refine congrArg (b (ix2 i (0 : Fin 1)) + ·) ?_
  refine (shapeCast_a_a1_apply _ _ i (0 : Fin 1)).trans ?_
  refine (rowSum_apply _ _ _ _ i).trans ?_
  rw [pay3_eq]
  rfl

/-! ## The inner products' step -/

/-- The product's first operand, on its kept axis, reads the result's row. -/
theorem lhs_gram_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

/-- The product's first operand, on its contracted axis, reads the contraction's coordinate. -/
theorem lhs_gram_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q

/-- The product's second operand, on its contracted axis, reads the contraction's coordinate. -/
theorem rhs_gram_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q

/-- The product's second operand, on its kept axis, reads the result's column. -/
theorem rhs_gram_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The product of two 1024 × 1024 matrices into the zero matrix, at (i, j), is the sum over k of the first
    at (i, k) times the second at (k, j). -/
theorem gram_matmul_apply {φ₁ φ₂ : FTy} (l : FVec Ideal S1024x1024 φ₁) (r : FVec Ideal S1024x1024 φ₂) (i j : Fin 1024) :
    matmul dot_S1024x1024_S1024x1024_S1024x1024_1_0_0_1_n_n none l r (constant (F := Ideal) S1024x1024 .f32 0x00000000#32) (ix2 i j)
      = ∑ k : Fin 1024, l (ix2 i k) * r (ix2 k j) := by
  refine (Ideal.matmul_constant_zero_apply dot_S1024x1024_S1024x1024_S1024x1024_1_0_0_1_n_n none l r (ix2 i j)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 i j)
      ((contrEquiv1 dot_S1024x1024_S1024x1024_S1024x1024_1_0_0_1_n_n 1024 rfl rfl).symm k) = ix2 i k :=
    funext fun a => Fin.ext (by
      match a with
      | ⟨0, _⟩ => exact lhs_gram_0 _ _
      | ⟨1, _⟩ => exact (lhs_gram_1 _ _).trans hk)
  have er : dot_S1024x1024_S1024x1024_S1024x1024_1_0_0_1_n_n.rhsIdx (ix2 i j)
      ((contrEquiv1 dot_S1024x1024_S1024x1024_S1024x1024_1_0_0_1_n_n 1024 rfl rfl).symm k) = ix2 k j :=
    funext fun a => Fin.ext (by
      match a with
      | ⟨0, _⟩ => exact (rhs_gram_0 _ _).trans hk
      | ⟨1, _⟩ => exact rhs_gram_1 _ _)
  rw [el, er]

/-- One step adds to the inner product of rows i and j the sum over the block's columns k of the products of
    the entries (i, k) and (j, k). -/
theorem pay5_apply (x a : Vec Ideal S1024x1024 .f32) (i j : Fin 1024) :
    k0_pay5 x a (ix2 i j) = a (ix2 i j) + ∑ k : Fin 1024, x (ix2 i k) * x (ix2 j k) := by
  unfold k0_pay5
  refine (congrFun (shapeCast_self _ _) _).trans ?_
  refine congrArg (a (ix2 i j) + ·) ?_
  refine (gram_matmul_apply _ _ i j).trans ?_
  refine Finset.sum_congr rfl fun k _ => ?_
  rw [pay3_eq]
  exact congrArg (x (ix2 i k) * ·) (transpose_ix2_apply _ _ k j)

end Cert.KernelIdeal.Val

end
-- ==== Proof.PairLossSpec.lean ====
/-
  The mathematics both programs compute, stated once over plain index types.

  For a feature matrix `f` of 1024 rows and 49152 columns, row `i` has squared norm `∑ K, f i K * f i K` and
  rows `i`, `j` have inner product `∑ K, f i K * f j K`.  The columns are cut into 48 consecutive blocks of
  1024; block `b` holds columns `b * 1024 … b * 1024 + 1023`.  The partial sums over the first `n` blocks of a
  half (blocks `24 * s … 24 * s + n - 1`) are the running totals an accumulating computation passes through,
  and the two halves' totals add up to the whole sums: addition on the extended reals is commutative and
  associative, which is all a regrouping of a finite sum needs.

  From the squared norms `q` and the inner products `g` the squared distance of rows `i`, `j` is
  `max (q i + q j - 2 * g i j) 0`; rows fall in groups of eight consecutive ones; one loss sums the distances over
  pairs of distinct rows of one group, the other sums `max (1 - distance) 0` over pairs of rows of different groups.
  Those last steps are the same operations in both programs, so they are kept here as ONE function of the
  distance matrix and never opened.
-/
import Idealize.ShloMosaic.PureOps.Ideal
import Idealize.ShloMosaic.PureOps.Ideal.Laws
import Idealize.ShloMosaic.PureOps.Vector
import Idealize.ShloMosaic.Lib.ValueIdx

noncomputable section

namespace Cert.PairLoss

open Idealize.ShloMosaic Idealize.ShloMosaic.ValueIdx

/-! ## Shapes -/

abbrev SFeat : Shape := ⟨2, ![1024, 49152]⟩
abbrev SPair : Shape := ⟨2, ![1024, 1024]⟩
abbrev SCol : Shape := ⟨2, ![1024, 1]⟩
abbrev SRow : Shape := ⟨2, ![1, 1024]⟩
abbrev SVec : Shape := ⟨1, ![1024]⟩
abbrev SScalar : Shape := ⟨0, ![]⟩

/-! ## Sums over the feature axis, whole and by blocks -/

/-- Column `k` of block `b`. -/
def colOf (b : Fin 48) (k : Fin 1024) : Fin 49152 := ⟨b.val * 1024 + k.val, by omega⟩

/-- Row `i`'s squared norm. -/
def sqNorm (f : SFeat.Idx → EReal) (i : Fin 1024) : EReal := ∑ K : Fin 49152, f (ix2 i K) * f (ix2 i K)

/-- The inner product of rows `i` and `j`. -/
def inner (f : SFeat.Idx → EReal) (i j : Fin 1024) : EReal := ∑ K : Fin 49152, f (ix2 i K) * f (ix2 j K)

/-- Block `b`'s share of row `i`'s squared norm. -/
def blockSq (f : SFeat.Idx → EReal) (b : Fin 48) (i : Fin 1024) : EReal :=
  ∑ k : Fin 1024, f (ix2 i (colOf b k)) * f (ix2 i (colOf b k))

/-- Block `b`'s share of the inner product of rows `i` and `j`. -/
def blockInner (f : SFeat.Idx → EReal) (b : Fin 48) (i j : Fin 1024) : EReal :=
  ∑ k : Fin 1024, f (ix2 i (colOf b k)) * f (ix2 j (colOf b k))

/-- The same by the block's number, zero past the last block. -/
def blockSqN (f : SFeat.Idx → EReal) (b : ℕ) (i : Fin 1024) : EReal :=
  if h : b < 48 then blockSq f ⟨b, h⟩ i else 0
def blockInnerN (f : SFeat.Idx → EReal) (b : ℕ) (i j : Fin 1024) : EReal :=
  if h : b < 48 then blockInner f ⟨b, h⟩ i j else 0

/-- The running total of half `s` after its first `n` blocks. -/
def accSq (f : SFeat.Idx → EReal) (s n : ℕ) (i : Fin 1024) : EReal :=
  ∑ q ∈ Finset.range n, blockSqN f (24 * s + q) i
def accInner (f : SFeat.Idx → EReal) (s n : ℕ) (i j : Fin 1024) : EReal :=
  ∑ q ∈ Finset.range n, blockInnerN f (24 * s + q) i j

theorem accSq_zero (f : SFeat.Idx → EReal) (s : ℕ) (i : Fin 1024) : accSq f s 0 i = 0 := by
  unfold accSq; rw [Finset.range_zero, Finset.sum_empty]
theorem accSq_succ (f : SFeat.Idx → EReal) (s n : ℕ) (i : Fin 1024) :
    accSq f s (n + 1) i = accSq f s n i + blockSqN f (24 * s + n) i := by
  unfold accSq; rw [Finset.sum_range_succ]
theorem accInner_zero (f : SFeat.Idx → EReal) (s : ℕ) (i j : Fin 1024) : accInner f s 0 i j = 0 := by
  unfold accInner; rw [Finset.range_zero, Finset.sum_empty]
theorem accInner_succ (f : SFeat.Idx → EReal) (s n : ℕ) (i j : Fin 1024) :
    accInner f s (n + 1) i j = accInner f s n i j + blockInnerN f (24 * s + n) i j := by
  unfold accInner; rw [Finset.sum_range_succ]

end Cert.PairLoss

end
-- ==== Proof.PairLossTail.lean ====
/-
  The last steps both programs share, as functions never opened: from the squared norms laid out as a column
  and as a row, and the matrix of inner products, the matrix of squared distances `max (q i + q j - 2 * g i j) 0`;
  the group of a row (its number divided by eight, rounding down); the mask of pairs of distinct rows in one
  group and the mask of pairs of rows in different groups; and the two losses — half the sum of the distances over
  the first mask, scaled by `2 / 7168`, and the sum of `max (1 - distance) 0` over the second, scaled by `2 / 130048`.
-/
import proofs.«146502_j20134806684259_1_alg».proof.Proof.PairLossSpec

noncomputable section

namespace Cert.PairLoss

open Idealize.ShloMosaic

/-- The feature matrix: each sample's 64 × 768 entries laid out as one row of 49152. -/
def feat (x : FVec Ideal ⟨3, ![1024, 64, 768]⟩ .f32) : FVec Ideal SFeat .f32 := shapeCast SFeat x (by decide)

/-- The squared distances from the norms (as a column and as a row) and the inner products. -/
def distOf (qcol : FVec Ideal SCol .f32) (qrow : FVec Ideal SRow .f32) (g : FVec Ideal SPair .f32) : FVec Ideal SPair .f32 :=
  maximumf
    (subf (addf (broadcastInDim SPair ![0, 1] (by decide) qcol) (broadcastInDim SPair ![0, 1] (by decide) qrow))
      (mulf (broadcastInDim SPair ![] (by decide) (constant (F := Ideal) SScalar .f32 0x40000000#32)) g))
    (broadcastInDim SPair ![] (by decide) (constant (F := Ideal) SScalar .f32 0x00000000#32))

/-- Each row's group: its number divided by eight, rounding toward minus infinity. -/
def groupOf : IVec SVec 32 :=
  let n : IVec SVec 32 := iotaInDim SVec 32 0
  let e : IVec SScalar 32 := id (constantI SScalar 32 8#32)
  let q : IVec SVec 32 := Host.divsi n (broadcastInDim SVec ![] (by decide) e)
  select
    (andi (cmpi .ne (signi n) (broadcastInDim SVec ![] (by decide) (signi e)))
      (cmpi .ne (Host.remsi n (broadcastInDim SVec ![] (by decide) e)) (broadcastInDim SVec ![] (by decide) (constantI SScalar 32 0#32))))
    (subi q (broadcastInDim SVec ![] (by decide) (constantI SScalar 32 1#32)))
    q

/-- Rows `i ≠ j` of one group. -/
def sameMask : IVec SPair 1 :=
  andi
    (cmpi .eq (broadcastInDim SPair ![0, 1] (by decide) (broadcastInDim SCol ![0] (by decide) groupOf))
      (broadcastInDim SPair ![0, 1] (by decide) (broadcastInDim SRow ![1] (by decide) groupOf)))
    (noti (cmpi .eq (addi (iotaInDim SPair 32 0) (broadcastInDim SPair ![] (by decide) (constantI SScalar 32 0#32))) (iotaInDim SPair 32 1)))

/-- Rows of different groups. -/
def diffMask : IVec SPair 1 :=
  cmpi .ne (broadcastInDim SPair ![0, 1] (by decide) (broadcastInDim SCol ![0] (by decide) groupOf))
    (broadcastInDim SPair ![0, 1] (by decide) (broadcastInDim SRow ![1] (by decide) groupOf))

/-- The within-group loss of a distance matrix. -/
def homoLoss (d : FVec Ideal SPair .f32) : FVec Ideal SScalar .f32 :=
  let z : FVec Ideal SScalar .f32 := constant (F := Ideal) SScalar .f32 0x00000000#32
  let picked : FVec Ideal SPair .f32 := select sameMask d (broadcastInDim SPair ![] (by decide) (id z))
  let total : FVec Ideal SScalar .f32 := Host.reduceAdd (F := Ideal) picked z (by decide : SPair.ReducesTo [0, 1] SScalar) (by decide)
  Host.divf (F := Ideal)
    (mulf (constant (F := Ideal) SScalar .f32 0x40000000#32) (mulf (constant (F := Ideal) SScalar .f32 0x3F000000#32) total))
    (constant (F := Ideal) SScalar .f32 0x45E00000#32)

/-- The between-group loss of a distance matrix. -/
def heterLoss (d : FVec Ideal SPair .f32) : FVec Ideal SScalar .f32 :=
  let z : FVec Ideal SScalar .f32 := constant (F := Ideal) SScalar .f32 0x00000000#32
  let hinge : FVec Ideal SPair .f32 :=
    maximumf (subf (broadcastInDim SPair ![] (by decide) (constant (F := Ideal) SScalar .f32 0x3F800000#32)) d)
      (broadcastInDim SPair ![] (by decide) z)
  let picked : FVec Ideal SPair .f32 := select diffMask hinge (broadcastInDim SPair ![] (by decide) (id z))
  let total : FVec Ideal SScalar .f32 := Host.reduceAdd (F := Ideal) picked z (by decide : SPair.ReducesTo [0, 1] SScalar) (by decide)
  Host.divf (F := Ideal) (mulf (constant (F := Ideal) SScalar .f32 0x40000000#32) total)
    (constant (F := Ideal) SScalar .f32 0x47FE0000#32)

end Cert.PairLoss

end
-- ==== Proof.GramValue.lean ====
/-
  What the kernel program's two result arrays hold once its 48 grid points have run, at the ideal values.

  Write f for the feature matrix of 1024 rows and 49152 columns: the program's argument with each sample's
  64 × 768 entries laid out as one row.  Grid point t (half t / 24, step t % 24) is handed block t of f: all
  1024 rows, columns t * 1024 … t * 1024 + 1023, so entry (i, k) of the block is f (i, t * 1024 + k).  One step
  adds to the matrix of inner products the block times its own transpose, and to the column of squared norms
  the row sums of the block's squared entries; these are block t's shares of the inner products and of the
  squared norms of the rows of f.  A half's first step starts both totals from zero.  So, by induction on the
  point, after point t the two totals are the partial sums over the blocks 24 * (t / 24) … t of the half:

      total of inner products at (i, j)  =  ∑ over those blocks b of  ∑ k, f (i, b * 1024 + k) * f (j, b * 1024 + k)
      total of squared norms at i        =  ∑ over those blocks b of  ∑ k, f (i, b * 1024 + k) * f (i, b * 1024 + k)

  (the step before t lies in the same half, one step earlier, whenever t is not a first step).  At a half's last
  step, t % 24 = 23, all 24 blocks of the half are in, and the step copies both totals out under a leading axis
  of extent one.  That copy is written to slice t / 24 of the result array, and only the two last steps
  (points 23 and 47) write anything back; their two slices are the whole array.  Hence entry (s, i, j) of the
  first result is the sum over the 24 blocks of half s of the blocks' shares of the inner product of rows i and
  j, and entry (s, i, 0) of the second is the same for the squared norm of row i.
-/
import proofs.«146502_j20134806684259_1_alg».proof.Proof.GramPieces
import proofs.«146502_j20134806684259_1_alg».proof.Proof.GramPayload
import proofs.«146502_j20134806684259_1_alg».proof.Proof.PairLossTail
import Idealize.ShloMosaic.Lib.StableHlo.Run
import Idealize.ShloMosaic.Lib.Pipeline.Value
import Idealize.ShloMosaic.Lib.ValueIdx

noncomputable section

namespace Cert.KernelIdeal.Val

open Cert.KernelIdeal Cert.KernelIdeal.Gen Cert.KernelIdeal.Fr Cert.PairLoss
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The feature matrix and its blocks -/

/-- The feature matrix as the grid finds it. -/
abbrev farr (c : Dev nD) : Vec Ideal S1024x49152 .f32 := entryAt m c main_v0
/-- The block of the feature matrix handed to point t. -/
abbrev xblk (c : Dev nD) (t : Fin cfg0.N) : Vec Ideal S1024x1024 .f32 := blk m c 0 t

/-- The feature matrix is the argument with each sample's entries laid out as one row. -/
theorem farr_eq (c : Dev nD) : farr m c = feat (m ((c.tc : Thread nD τ).loc main_arg0)) := by
  show StableHlo.after (List.flatten [hostOps0]) (fun b => m (c, b)) (Proc.devRef .tc main_v0) = _
  simp only [hostOps0, List.flatten_cons, List.flatten_nil, List.append_nil]
  after_results
  rfl

/-- Point t's block index: all rows, column block t. -/
theorem idx_in : ∀ t : Fin cfg0.N, win0_0.index t (0 : Fin 2) = 0 ∧ win0_0.index t (1 : Fin 2) = t.val :=
  (by decide +kernel : ∀ t : Fin grid0.N, _)

/-- Entry (i, k) of point t's block is entry (i, t * 1024 + k) of the feature matrix. -/
theorem xblk_apply (c : Dev nD) (t : Fin cfg0.N) (i k : Fin 1024) (K : Fin 49152) (hK : K.val = t.val * 1024 + k.val) :
    xblk m c t (ix2 i k) = farr m c (ix2 i K) := by
  have hi := idx_in t
  unfold xblk blk
  rw [View.read_apply]
  show entryAt m c main_v0 _ = entryAt m c main_v0 _
  congr 1
  funext a
  apply Fin.ext
  match a with
  | ⟨0, _⟩ => show win0_0.index t (0 : Fin 2) * 1024 + 1 * i.val = i.val; rw [hi.1]; omega
  | ⟨1, _⟩ => show win0_0.index t (1 : Fin 2) * 1024 + 1 * k.val = K.val; rw [hi.2, hK]; omega

theorem lt48 (t : Fin cfg0.N) : t.val < 48 := lt_of_lt_of_eq t.isLt (show cfg0.N = 48 from N_0)

/-- The block times its own transpose, at (i, j), is block t's share of the inner product of rows i and j. -/
theorem blockInner_xblk (c : Dev nD) (t : Fin cfg0.N) (i j : Fin 1024) :
    ∑ k : Fin 1024, xblk m c t (ix2 i k) * xblk m c t (ix2 j k) = blockInnerN (farr m c) t.val i j := by
  unfold blockInnerN
  rw [dif_pos (lt48 t)]
  unfold blockInner
  refine Finset.sum_congr rfl fun k _ => ?_
  rw [xblk_apply m c t i k (colOf ⟨t.val, lt48 t⟩ k) rfl, xblk_apply m c t j k (colOf ⟨t.val, lt48 t⟩ k) rfl]

/-- The row sum of the block's squared entries, at row i, is block t's share of row i's squared norm. -/
theorem blockSq_xblk (c : Dev nD) (t : Fin cfg0.N) (i : Fin 1024) :
    ∑ k : Fin 1024, xblk m c t (ix2 i k) * xblk m c t (ix2 i k) = blockSqN (farr m c) t.val i := by
  unfold blockSqN
  rw [dif_pos (lt48 t)]
  unfold blockSq
  refine Finset.sum_congr rfl fun k _ => ?_
  rw [xblk_apply m c t i k (colOf ⟨t.val, lt48 t⟩ k) rfl]

/-! ## The running totals, step by step

Point t is step t % 24 of half t / 24, and 24 * (t / 24) + t % 24 = t.  At a first step the total through the
step is zero plus block t's share; otherwise the point before is step t % 24 - 1 of the same half, and the total
through step t % 24 is the total through the step before plus block t's share. -/

theorem accInner_first (f : SFeat.Idx → EReal) (t : ℕ) (h0 : t % 24 = 0) (i j : Fin 1024) :
    accInner f (t / 24) (t % 24 + 1) i j = 0 + blockInnerN f t i j := by
  rw [accInner_succ, Nat.div_add_mod, h0, accInner_zero]

theorem accInner_step (f : SFeat.Idx → EReal) (t : ℕ) (h0 : ¬t % 24 = 0) (i j : Fin 1024) :
    accInner f (t / 24) (t % 24 + 1) i j = accInner f ((t - 1) / 24) ((t - 1) % 24 + 1) i j + blockInnerN f t i j := by
  rw [accInner_succ, Nat.div_add_mod]
  have e1 : (t - 1) / 24 = t / 24 := by omega
  have e2 : (t - 1) % 24 + 1 = t % 24 := by omega
  rw [e1, e2]

theorem accSq_first (f : SFeat.Idx → EReal) (t : ℕ) (h0 : t % 24 = 0) (i : Fin 1024) :
    accSq f (t / 24) (t % 24 + 1) i = 0 + blockSqN f t i := by
  rw [accSq_succ, Nat.div_add_mod, h0, accSq_zero]

theorem accSq_step (f : SFeat.Idx → EReal) (t : ℕ) (h0 : ¬t % 24 = 0) (i : Fin 1024) :
    accSq f (t / 24) (t % 24 + 1) i = accSq f ((t - 1) / 24) ((t - 1) % 24 + 1) i + blockSqN f t i := by
  rw [accSq_succ, Nat.div_add_mod]
  have e1 : (t - 1) / 24 = t / 24 := by omega
  have e2 : (t - 1) % 24 + 1 = t % 24 := by omega
  rw [e1, e2]

/-! ## The totals after each point -/

/-- One point's effect on the two totals: if the point before left the running totals through its own step (asked
    only when t is not a first step), point t leaves the running totals through step t % 24. -/
theorem totals_step (c : Dev nD) (t : Fin cfg0.N)
    (hprev : ¬t.val % 24 = 0 →
      (∀ i j : Fin 1024, prevGram m c t (ix2 i j) = accInner (farr m c) ((t.val - 1) / 24) ((t.val - 1) % 24 + 1) i j)
      ∧ (∀ i : Fin 1024, prevSq m c t (ix2 i (0 : Fin 1)) = accSq (farr m c) ((t.val - 1) / 24) ((t.val - 1) % 24 + 1) i)) :
    (∀ i j : Fin 1024, (contentsAt m c t.val t.isLt).2.2.1 (ix2 i j) = accInner (farr m c) (t.val / 24) (t.val % 24 + 1) i j)
    ∧ (∀ i : Fin 1024, (contentsAt m c t.val t.isLt).2.2.2 (ix2 i (0 : Fin 1)) = accSq (farr m c) (t.val / 24) (t.val % 24 + 1) i) := by
  by_cases h0 : t.val % 24 = 0
  · have h1 : ¬t.val % 24 = 23 := by omega
    rw [contentsAt_first m c t h0 h1]
    dsimp only
    refine ⟨fun i j => ?_, fun i => ?_⟩
    · refine (congrFun (gramFirst_eq (F := Ideal) c t.val t.isLt h0 h1 (xblk m c t)) (ix2 i j)).trans ?_
      refine (pay5_apply (xblk m c t) (k0_pay1 (F := Ideal)) i j).trans ?_
      rw [pay1_apply, blockInner_xblk m c t i j]
      exact (accInner_first _ t.val h0 i j).symm
    · refine (congrFun (sqFirst_eq (F := Ideal) c t.val t.isLt h0 h1 (xblk m c t)) (ix2 i (0 : Fin 1))).trans ?_
      refine (pay4_apply (xblk m c t) (k0_pay2 (F := Ideal)) i).trans ?_
      rw [pay2_apply, blockSq_xblk m c t i]
      exact (accSq_first _ t.val h0 i).symm
  · obtain ⟨pg, ps⟩ := hprev h0
    by_cases h1 : t.val % 24 = 23
    · rw [contentsAt_last m c t h0 h1]
      dsimp only
      refine ⟨fun i j => ?_, fun i => ?_⟩
      · refine (congrFun (gramLast_eq (F := Ideal) c t.val t.isLt h0 h1 (xblk m c t) (prevGram m c t) (prevSq m c t)) (ix2 i j)).trans ?_
        refine (pay5_apply (xblk m c t) (prevGram m c t) i j).trans ?_
        rw [pg i j, blockInner_xblk m c t i j]
        exact (accInner_step _ t.val h0 i j).symm
      · refine (congrFun (sqLast_eq (F := Ideal) c t.val t.isLt h0 h1 (xblk m c t) (prevGram m c t) (prevSq m c t)) (ix2 i (0 : Fin 1))).trans ?_
        refine (pay4_apply (xblk m c t) (prevSq m c t) i).trans ?_
        rw [ps i, blockSq_xblk m c t i]
        exact (accSq_step _ t.val h0 i).symm
    · rw [contentsAt_mid m c t h0 h1]
      dsimp only
      refine ⟨fun i j => ?_, fun i => ?_⟩
      · refine (congrFun (gramMid_eq (F := Ideal) c t.val t.isLt h0 h1 (xblk m c t) (prevGram m c t) (prevSq m c t)) (ix2 i j)).trans ?_
        refine (pay5_apply (xblk m c t) (prevGram m c t) i j).trans ?_
        rw [pg i j, blockInner_xblk m c t i j]
        exact (accInner_step _ t.val h0 i j).symm
      · refine (congrFun (sqMid_eq (F := Ideal) c t.val t.isLt h0 h1 (xblk m c t) (prevGram m c t) (prevSq m c t)) (ix2 i (0 : Fin 1))).trans ?_
        refine (pay4_apply (xblk m c t) (prevSq m c t) i).trans ?_
        rw [ps i, blockSq_xblk m c t i]
        exact (accSq_step _ t.val h0 i).symm

/-- After point n the two scratch buffers hold the running totals of n's half through n's step. -/
theorem totals (c : Dev nD) : ∀ (n : ℕ) (hn : n < cfg0.N),
    (∀ i j : Fin 1024, (contentsAt m c n hn).2.2.1 (ix2 i j) = accInner (farr m c) (n / 24) (n % 24 + 1) i j)
    ∧ (∀ i : Fin 1024, (contentsAt m c n hn).2.2.2 (ix2 i (0 : Fin 1)) = accSq (farr m c) (n / 24) (n % 24 + 1) i)
  | 0, hn => totals_step m c ⟨0, hn⟩ (fun h => absurd (Nat.zero_mod 24) h)
  | k + 1, hn => totals_step m c ⟨k + 1, hn⟩ (fun _ => totals c k (Nat.lt_of_succ_lt hn))

/-! ## What a last step copies out -/

/-- At a last step the copy of the inner products holds, at (0, p, q), the half's full total. -/
theorem out_gram_at (c : Dev nD) (t : Fin cfg0.N) (h1 : t.val % 24 = 23) (y : S1x1024x1024.Idx) (p q : Fin 1024)
    (hp : (y 1).val = p.val) (hq : (y 2).val = q.val) :
    (contentsAt m c t.val t.isLt).1 y = accInner (farr m c) (t.val / 24) 24 p q := by
  have h0 : ¬t.val % 24 = 0 := by omega
  obtain rfl : y = ix3 (0 : Fin 1) p q := funext fun a => Fin.ext (by
    match a with
    | ⟨0, _⟩ => have h : (y 0).val < 1 := (y 0).isLt; show (y 0).val = 0; omega
    | ⟨1, _⟩ => exact hp
    | ⟨2, _⟩ => exact hq)
  have key := (totals m c t.val t.isLt).1 p q
  rw [contentsAt_last m c t h0 h1] at key ⊢
  dsimp only at key ⊢
  refine (congrFun (outGram_eq (F := Ideal) c t.val t.isLt h0 h1 (xblk m c t) (prevGram m c t) (prevSq m c t)) (ix3 (0 : Fin 1) p q)).trans ?_
  refine (pay6_apply _ p q).trans ?_
  refine (congrFun (gramLast_eq (F := Ideal) c t.val t.isLt h0 h1 (xblk m c t) (prevGram m c t) (prevSq m c t)) (ix2 p q)).symm.trans ?_
  refine key.trans ?_
  rw [h1]

/-- At a last step the copy of the squared norms holds, at (0, p, 0), the half's full total. -/
theorem out_sq_at (c : Dev nD) (t : Fin cfg0.N) (h1 : t.val % 24 = 23) (y : S1x1024x1.Idx) (p : Fin 1024)
    (hp : (y 1).val = p.val) :
    (contentsAt m c t.val t.isLt).2.1 y = accSq (farr m c) (t.val / 24) 24 p := by
  have h0 : ¬t.val % 24 = 0 := by omega
  obtain rfl : y = ix3 (0 : Fin 1) p (0 : Fin 1) := funext fun a => Fin.ext (by
    match a with
    | ⟨0, _⟩ => have h : (y 0).val < 1 := (y 0).isLt; show (y 0).val = 0; omega
    | ⟨1, _⟩ => exact hp
    | ⟨2, _⟩ => have h : (y 2).val < 1 := (y 2).isLt; show (y 2).val = 0; omega)
  have key := (totals m c t.val t.isLt).2 p
  rw [contentsAt_last m c t h0 h1] at key ⊢
  dsimp only at key ⊢
  refine (congrFun (outSq_eq (F := Ideal) c t.val t.isLt h0 h1 (xblk m c t) (prevGram m c t) (prevSq m c t)) (ix3 (0 : Fin 1) p (0 : Fin 1))).trans ?_
  refine (pay7_apply _ p).trans ?_
  refine (congrFun (sqLast_eq (F := Ideal) c t.val t.isLt h0 h1 (xblk m c t) (prevGram m c t) (prevSq m c t)) (ix2 p (0 : Fin 1))).symm.trans ?_
  refine key.trans ?_
  rw [h1]

/-! ## The two result arrays -/

/-- The first result array: at (s, i, j), the total over half s's 24 blocks of their shares of the inner product of
    rows i and j. -/
abbrev gramArr (c : Dev nD) : Vec Ideal S2x1024x1024 .f32 := fun y => accInner (farr m c) (y (0 : Fin 3)).val 24 (y (1 : Fin 3)) (y (2 : Fin 3))
/-- The second result array: at (s, i, 0), the total over half s's 24 blocks of their shares of row i's squared norm. -/
abbrev sqArr (c : Dev nD) : Vec Ideal S2x1024x1 .f32 := fun y => accSq (farr m c) (y (0 : Fin 3)).val 24 (y (1 : Fin 3))

/-- Both result windows' block index at point t: slice t / 24, all of it. -/
theorem idx_gram : ∀ t : Fin cfg0.N, win0_1.index t (0 : Fin 3) = t.val / 24 ∧ win0_1.index t (1 : Fin 3) = 0 ∧ win0_1.index t (2 : Fin 3) = 0 :=
  (by decide +kernel : ∀ t : Fin grid0.N, _)
theorem idx_sq : ∀ t : Fin cfg0.N, win0_2.index t (0 : Fin 3) = t.val / 24 ∧ win0_2.index t (1 : Fin 3) = 0 ∧ win0_2.index t (2 : Fin 3) = 0 :=
  (by decide +kernel : ∀ t : Fin grid0.N, _)

/-- What a last step writes back to the first result is slice t / 24 of that array. -/
theorem flushed_gram (c : Dev nD) (t : Fin cfg0.N) (hf : (cfg0.win 1).flush t = true) :
    (dats (F := Ideal) m 0 c).flushed 1 t = ((cfg0.win 1).blk t).view.read (Elt Ideal) (gramArr m c) := by
  have h1 : t.val % 24 = 23 := (flush0_1 t).mp hf
  obtain ⟨e0, e1, e2⟩ := idx_gram t
  show (cfg0.win 1).cut (grid0.coords t) ((dats (F := Ideal) m 0 c).after 1 t) = _
  rw [after_gram]
  funext y
  have hy0 : (y 0).val < 1 := (y 0).isLt
  have hy1 : (y 1).val < 1024 := (y 1).isLt
  have hy2 : (y 2).val < 1024 := (y 2).isLt
  have hE : ((cfg0.win 1).blk t).view.emb y
      = ix3 (⟨t.val / 24, by have := lt48 t; omega⟩ : Fin 2) (⟨(y 1).val, hy1⟩ : Fin 1024) (⟨(y 2).val, hy2⟩ : Fin 1024) := by
    funext a
    apply Fin.ext
    match a with
    | ⟨0, _⟩ => show win0_1.index t (0 : Fin 3) * 1 + 1 * (y 0).val = t.val / 24; rw [e0]; omega
    | ⟨1, _⟩ => show win0_1.index t (1 : Fin 3) * 1024 + 1 * (y 1).val = (y 1).val; rw [e1]; omega
    | ⟨2, _⟩ => show win0_1.index t (2 : Fin 3) * 1024 + 1 * (y 2).val = (y 2).val; rw [e2]; omega
  rw [View.read_apply, hE]
  exact out_gram_at m c t h1 ((cfg0.win 1).xinj (grid0.coords t) y) ⟨(y 1).val, hy1⟩ ⟨(y 2).val, hy2⟩ rfl rfl

/-- An index of the first result lies in point t's slice iff each coordinate lies in the slice's range. -/
theorem mem_blk_gram (t : Fin cfg0.N) (y : S2x1024x1024.Idx) :
    y ∈ ((cfg0.win 1).blk t).view.set ↔ ∀ a : Fin 3, win0_1.index t a * S1x1024x1024.size a ≤ (y a).val ∧ (y a).val < win0_1.index t a * S1x1024x1024.size a + S1x1024x1024.size a := by
  show y ∈ ((View.whole main_v1_0).slice (win0_1.rect t)).set ↔ _
  rw [View.set_slice_whole, Rect.mem_set_unit]
  exact Iff.rfl

/-- Every index (s, i, j) of the first result lies in the slice the last step of half s writes, point 24 * s + 23. -/
theorem cover_gram (y : S2x1024x1024.Idx) : ∃ t : Fin cfg0.N, (cfg0.win 1).flush t = true ∧ y ∈ ((cfg0.win 1).blk t).view.set := by
  have hN : cfg0.N = 48 := N_0
  have h0 : (y 0).val < 2 := (y 0).isLt
  have h1 : (y 1).val < 1024 := (y 1).isLt
  have h2 : (y 2).val < 1024 := (y 2).isLt
  obtain ⟨t, ht⟩ : ∃ t : Fin cfg0.N, t.val = 24 * (y 0).val + 23 := ⟨⟨24 * (y 0).val + 23, by omega⟩, rfl⟩
  obtain ⟨e0, e1, e2⟩ := idx_gram t
  refine ⟨t, (flush0_1 t).mpr (by omega), ?_⟩
  rw [mem_blk_gram]
  intro a
  match a with
  | ⟨0, _⟩ => show win0_1.index t (0 : Fin 3) * 1 ≤ (y 0).val ∧ (y 0).val < win0_1.index t (0 : Fin 3) * 1 + 1; rw [e0]; omega
  | ⟨1, _⟩ => show win0_1.index t (1 : Fin 3) * 1024 ≤ (y 1).val ∧ (y 1).val < win0_1.index t (1 : Fin 3) * 1024 + 1024; rw [e1]; omega
  | ⟨2, _⟩ => show win0_1.index t (2 : Fin 3) * 1024 ≤ (y 2).val ∧ (y 2).val < win0_1.index t (2 : Fin 3) * 1024 + 1024; rw [e2]; omega

/-- THE FIRST RESULT: entry (s, i, j) is the sum over the 24 blocks of half s of their shares of the inner product of
    rows i and j of the feature matrix. -/
theorem arr_gram (c : Dev nD) (s : Fin 2) (i j : Fin 1024) :
    (dats (F := Ideal) m 0 c).arrAt 1 cfg0.N (ix3 s i j) = accInner (feat (m ((c.tc : Thread nD τ).loc main_arg0))) s.val 24 i j := by
  rw [(dats (F := Ideal) m 0 c).arrAt_eq_of_cover 1 (gramArr m c) (flushed_gram m c) cover_gram]
  show accInner (farr m c) s.val 24 i j = _
  rw [farr_eq]

/-- What a last step writes back to the second result is slice t / 24 of that array. -/
theorem flushed_sq (c : Dev nD) (t : Fin cfg0.N) (hf : (cfg0.win 2).flush t = true) :
    (dats (F := Ideal) m 0 c).flushed 2 t = ((cfg0.win 2).blk t).view.read (Elt Ideal) (sqArr m c) := by
  have h1 : t.val % 24 = 23 := (flush0_2 t).mp hf
  obtain ⟨e0, e1, e2⟩ := idx_sq t
  show (cfg0.win 2).cut (grid0.coords t) ((dats (F := Ideal) m 0 c).after 2 t) = _
  rw [after_sq]
  funext y
  have hy0 : (y 0).val < 1 := (y 0).isLt
  have hy1 : (y 1).val < 1024 := (y 1).isLt
  have hy2 : (y 2).val < 1 := (y 2).isLt
  have hE : ((cfg0.win 2).blk t).view.emb y
      = ix3 (⟨t.val / 24, by have := lt48 t; omega⟩ : Fin 2) (⟨(y 1).val, hy1⟩ : Fin 1024) (0 : Fin 1) := by
    funext a
    apply Fin.ext
    match a with
    | ⟨0, _⟩ => show win0_2.index t (0 : Fin 3) * 1 + 1 * (y 0).val = t.val / 24; rw [e0]; omega
    | ⟨1, _⟩ => show win0_2.index t (1 : Fin 3) * 1024 + 1 * (y 1).val = (y 1).val; rw [e1]; omega
    | ⟨2, _⟩ => show win0_2.index t (2 : Fin 3) * 1 + 1 * (y 2).val = 0; rw [e2]; omega
  rw [View.read_apply, hE]
  exact out_sq_at m c t h1 ((cfg0.win 2).xinj (grid0.coords t) y) ⟨(y 1).val, hy1⟩ rfl

/-- An index of the second result lies in point t's slice iff each coordinate lies in the slice's range. -/
theorem mem_blk_sq (t : Fin cfg0.N) (y : S2x1024x1.Idx) :
    y ∈ ((cfg0.win 2).blk t).view.set ↔ ∀ a : Fin 3, win0_2.index t a * S1x1024x1.size a ≤ (y a).val ∧ (y a).val < win0_2.index t a * S1x1024x1.size a + S1x1024x1.size a := by
  show y ∈ ((View.whole main_v1_1).slice (win0_2.rect t)).set ↔ _
  rw [View.set_slice_whole, Rect.mem_set_unit]
  exact Iff.rfl

/-- Every index (s, i, 0) of the second result lies in the slice the last step of half s writes. -/
theorem cover_sq (y : S2x1024x1.Idx) : ∃ t : Fin cfg0.N, (cfg0.win 2).flush t = true ∧ y ∈ ((cfg0.win 2).blk t).view.set := by
  have hN : cfg0.N = 48 := N_0
  have h0 : (y 0).val < 2 := (y 0).isLt
  have h1 : (y 1).val < 1024 := (y 1).isLt
  have h2 : (y 2).val < 1 := (y 2).isLt
  obtain ⟨t, ht⟩ : ∃ t : Fin cfg0.N, t.val = 24 * (y 0).val + 23 := ⟨⟨24 * (y 0).val + 23, by omega⟩, rfl⟩
  obtain ⟨e0, e1, e2⟩ := idx_sq t
  refine ⟨t, (flush0_2 t).mpr (by omega), ?_⟩
  rw [mem_blk_sq]
  intro a
  match a with
  | ⟨0, _⟩ => show win0_2.index t (0 : Fin 3) * 1 ≤ (y 0).val ∧ (y 0).val < win0_2.index t (0 : Fin 3) * 1 + 1; rw [e0]; omega
  | ⟨1, _⟩ => show win0_2.index t (1 : Fin 3) * 1024 ≤ (y 1).val ∧ (y 1).val < win0_2.index t (1 : Fin 3) * 1024 + 1024; rw [e1]; omega
  | ⟨2, _⟩ => show win0_2.index t (2 : Fin 3) * 1 ≤ (y 2).val ∧ (y 2).val < win0_2.index t (2 : Fin 3) * 1 + 1; rw [e2]; omega

/-- THE SECOND RESULT: entry (s, i, 0) is the sum over the 24 blocks of half s of their shares of the squared norm of
    row i of the feature matrix. -/
theorem arr_sq (c : Dev nD) (s : Fin 2) (i : Fin 1024) :
    (dats (F := Ideal) m 0 c).arrAt 2 cfg0.N (ix3 s i (0 : Fin 1)) = accSq (feat (m ((c.tc : Thread nD τ).loc main_arg0))) s.val 24 i := by
  rw [(dats (F := Ideal) m 0 c).arrAt_eq_of_cover 2 (sqArr m c) (flushed_sq m c) cover_sq]
  show accSq (farr m c) s.val 24 i = _
  rw [farr_eq]

end Cert.KernelIdeal.Val

end
-- ==== Proof.KernelTailValue.lean ====
/-
  What the kernel program's host operations after its call compute, as a function of the two arrays the call
  leaves: two partial matrices of inner products (one per half of the feature axis) and two partial columns of
  squared norms.

  The first operations cut each array into its two halves and add them: entry (i, j) of the matrix of inner
  products is the sum of the two partial entries, and row i's squared norm is the sum of the two partial norms;
  the norms are then also laid out as a row.  Everything after that — the squared distances
  max (q i + q j - 2 * g i j) 0, the groups of eight rows, the two masks and the two scaled sums — is the chain of
  operations the specification names distOf, homoLoss and heterLoss, applied to those three arrays.  So the two
  results are those functions of the added halves, and the input array is not written by any of the operations.
-/
import proofs.«146502_j20134806684259_1_alg».proof.Proof.Gen.KernelIdeal.Launch
import proofs.«146502_j20134806684259_1_alg».proof.Proof.PairLossTail
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.TailValue

open Cert.KernelIdeal Cert.KernelIdeal.Gen Idealize.ShloMosaic Idealize.ShloMosaic.ValueIdx

/-- The host operations after the call, list by list. -/
abbrev tailOps : List (List (HloOp τ sig (Elt Ideal))) :=
  [hostOps1, hostOps1_1, hostOps1_2, hostOps1_3, hostOps1_4, hostOps1_5, hostOps1_6]

/-! ## The three arrays the shared chain is applied to -/

/-- The matrix of inner products: the two partial matrices added. -/
def kGram (A1 : FVec Ideal S2x1024x1024 .f32) : FVec Ideal S1024x1024 .f32 :=
  addf
    (shapeCast S1024x1024 (extractStridedSlice S1x1024x1024 ![0, 0, 0] A1 slices_S2x1024x1024_S1x1024x1024_0_0_0)
      shapeCasts_S1x1024x1024_S1024x1024)
    (shapeCast S1024x1024 (extractStridedSlice S1x1024x1024 ![1, 0, 0] A1 slices_S2x1024x1024_S1x1024x1024_1_0_0)
      shapeCasts_S1x1024x1024_S1024x1024)

/-- The squared norms as a column: the two partial columns added. -/
def kCol (A2 : FVec Ideal S2x1024x1 .f32) : FVec Ideal S1024x1 .f32 :=
  addf
    (shapeCast S1024x1 (extractStridedSlice S1x1024x1 ![0, 0, 0] A2 slices_S2x1024x1_S1x1024x1_0_0_0)
      shapeCasts_S1x1024x1_S1024x1)
    (shapeCast S1024x1 (extractStridedSlice S1x1024x1 ![1, 0, 0] A2 slices_S2x1024x1_S1x1024x1_1_0_0)
      shapeCasts_S1x1024x1_S1024x1)

/-- The squared norms as a row. -/
def kRow (A2 : FVec Ideal S2x1024x1 .f32) : FVec Ideal S1x1024 .f32 :=
  shapeCast S1x1024 (kCol A2) shapeCasts_S1024x1_S1x1024

/-! ## The three arrays read at an index -/

/-- Half `s` of a three-axis array whose first axis has two entries, read at `(0, i, j)`, is the array at `(s, i, j)`. -/
theorem half0_apply {m n : Nat} (X : (⟨3, ![2, m, n]⟩ : Shape).Idx → EReal)
    (h : (⟨3, ![2, m, n]⟩ : Shape).Slices ![0, 0, 0] ⟨3, ![1, m, n]⟩) (i : Fin m) (j : Fin n) :
    extractStridedSlice ⟨3, ![1, m, n]⟩ ![0, 0, 0] X h (ix3 (0 : Fin 1) i j) = X (ix3 (0 : Fin 2) i j) :=
  extractStridedSlice_apply _ X h _ _ fun a =>
    match a with
    | ⟨0, _⟩ => rfl
    | ⟨1, _⟩ => (Nat.zero_add _).symm
    | ⟨2, _⟩ => (Nat.zero_add _).symm

theorem half1_apply {m n : Nat} (X : (⟨3, ![2, m, n]⟩ : Shape).Idx → EReal)
    (h : (⟨3, ![2, m, n]⟩ : Shape).Slices ![1, 0, 0] ⟨3, ![1, m, n]⟩) (i : Fin m) (j : Fin n) :
    extractStridedSlice ⟨3, ![1, m, n]⟩ ![1, 0, 0] X h (ix3 (0 : Fin 1) i j) = X (ix3 (1 : Fin 2) i j) :=
  extractStridedSlice_apply _ X h _ _ fun a =>
    match a with
    | ⟨0, _⟩ => rfl
    | ⟨1, _⟩ => (Nat.zero_add _).symm
    | ⟨2, _⟩ => (Nat.zero_add _).symm

theorem kGram_apply (A1 : FVec Ideal S2x1024x1024 .f32) (i j : Fin 1024) :
    kGram A1 (ix2 i j) = A1 (ix3 (0 : Fin 2) i j) + A1 (ix3 (1 : Fin 2) i j) := by
  unfold kGram
  rw [addf_apply, shapeCast_1ab_ab_apply, shapeCast_1ab_ab_apply, half0_apply, half1_apply]

theorem kCol_apply (A2 : FVec Ideal S2x1024x1 .f32) (i : Fin 1024) :
    kCol A2 (ix2 i (0 : Fin 1)) = A2 (ix3 (0 : Fin 2) i (0 : Fin 1)) + A2 (ix3 (1 : Fin 2) i (0 : Fin 1)) := by
  unfold kCol
  rw [addf_apply, shapeCast_1ab_ab_apply, shapeCast_1ab_ab_apply, half0_apply, half1_apply]

theorem kRow_apply (A2 : FVec Ideal S2x1024x1 .f32) (j : Fin 1024) :
    kRow A2 (ix2 (0 : Fin 1) j) = A2 (ix3 (0 : Fin 2) j (0 : Fin 1)) + A2 (ix3 (1 : Fin 2) j (0 : Fin 1)) := by
  unfold kRow
  rw [shapeCast_apply (kCol A2) shapeCasts_S1024x1_S1x1024 (ix2 (0 : Fin 1) j) (ix2 j (0 : Fin 1))
    (by rw [Shape.rowMajor_val_two, Shape.rowMajor_val_two]
        show j.val * 1 + 0 = 0 * 1024 + j.val
        omega)]
  exact kCol_apply A2 j

/-! ## The host operations after the call, read at their results -/

/-- The first loss the program returns is the within-group loss of the distances built from the added halves:
    the operations are the specification's own, one after the other. -/
theorem tail_homo (W : Valuation τ sig (Elt Ideal)) :
    StableHlo.after tailOps.flatten W (Proc.devRef .tc main_v50)
      = Cert.PairLoss.homoLoss (Cert.PairLoss.distOf (kCol (W (Proc.devRef .tc main_v1_1)))
          (kRow (W (Proc.devRef .tc main_v1_1))) (kGram (W (Proc.devRef .tc main_v1_0)))) := by
  simp only [tailOps, hostOps1, hostOps1_1, hostOps1_2, hostOps1_3, hostOps1_4, hostOps1_5, hostOps1_6,
    List.flatten_cons, List.flatten_nil, List.append_nil, List.cons_append, List.nil_append]
  after_results_simp
  rfl

/-- The second is the between-group loss of the same distances. -/
theorem tail_heter (W : Valuation τ sig (Elt Ideal)) :
    StableHlo.after tailOps.flatten W (Proc.devRef .tc main_v52)
      = Cert.PairLoss.heterLoss (Cert.PairLoss.distOf (kCol (W (Proc.devRef .tc main_v1_1)))
          (kRow (W (Proc.devRef .tc main_v1_1))) (kGram (W (Proc.devRef .tc main_v1_0)))) := by
  simp only [tailOps, hostOps1, hostOps1_1, hostOps1_2, hostOps1_3, hostOps1_4, hostOps1_5, hostOps1_6,
    List.flatten_cons, List.flatten_nil, List.append_nil, List.cons_append, List.nil_append]
  after_results_simp
  rfl

/-- None of these operations writes the program's input array. -/
theorem tail_arg0 (W : Valuation τ sig (Elt Ideal)) :
    StableHlo.after tailOps.flatten W (Proc.devRef .tc main_arg0) = W (Proc.devRef .tc main_arg0) := by
  simp only [tailOps, hostOps1, hostOps1_1, hostOps1_2, hostOps1_3, hostOps1_4, hostOps1_5, hostOps1_6,
    List.flatten_cons, List.flatten_nil, List.append_nil, List.cons_append, List.nil_append]
  after_results_simp

end Cert.KernelIdeal.TailValue

end
-- ==== Proof.BlockSums.lean ====
/-
  Regrouping the sums over the 49152 feature columns.

  The columns are 48 consecutive blocks of 1024: column `b * 1024 + k` is column `k` of block `b`, and every
  column is reached exactly once this way (division with remainder by 1024).  So a sum over all columns is the
  sum over the blocks of the sums within each block.  The 48 blocks are in turn the 24 blocks of the first half
  followed by the 24 of the second, so the two halves' totals add up to the whole.  Nothing but commutativity
  and associativity of addition is used, so the statements hold in any commutative additive monoid, in
  particular on the extended reals with no finiteness assumption on the entries.
-/
import proofs.«146502_j20134806684259_1_alg».proof.Proof.PairLossSpec
import Mathlib.Algebra.BigOperators.Group.Finset.Basic
import Mathlib.Data.Fintype.BigOperators
import Mathlib.Logic.Equiv.Fin.Basic

noncomputable section

namespace Cert.PairLoss

open Idealize.ShloMosaic Idealize.ShloMosaic.ValueIdx

/-- Pairs (block, column within the block) correspond one to one to the columns. -/
def blockEquiv : Fin 48 × Fin 1024 ≃ Fin 49152 :=
  finProdFinEquiv.trans (finCongr (by norm_num))

theorem blockEquiv_apply (b : Fin 48) (k : Fin 1024) : blockEquiv (b, k) = colOf b k := by
  apply Fin.ext
  simp only [blockEquiv, colOf, Equiv.trans_apply, finProdFinEquiv_apply_val, finCongr_apply,
    Fin.val_cast]
  omega

/-- A sum over all columns is the sum over the blocks of the sums within each block. -/
theorem sum_blocks {M : Type*} [AddCommMonoid M] (g : Fin 49152 → M) :
    ∑ b : Fin 48, ∑ k : Fin 1024, g (colOf b k) = ∑ K : Fin 49152, g K := by
  rw [← Fintype.sum_prod_type' (fun b k => g (colOf b k))]
  refine Fintype.sum_equiv blockEquiv _ _ ?_
  rintro ⟨b, k⟩
  rw [blockEquiv_apply]

/-- The 48 blocks are the 24 of the first half followed by the 24 of the second. -/
theorem sum_halves {M : Type*} [AddCommMonoid M] (F : Fin 48 → M) :
    (∑ q ∈ Finset.range 24, if h : 24 * 0 + q < 48 then F ⟨24 * 0 + q, h⟩ else 0)
      + (∑ q ∈ Finset.range 24, if h : 24 * 1 + q < 48 then F ⟨24 * 1 + q, h⟩ else 0)
      = ∑ b : Fin 48, F b := by
  let G : ℕ → M := fun b => if h : b < 48 then F ⟨b, h⟩ else 0
  have hG : ∀ b : Fin 48, G b.val = F b := fun b => by
    simp only [G, b.isLt, dite_true, Fin.eta]
  calc (∑ q ∈ Finset.range 24, if h : 24 * 0 + q < 48 then F ⟨24 * 0 + q, h⟩ else 0)
        + (∑ q ∈ Finset.range 24, if h : 24 * 1 + q < 48 then F ⟨24 * 1 + q, h⟩ else 0)
      = (∑ q ∈ Finset.range 24, G (24 * 0 + q)) + ∑ q ∈ Finset.range 24, G (24 * 1 + q) := rfl
    _ = (∑ q ∈ Finset.range 24, G q) + ∑ q ∈ Finset.range 24, G (24 + q) := by
        simp only [Nat.mul_zero, Nat.zero_add, Nat.mul_one]
    _ = ∑ b ∈ Finset.range (24 + 24), G b := (Finset.sum_range_add G 24 24).symm
    _ = ∑ b : Fin 48, G b.val := (Fin.sum_univ_eq_sum_range G 48).symm
    _ = ∑ b : Fin 48, F b := Finset.sum_congr rfl (fun b _ => hG b)

/-- The two halves' running totals of the squared norm, each after all 24 of its blocks, add up to the
squared norm. -/
theorem accSq_halves (f : SFeat.Idx → EReal) (i : Fin 1024) :
    accSq f 0 24 i + accSq f 1 24 i = sqNorm f i := by
  have h1 := sum_halves (fun b => blockSq f b i)
  have h2 := sum_blocks (fun K => f (ix2 i K) * f (ix2 i K))
  unfold accSq blockSqN sqNorm
  rw [← h2]
  exact h1

/-- The same for the inner product of two rows. -/
theorem accInner_halves (f : SFeat.Idx → EReal) (i j : Fin 1024) :
    accInner f 0 24 i j + accInner f 1 24 i j = inner f i j := by
  have h1 := sum_halves (fun b => blockInner f b i j)
  have h2 := sum_blocks (fun K => f (ix2 i K) * f (ix2 j K))
  unfold accInner blockInnerN inner
  rw [← h2]
  exact h1

end Cert.PairLoss

end
-- ==== Proof.KernelResult.lean ====
/-
  The kernel program's two results, at the ideal instance, as the shared losses of the distance matrix built from its
  two result arrays — and those arrays read: the inner-product array holds, in half `s`, the total of blocks
  `24 s … 24 s + 23`; the squared-norm array likewise.  Adding the two halves gives the whole sums, so the distance
  matrix is the one built from the squared norms and inner products of the feature matrix.
-/
import proofs.«146502_j20134806684259_1_alg».proof.Proof.GramValue
import proofs.«146502_j20134806684259_1_alg».proof.Proof.KernelTailValue
import proofs.«146502_j20134806684259_1_alg».proof.Proof.BlockSums

noncomputable section

namespace Cert.KernelIdeal.Val

open Cert.KernelIdeal Cert.KernelIdeal.Gen Cert.KernelIdeal.Fr Cert.KernelIdeal.TailValue Cert.PairLoss
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The squared norms as a column, the same as a row, and the inner products, of a feature matrix. -/
def normCol (f : SFeat.Idx → EReal) : FVec Ideal SCol .f32 := fun y => sqNorm f ⟨(y 0).val, idx2_lt0 y⟩
def normRow (f : SFeat.Idx → EReal) : FVec Ideal SRow .f32 := fun y => sqNorm f ⟨(y 1).val, idx2_lt1 y⟩
def innerMat (f : SFeat.Idx → EReal) : FVec Ideal SPair .f32 := fun y => inner f ⟨(y 0).val, idx2_lt0 y⟩ ⟨(y 1).val, idx2_lt1 y⟩

/-- The two arrays the region leaves, on core `c`. -/
abbrev leftGram (c : Dev nD) : FVec Ideal S2x1024x1024 .f32 := (dats (F := Ideal) m 0 c).arrAt 1 cfg0.N
abbrev leftSq (c : Dev nD) : FVec Ideal S2x1024x1 .f32 := (dats (F := Ideal) m 0 c).arrAt 2 cfg0.N

theorem kGram_eq (c : Dev nD) : kGram (leftGram m c) = innerMat (feat (m ((c.tc : Thread nD τ).loc main_arg0))) := by
  funext y
  obtain ⟨i, j, rfl⟩ : ∃ (i : Fin 1024) (j : Fin 1024), y = ix2 i j := ⟨y 0, y 1, eq_ix2 y⟩
  rw [kGram_apply]
  have e0 : leftGram m c (ix3 (0 : Fin 2) i j) = accInner (feat (m ((c.tc : Thread nD τ).loc main_arg0))) 0 24 i j := arr_gram m c 0 i j
  have e1 : leftGram m c (ix3 (1 : Fin 2) i j) = accInner (feat (m ((c.tc : Thread nD τ).loc main_arg0))) 1 24 i j := arr_gram m c 1 i j
  rw [e0, e1]
  exact accInner_halves _ i j

theorem kCol_eq (c : Dev nD) : kCol (leftSq m c) = normCol (feat (m ((c.tc : Thread nD τ).loc main_arg0))) := by
  funext y
  obtain ⟨i, q, rfl⟩ : ∃ (i : Fin 1024) (q : Fin 1), y = ix2 i q := ⟨y 0, y 1, eq_ix2 y⟩
  obtain rfl : q = 0 := Subsingleton.elim _ _
  rw [kCol_apply]
  have e0 : leftSq m c (ix3 (0 : Fin 2) i (0 : Fin 1)) = accSq (feat (m ((c.tc : Thread nD τ).loc main_arg0))) 0 24 i := arr_sq m c 0 i
  have e1 : leftSq m c (ix3 (1 : Fin 2) i (0 : Fin 1)) = accSq (feat (m ((c.tc : Thread nD τ).loc main_arg0))) 1 24 i := arr_sq m c 1 i
  rw [e0, e1]
  exact accSq_halves _ i

theorem kRow_eq (c : Dev nD) : kRow (leftSq m c) = normRow (feat (m ((c.tc : Thread nD τ).loc main_arg0))) := by
  funext y
  obtain ⟨q, j, rfl⟩ : ∃ (q : Fin 1) (j : Fin 1024), y = ix2 q j := ⟨y 0, y 1, eq_ix2 y⟩
  obtain rfl : q = 0 := Subsingleton.elim _ _
  rw [kRow_apply]
  have e0 : leftSq m c (ix3 (0 : Fin 2) j (0 : Fin 1)) = accSq (feat (m ((c.tc : Thread nD τ).loc main_arg0))) 0 24 j := arr_sq m c 0 j
  have e1 : leftSq m c (ix3 (1 : Fin 2) j (0 : Fin 1)) = accSq (feat (m ((c.tc : Thread nD τ).loc main_arg0))) 1 24 j := arr_sq m c 1 j
  rw [e0, e1]
  exact accSq_halves _ j

/-- The distance matrix of a feature matrix. -/
def distMat (f : SFeat.Idx → EReal) : FVec Ideal SPair .f32 := distOf (normCol f) (normRow f) (innerMat f)

/-- The two result buffers bypass the region (they are written by the operations after it). -/
theorem v50_bypasses : main_v50 ∈ Pipeline.restRefs sig spec0 := Pipeline.mem_restRefs_of main_v50 (by decide) (by decide)
theorem v52_bypasses : main_v52 ∈ Pipeline.restRefs sig spec0 := Pipeline.mem_restRefs_of main_v52 (by decide) (by decide)

/-- The contents the operations after the region start from: the two arrays as the region leaves them. -/
abbrev exitVal (c : Dev nD) : Valuation τ sig (Elt Ideal) :=
  Pipeline.withArrays spec0 c (entry m c) fun w => (dats (F := Ideal) m 0 c).arrAt w cfg0.N

theorem exit_gram (c : Dev nD) : exitVal m c (Proc.devRef .tc main_v1_0) = leftGram m c :=
  Pipeline.withArrays_arr spec0 launch0.win.arr_inj c _ _ 1
theorem exit_sq (c : Dev nD) : exitVal m c (Proc.devRef .tc main_v1_1) = leftSq m c :=
  Pipeline.withArrays_arr spec0 launch0.win.arr_inj c _ _ 2

theorem homo_eq (c : Dev nD) : Pipeline.afterTail₀ cfgs (dats (F := Ideal) m) 0 (entry m) Fr.tailOps c main_v50
    = homoLoss (distMat (feat (m ((c.tc : Thread nD τ).loc main_arg0)))) := by
  unfold Pipeline.afterTail₀
  refine (tail_homo (exitVal m c)).trans ?_
  rw [exit_gram, exit_sq, kGram_eq, kCol_eq, kRow_eq]
  rfl

theorem heter_eq (c : Dev nD) : Pipeline.afterTail₀ cfgs (dats (F := Ideal) m) 0 (entry m) Fr.tailOps c main_v52
    = heterLoss (distMat (feat (m ((c.tc : Thread nD τ).loc main_arg0)))) := by
  unfold Pipeline.afterTail₀
  refine (tail_heter (exitVal m c)).trans ?_
  rw [exit_gram, exit_sq, kGram_eq, kCol_eq, kRow_eq]
  rfl

/-- The kernel program's run, read: its two results are the two losses of the feature matrix's distance matrix. -/
theorem run : θ_run defs (onTc (τ := τ) (main (F := Ideal))) ⟨m, fun _ => 0, ρ⟩ (fun r => ∀ c : Dev nD,
      r.2.mem ((c.tc : Thread nD τ).loc main_v50) = homoLoss (distMat (feat (m ((c.tc : Thread nD τ).loc main_arg0))))
    ∧ r.2.mem ((c.tc : Thread nD τ).loc main_v52) = heterLoss (distMat (feat (m ((c.tc : Thread nD τ).loc main_arg0))))
    ∧ r.2.mem ((c.tc : Thread nD τ).loc main_arg0) = m ((c.tc : Thread nD τ).loc main_arg0)) :=
  (θ_run defs _ _).mono (fun _ h c =>
    ⟨((h c).2 main_v50 v50_bypasses).trans (homo_eq m c), ((h c).2 main_v52 v52_bypasses).trans (heter_eq m c),
     ((h c).2 main_arg0 arg0_bypasses).trans (afterTail_arg0 m c)⟩) (run_main (F := Ideal) m ρ)

end Cert.KernelIdeal.Val

end
-- ==== Proof.ReferenceRun.lean ====
/-
  The run of the reference program, written out: its @main as one straight line of eighty-three array operations
  (the three outlined functions' operations standing where they are called, over the buffers of each call), what every
  execution of it leaves in the two result buffers, and the three arrays the losses are computed from — each row's
  squared norm laid out as a column and as a row, and the matrix of the rows' inner products — read at an index as
  the sums the specification names.

  The reference squares the feature matrix entrywise and sums each row (the squared norms), multiplies the feature
  matrix by its own transpose (the inner products), and from there on applies, operation for operation, the steps
  the specification keeps as `distOf`, `homoLoss` and `heterLoss`.
-/
import proofs.«146502_j20134806684259_1_alg».proof.Proof.Gen.ReferenceIdeal
import proofs.«146502_j20134806684259_1_alg».proof.Proof.PairLossTail
import Idealize.ShloMosaic.Lib.StableHlo.Run
import Idealize.ShloMosaic.Lib.StackMember
import Idealize.ShloMosaic.Lib.IdealHost
import Idealize.ShloMosaic.Lib.Pipeline.Value
import Idealize.ShloMosaic.PureOps.Ideal.Laws

noncomputable section

namespace Cert.ReferenceIdeal.HandRun

open Cert.ReferenceIdeal Cert.ReferenceIdeal.Gen Idealize.ShloMosaic Idealize.ShloMosaic.TcCoe Idealize.SL.Sem
open Idealize.ShloMosaic.ValueIdx Idealize.ShloMosaic.StableHlo

/-! ## The program as a list of operations -/

section Line

variable {F : FTy → Type} [FloatOps F]

/-- @main's operations in order. The group of a row is computed by an outlined function (seventeen operations:
    the quotient by eight, the two sign tests, the remainder test, the corrected quotient and the choice between
    the two) and each masked matrix by another (three: the scalar zero kept, spread over the matrix, the choice);
    their operations stand here in the call's place, over that call's own buffers. -/
abbrev ops : List (HloOp τ sig (Elt F)) :=
  [ StableHlo.reshape main_arg0 main_v0 rfl shapeCasts_S1024x64x768_S1024x49152,
    StableHlo.binary main_v0 main_v0 main_v1 (mulf : (⟨S1024x49152, .f32⟩ : BufTy).Contents (Elt F) → (⟨S1024x49152, .f32⟩ : BufTy).Contents (Elt F) → (⟨S1024x49152, .f32⟩ : BufTy).Contents (Elt F)),
    StableHlo.nullary main_cst (constant S_ .f32 0x00000000#32),
    StableHlo.binary main_v1 main_cst main_v2 ((fun x v => Host.reduceAdd x v reducesTo_S1024x49152_S1024_d1 h_S_) : (⟨S1024x49152, .f32⟩ : BufTy).Contents (Elt F) → (⟨S_, .f32⟩ : BufTy).Contents (Elt F) → (⟨S1024, .f32⟩ : BufTy).Contents (Elt F)),
    StableHlo.unary main_v2 main_v3 (broadcastInDim S1024x1 ![0] bcast_S1024_S1024x1_0 : (⟨S1024, .f32⟩ : BufTy).Contents (Elt F) → (⟨S1024x1, .f32⟩ : BufTy).Contents (Elt F)),
    StableHlo.unary main_v2 main_v4 (broadcastInDim S1x1024 ![1] bcast_S1024_S1x1024_1 : (⟨S1024, .f32⟩ : BufTy).Contents (Elt F) → (⟨S1x1024, .f32⟩ : BufTy).Contents (Elt F)),
    StableHlo.unary main_v3 main_v5 (broadcastInDim S1024x1024 ![0, 1] bcast_S1024x1_S1024x1024_0_1 : (⟨S1024x1, .f32⟩ : BufTy).Contents (Elt F) → (⟨S1024x1024, .f32⟩ : BufTy).Contents (Elt F)),
    StableHlo.unary main_v4 main_v6 (broadcastInDim S1024x1024 ![0, 1] bcast_S1x1024_S1024x1024_0_1 : (⟨S1x1024, .f32⟩ : BufTy).Contents (Elt F) → (⟨S1024x1024, .f32⟩ : BufTy).Contents (Elt F)),
    StableHlo.binary main_v5 main_v6 main_v7 (addf : (⟨S1024x1024, .f32⟩ : BufTy).Contents (Elt F) → (⟨S1024x1024, .f32⟩ : BufTy).Contents (Elt F) → (⟨S1024x1024, .f32⟩ : BufTy).Contents (Elt F)),
    StableHlo.unary main_v0 main_v8 ((transpose S49152x1024 [1, 0] · transposes_S1024x49152_S49152x1024_1_0) : (⟨S1024x49152, .f32⟩ : BufTy).Contents (Elt F) → (⟨S49152x1024, .f32⟩ : BufTy).Contents (Elt F)),
    StableHlo.binary main_v0 main_v8 main_v9 ((fun l r => Host.dotGeneral dot_S1024x49152_S49152x1024_S1024x1024_1_0_0_1_n_n none l r) : (⟨S1024x49152, .f32⟩ : BufTy).Contents (Elt F) → (⟨S49152x1024, .f32⟩ : BufTy).Contents (Elt F) → (⟨S1024x1024, .f32⟩ : BufTy).Contents (Elt F)),
    StableHlo.nullary main_cst_0 (constant S_ .f32 0x40000000#32),
    StableHlo.unary main_cst_0 main_v10 (broadcastInDim S1024x1024 ![] bcast_S_S1024x1024 : (⟨S_, .f32⟩ : BufTy).Contents (Elt F) → (⟨S1024x1024, .f32⟩ : BufTy).Contents (Elt F)),
    StableHlo.binary main_v10 main_v9 main_v11 (mulf : (⟨S1024x1024, .f32⟩ : BufTy).Contents (Elt F) → (⟨S1024x1024, .f32⟩ : BufTy).Contents (Elt F) → (⟨S1024x1024, .f32⟩ : BufTy).Contents (Elt F)),
    StableHlo.binary main_v7 main_v11 main_v12 (subf : (⟨S1024x1024, .f32⟩ : BufTy).Contents (Elt F) → (⟨S1024x1024, .f32⟩ : BufTy).Contents (Elt F) → (⟨S1024x1024, .f32⟩ : BufTy).Contents (Elt F)),
    StableHlo.nullary main_cst_1 (constant S_ .f32 0x00000000#32),
    StableHlo.unary main_cst_1 main_v13 (broadcastInDim S1024x1024 ![] bcast_S_S1024x1024 : (⟨S_, .f32⟩ : BufTy).Contents (Elt F) → (⟨S1024x1024, .f32⟩ : BufTy).Contents (Elt F)),
    StableHlo.binary main_v12 main_v13 main_v14 (maximumf : (⟨S1024x1024, .f32⟩ : BufTy).Contents (Elt F) → (⟨S1024x1024, .f32⟩ : BufTy).Contents (Elt F) → (⟨S1024x1024, .f32⟩ : BufTy).Contents (Elt F)),
    StableHlo.nullary main_v15 (iotaInDim S1024 32 0),
    StableHlo.nullary main_c (constantI S_ 32 8#32),
    StableHlo.TRef.unary (.of main_c : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S1024, .i32⟩) (broadcastInDim S1024 ![] bcast_S_S1024),
    StableHlo.TRef.binary (.of main_v15 : StableHlo.TRef sig ⟨S1024, .i32⟩) (.of main_call0_v1 : StableHlo.TRef sig ⟨S1024, .i32⟩) (.of main_call0_v2 : StableHlo.TRef sig ⟨S1024, .i32⟩) Host.divsi,
    StableHlo.TRef.unary (.of main_v15 : StableHlo.TRef sig ⟨S1024, .i32⟩) (.of main_call0_v3 : StableHlo.TRef sig ⟨S1024, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S1024, .i32⟩) (broadcastInDim S1024 ![] bcast_S_S1024),
    StableHlo.TRef.binary (.of main_call0_v3 : StableHlo.TRef sig ⟨S1024, .i32⟩) (.of main_call0_v5 : StableHlo.TRef sig ⟨S1024, .i32⟩) (.of main_call0_v6 : StableHlo.TRef sig ⟨S1024, .i1⟩) (cmpi .ne),
    StableHlo.TRef.unary (.of main_call0_v0 : StableHlo.TRef sig ⟨S_, .i32⟩) (.of main_call0_v7 : StableHlo.TRef sig ⟨S1024, .i32⟩) (broadcastInDim S1024 ![] bcast_S_S1024),
    StableHlo.TRef.binary (.of main_v15 : StableHlo.TRef sig ⟨S1024, .i32⟩) (.of main_call0_v7 : StableHlo.TRef sig ⟨S1024, .i32⟩) (.of main_call0_v8 : StableHlo.TRef sig ⟨S1024, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S1024, .i32⟩) (broadcastInDim S1024 ![] bcast_S_S1024),
    StableHlo.TRef.binary (.of main_call0_v8 : StableHlo.TRef sig ⟨S1024, .i32⟩) (.of main_call0_v9 : StableHlo.TRef sig ⟨S1024, .i32⟩) (.of main_call0_v10 : StableHlo.TRef sig ⟨S1024, .i1⟩) (cmpi .ne),
    StableHlo.TRef.binary (.of main_call0_v6 : StableHlo.TRef sig ⟨S1024, .i1⟩) (.of main_call0_v10 : StableHlo.TRef sig ⟨S1024, .i1⟩) (.of main_call0_v11 : StableHlo.TRef sig ⟨S1024, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S1024, .i32⟩) (broadcastInDim S1024 ![] bcast_S_S1024),
    StableHlo.TRef.binary (.of main_call0_v2 : StableHlo.TRef sig ⟨S1024, .i32⟩) (.of main_call0_v12 : StableHlo.TRef sig ⟨S1024, .i32⟩) (.of main_call0_v13 : StableHlo.TRef sig ⟨S1024, .i32⟩) subi,
    StableHlo.TRef.ternary (.of main_call0_v11 : StableHlo.TRef sig ⟨S1024, .i1⟩) (.of main_call0_v13 : StableHlo.TRef sig ⟨S1024, .i32⟩) (.of main_call0_v2 : StableHlo.TRef sig ⟨S1024, .i32⟩) (.of main_v16 : StableHlo.TRef sig ⟨S1024, .i32⟩) select,
    StableHlo.unary main_v16 main_v17 (broadcastInDim S1024x1 ![0] bcast_S1024_S1024x1_0 : (⟨S1024, .i32⟩ : BufTy).Contents (Elt F) → (⟨S1024x1, .i32⟩ : BufTy).Contents (Elt F)),
    StableHlo.unary main_v16 main_v18 (broadcastInDim S1x1024 ![1] bcast_S1024_S1x1024_1 : (⟨S1024, .i32⟩ : BufTy).Contents (Elt F) → (⟨S1x1024, .i32⟩ : BufTy).Contents (Elt F)),
    StableHlo.unary main_v17 main_v19 (broadcastInDim S1024x1024 ![0, 1] bcast_S1024x1_S1024x1024_0_1 : (⟨S1024x1, .i32⟩ : BufTy).Contents (Elt F) → (⟨S1024x1024, .i32⟩ : BufTy).Contents (Elt F)),
    StableHlo.unary main_v18 main_v20 (broadcastInDim S1024x1024 ![0, 1] bcast_S1x1024_S1024x1024_0_1 : (⟨S1x1024, .i32⟩ : BufTy).Contents (Elt F) → (⟨S1024x1024, .i32⟩ : BufTy).Contents (Elt F)),
    StableHlo.binary main_v19 main_v20 main_v21 (cmpi .eq : (⟨S1024x1024, .i32⟩ : BufTy).Contents (Elt F) → (⟨S1024x1024, .i32⟩ : BufTy).Contents (Elt F) → (⟨S1024x1024, .i1⟩ : BufTy).Contents (Elt F)),
    StableHlo.nullary main_v22 (iotaInDim S1024x1024 32 0),
    StableHlo.nullary main_v23 (iotaInDim S1024x1024 32 1),
    StableHlo.nullary main_c_2 (constantI S_ 32 0#32),
    StableHlo.unary main_c_2 main_v24 (broadcastInDim S1024x1024 ![] bcast_S_S1024x1024 : (⟨S_, .i32⟩ : BufTy).Contents (Elt F) → (⟨S1024x1024, .i32⟩ : BufTy).Contents (Elt F)),
    StableHlo.binary main_v22 main_v24 main_v25 (addi : (⟨S1024x1024, .i32⟩ : BufTy).Contents (Elt F) → (⟨S1024x1024, .i32⟩ : BufTy).Contents (Elt F) → (⟨S1024x1024, .i32⟩ : BufTy).Contents (Elt F)),
    StableHlo.binary main_v25 main_v23 main_v26 (cmpi .eq : (⟨S1024x1024, .i32⟩ : BufTy).Contents (Elt F) → (⟨S1024x1024, .i32⟩ : BufTy).Contents (Elt F) → (⟨S1024x1024, .i1⟩ : BufTy).Contents (Elt F)),
    StableHlo.unary main_v26 main_v27 (noti : (⟨S1024x1024, .i1⟩ : BufTy).Contents (Elt F) → (⟨S1024x1024, .i1⟩ : BufTy).Contents (Elt F)),
    StableHlo.binary main_v21 main_v27 main_v28 (andi : (⟨S1024x1024, .i1⟩ : BufTy).Contents (Elt F) → (⟨S1024x1024, .i1⟩ : BufTy).Contents (Elt F) → (⟨S1024x1024, .i1⟩ : BufTy).Contents (Elt F)),
    StableHlo.unary main_v16 main_v29 (broadcastInDim S1024x1 ![0] bcast_S1024_S1024x1_0 : (⟨S1024, .i32⟩ : BufTy).Contents (Elt F) → (⟨S1024x1, .i32⟩ : BufTy).Contents (Elt F)),
    StableHlo.unary main_v16 main_v30 (broadcastInDim S1x1024 ![1] bcast_S1024_S1x1024_1 : (⟨S1024, .i32⟩ : BufTy).Contents (Elt F) → (⟨S1x1024, .i32⟩ : BufTy).Contents (Elt F)),
    StableHlo.unary main_v29 main_v31 (broadcastInDim S1024x1024 ![0, 1] bcast_S1024x1_S1024x1024_0_1 : (⟨S1024x1, .i32⟩ : BufTy).Contents (Elt F) → (⟨S1024x1024, .i32⟩ : BufTy).Contents (Elt F)),
    StableHlo.unary main_v30 main_v32 (broadcastInDim S1024x1024 ![0, 1] bcast_S1x1024_S1024x1024_0_1 : (⟨S1x1024, .i32⟩ : BufTy).Contents (Elt F) → (⟨S1024x1024, .i32⟩ : BufTy).Contents (Elt F)),
    StableHlo.binary main_v31 main_v32 main_v33 (cmpi .ne : (⟨S1024x1024, .i32⟩ : BufTy).Contents (Elt F) → (⟨S1024x1024, .i32⟩ : BufTy).Contents (Elt F) → (⟨S1024x1024, .i1⟩ : BufTy).Contents (Elt F)),
    StableHlo.nullary main_cst_3 (constant S_ .f32 0x00000000#32),
    StableHlo.TRef.unary (.of main_cst_3 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S1024x1024, .f32⟩) (broadcastInDim S1024x1024 ![] bcast_S_S1024x1024),
    StableHlo.TRef.ternary (.of main_v28 : StableHlo.TRef sig ⟨S1024x1024, .i1⟩) (.of main_v14 : StableHlo.TRef sig ⟨S1024x1024, .f32⟩) (.of main_call1_v1 : StableHlo.TRef sig ⟨S1024x1024, .f32⟩) (.of main_v34 : StableHlo.TRef sig ⟨S1024x1024, .f32⟩) select,
    StableHlo.nullary main_cst_4 (constant S_ .f32 0x00000000#32),
    StableHlo.binary main_v34 main_cst_4 main_v35 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    StableHlo.nullary main_cst_5 (constant S_ .f32 0x3F000000#32),
    StableHlo.binary main_cst_5 main_v35 main_v36 (mulf : (⟨S_, .f32⟩ : BufTy).Contents (Elt F) → (⟨S_, .f32⟩ : BufTy).Contents (Elt F) → (⟨S_, .f32⟩ : BufTy).Contents (Elt F)),
    StableHlo.nullary main_cst_6 (constant S_ .f32 0x3F800000#32),
    StableHlo.unary main_cst_6 main_v37 (broadcastInDim S1024x1024 ![] bcast_S_S1024x1024 : (⟨S_, .f32⟩ : BufTy).Contents (Elt F) → (⟨S1024x1024, .f32⟩ : BufTy).Contents (Elt F)),
    StableHlo.binary main_v37 main_v14 main_v38 (subf : (⟨S1024x1024, .f32⟩ : BufTy).Contents (Elt F) → (⟨S1024x1024, .f32⟩ : BufTy).Contents (Elt F) → (⟨S1024x1024, .f32⟩ : BufTy).Contents (Elt F)),
    StableHlo.nullary main_cst_7 (constant S_ .f32 0x00000000#32),
    StableHlo.unary main_cst_7 main_v39 (broadcastInDim S1024x1024 ![] bcast_S_S1024x1024 : (⟨S_, .f32⟩ : BufTy).Contents (Elt F) → (⟨S1024x1024, .f32⟩ : BufTy).Contents (Elt F)),
    StableHlo.binary main_v38 main_v39 main_v40 (maximumf : (⟨S1024x1024, .f32⟩ : BufTy).Contents (Elt F) → (⟨S1024x1024, .f32⟩ : BufTy).Contents (Elt F) → (⟨S1024x1024, .f32⟩ : BufTy).Contents (Elt F)),
    StableHlo.nullary main_cst_8 (constant S_ .f32 0x00000000#32),
    StableHlo.TRef.unary (.of main_cst_8 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S1024x1024, .f32⟩) (broadcastInDim S1024x1024 ![] bcast_S_S1024x1024),
    StableHlo.TRef.ternary (.of main_v33 : StableHlo.TRef sig ⟨S1024x1024, .i1⟩) (.of main_v40 : StableHlo.TRef sig ⟨S1024x1024, .f32⟩) (.of main_call2_v1 : StableHlo.TRef sig ⟨S1024x1024, .f32⟩) (.of main_v41 : StableHlo.TRef sig ⟨S1024x1024, .f32⟩) select,
    StableHlo.nullary main_cst_9 (constant S_ .f32 0x00000000#32),
    StableHlo.binary main_v41 main_cst_9 main_v42 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    StableHlo.nullary main_cst_10 (constant S_ .f32 0x40000000#32),
    StableHlo.binary main_cst_10 main_v36 main_v43 (mulf : (⟨S_, .f32⟩ : BufTy).Contents (Elt F) → (⟨S_, .f32⟩ : BufTy).Contents (Elt F) → (⟨S_, .f32⟩ : BufTy).Contents (Elt F)),
    StableHlo.nullary main_cst_11 (constant S_ .f32 0x45E00000#32),
    StableHlo.binary main_v43 main_cst_11 main_v44 (Host.divf : (⟨S_, .f32⟩ : BufTy).Contents (Elt F) → (⟨S_, .f32⟩ : BufTy).Contents (Elt F) → (⟨S_, .f32⟩ : BufTy).Contents (Elt F)),
    StableHlo.nullary main_cst_12 (constant S_ .f32 0x40000000#32),
    StableHlo.binary main_cst_12 main_v42 main_v45 (mulf : (⟨S_, .f32⟩ : BufTy).Contents (Elt F) → (⟨S_, .f32⟩ : BufTy).Contents (Elt F) → (⟨S_, .f32⟩ : BufTy).Contents (Elt F)),
    StableHlo.nullary main_cst_13 (constant S_ .f32 0x47FE0000#32),
    StableHlo.binary main_v45 main_cst_13 main_v46 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- @main is that straight line: the called functions opened at their calls, the sequencing reassociated. -/
theorem main_eq (c : Dev nD) : main (F := F) c = seq ops := by
  simp only [main, main_part0, main_part1, fn_floor_divide.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨reshape_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., unary_bufs_sub .., unary_bufs_sub .., unary_bufs_sub .., binary_bufs_sub .., nullary_bufs_sub .., nullary_bufs_sub .., nullary_bufs_sub .., unary_bufs_sub .., binary_bufs_sub .., binary_bufs_sub .., unary_bufs_sub .., binary_bufs_sub .., unary_bufs_sub .., unary_bufs_sub .., unary_bufs_sub .., unary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub .., nullary_bufs_sub .., binary_bufs_sub .., nullary_bufs_sub .., binary_bufs_sub ..⟩

end Line

/-! ## The three arrays the losses are computed from -/

/-- Each row's squared norm: the feature matrix squared entrywise, each row summed from zero. -/
def refSq (x : FVec Ideal S1024x64x768 .f32) : FVec Ideal S1024 .f32 :=
  Host.reduceAdd (F := Ideal)
    (mulf (shapeCast S1024x49152 x shapeCasts_S1024x64x768_S1024x49152) (shapeCast S1024x49152 x shapeCasts_S1024x64x768_S1024x49152))
    (constant (F := Ideal) S_ .f32 0x00000000#32) reducesTo_S1024x49152_S1024_d1 h_S_

/-- The squared norms as a column. -/
def refCol (x : FVec Ideal S1024x64x768 .f32) : FVec Ideal S1024x1 .f32 :=
  broadcastInDim S1024x1 ![0] bcast_S1024_S1024x1_0 (refSq x)

/-- The squared norms as a row. -/
def refRow (x : FVec Ideal S1024x64x768 .f32) : FVec Ideal S1x1024 .f32 :=
  broadcastInDim S1x1024 ![1] bcast_S1024_S1x1024_1 (refSq x)

/-- The rows' inner products: the feature matrix times its transpose. -/
def refGram (x : FVec Ideal S1024x64x768 .f32) : FVec Ideal S1024x1024 .f32 :=
  Host.dotGeneral (F := Ideal) dot_S1024x49152_S49152x1024_S1024x1024_1_0_0_1_n_n none
    (shapeCast S1024x49152 x shapeCasts_S1024x64x768_S1024x49152)
    (transpose S49152x1024 [1, 0] (shapeCast S1024x49152 x shapeCasts_S1024x64x768_S1024x49152) transposes_S1024x49152_S49152x1024_1_0)

/-! ## The run -/

set_option maxRecDepth 8192 in
set_option maxHeartbeats 2000000 in
/-- From any memory with zero counters every execution of @main terminates; the first result is the within-group
    loss and the second the between-group loss of the distances computed from the squared norms and the inner
    products of the argument's feature matrix; the argument is unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v44) = Cert.PairLoss.homoLoss (Cert.PairLoss.distOf (refCol (m ((c.tc : Thread nD τ).loc main_arg0))) (refRow (m ((c.tc : Thread nD τ).loc main_arg0))) (refGram (m ((c.tc : Thread nD τ).loc main_arg0))))
      ∧ r.2.mem ((c.tc : Thread nD τ).loc main_v46) = Cert.PairLoss.heterLoss (Cert.PairLoss.distOf (refCol (m ((c.tc : Thread nD τ).loc main_arg0))) (refRow (m ((c.tc : Thread nD τ).loc main_arg0))) (refGram (m ((c.tc : Thread nD τ).loc main_arg0))))
      ∧ r.2.mem ((c.tc : Thread nD τ).loc main_arg0) = m ((c.tc : Thread nD τ).loc main_arg0)) :=
  (θ_run defs _ _).mono (fun _ h c => ⟨(h c main_v44).trans (by after_results_simp <;> rfl),
      (h c main_v46).trans (by after_results_simp <;> rfl),
      (h c main_arg0).trans (by after_results_simp <;> rfl)⟩)
    (run_seq scopedRefs_eq scopedSems_eq defs main (fun _ => ops) main_eq (fun _ => ops_sub) m ρ)

/-! ## The three arrays read at an index -/

/-- The squared norms read at a row: the sum over the row of the entries' squares. The sum starts from the
    constant zero, which is the extended real zero. -/
theorem refSq_apply (x : FVec Ideal S1024x64x768 .f32) (i : Fin 1024) :
    refSq x (ix1 i) = Cert.PairLoss.sqNorm (Cert.PairLoss.feat x) i := by
  have hR : S1024x49152.Reduces [1] S1024 := by decide
  unfold refSq Cert.PairLoss.sqNorm
  rw [hostReduceAdd_apply, Ideal.hostReduceAdd_single reducesTo_S1024x49152_S1024_d1 hR]
  show Ideal.ofBits .f32 0x00000000#32 + _ = _
  rw [Ideal.ofBits_zero_f32, zero_add]
  refine Finset.sum_congr rfl fun K _ => ?_
  have hidx : hR.lift (ix1 i) K = ix2 i K := by
    funext a; apply Fin.ext
    match a with
    | ⟨0, _⟩ => rfl
    | ⟨1, _⟩ => rfl
  rw [hidx]
  rfl

/-- The column of squared norms at row `i`. -/
theorem refCol_apply (x : FVec Ideal S1024x64x768 .f32) (i : Fin 1024) :
    refCol x (ix2 i 0) = Cert.PairLoss.sqNorm (Cert.PairLoss.feat x) i := by
  unfold refCol
  rw [broadcastInDim_apply ![0] bcast_S1024_S1024x1_0 (refSq x) (ix2 i 0) (ix1 i) (fun a => by
    match a with
    | ⟨0, _⟩ => rfl)]
  exact refSq_apply x i

/-- The row of squared norms at column `j`. -/
theorem refRow_apply (x : FVec Ideal S1024x64x768 .f32) (j : Fin 1024) :
    refRow x (ix2 0 j) = Cert.PairLoss.sqNorm (Cert.PairLoss.feat x) j := by
  unfold refRow
  rw [broadcastInDim_apply ![1] bcast_S1024_S1x1024_1 (refSq x) (ix2 0 j) (ix1 j) (fun a => by
    match a with
    | ⟨0, _⟩ => rfl)]
  exact refSq_apply x j

/-- The product of the feature matrix with its transpose at `(i, j)`: the inner product of rows `i` and `j`. -/
theorem refGram_apply (x : FVec Ideal S1024x64x768 .f32) (i j : Fin 1024) :
    refGram x (ix2 i j) = Cert.PairLoss.inner (Cert.PairLoss.feat x) i j := by
  unfold Cert.PairLoss.inner
  show Host.dotGeneral (F := Ideal) (DotDims.plain 1024 49152 1024) none
      (shapeCast S1024x49152 x shapeCasts_S1024x64x768_S1024x49152)
      (transpose S49152x1024 [1, 0] (shapeCast S1024x49152 x shapeCasts_S1024x64x768_S1024x49152) transposes_S1024x49152_S49152x1024_1_0)
      (ix2 i j) = _
  rw [Idealize.ShloMosaic.StackMember.dotGeneral_plain_apply]
  refine Finset.sum_congr rfl fun K _ => ?_
  rw [transpose_apply [1, 0] _ transposes_S1024x49152_S49152x1024_1_0 (ix2 K j) (ix2 j K) (fun b => by
    match b with
    | ⟨0, _⟩ => rfl
    | ⟨1, _⟩ => rfl)]
  rfl

end Cert.ReferenceIdeal.HandRun

end
-- ==== Proof.lean ====
/-
  The two programs compute the same two losses.

  The kernel program accumulates, block by block and in two halves, the squared norm of every row of the feature
  matrix and the inner product of every pair of rows; the host adds the two halves.  The reference takes each in one
  sum.  A finite sum on the extended reals may be regrouped freely, so both hold the same squared norms and inner
  products, hence the same matrix of squared distances `max (q i + q j - 2 g i j) 0`, and the remaining operations —
  the group masks, the two masked sums, the scalings — are the same in both.  Nothing in this needs the inputs
  finite.  The word-level kernel program and its idealization run to the end and leave their argument unchanged by
  the same argument at either instance; the ideal pass rewrote nothing, so there is nothing to preserve.
-/
import proofs.«146502_j20134806684259_1_alg».proof.Defs
import proofs.«146502_j20134806684259_1_alg».proof.Proof.Gen.Kernel
import proofs.«146502_j20134806684259_1_alg».proof.Proof.Gen.KernelIdeal
import proofs.«146502_j20134806684259_1_alg».proof.Proof.Gen.ReferenceIdeal
import proofs.«146502_j20134806684259_1_alg».proof.Proof.Gen.Pre_finite_inputs
import proofs.«146502_j20134806684259_1_alg».proof.Proof.BitsGramFrame
import proofs.«146502_j20134806684259_1_alg».proof.Proof.KernelResult
import proofs.«146502_j20134806684259_1_alg».proof.Proof.ReferenceRun
import Idealize.ShloMosaic.Adequacy
import Idealize.ShloMosaic.Init

noncomputable section

namespace Cert.Proof

open Idealize.ShloMosaic Idealize.ShloMosaic.TcCoe Idealize.ShloMosaic.ValueIdx Idealize.SL.Sem Cert.PairLoss

/-- The reference's squared norms and inner products are the feature matrix's. -/
theorem ref_dist (x : FVec Ideal ⟨3, ![1024, 64, 768]⟩ .f32) :
    distOf (Cert.ReferenceIdeal.HandRun.refCol x) (Cert.ReferenceIdeal.HandRun.refRow x) (Cert.ReferenceIdeal.HandRun.refGram x)
      = Cert.KernelIdeal.Val.distMat (feat x) := by
  have hc : Cert.ReferenceIdeal.HandRun.refCol x = Cert.KernelIdeal.Val.normCol (feat x) := by
    funext y
    obtain ⟨i, q, rfl⟩ : ∃ (i : Fin 1024) (q : Fin 1), y = ix2 i q := ⟨y 0, y 1, eq_ix2 y⟩
    obtain rfl : q = 0 := Subsingleton.elim _ _
    exact Cert.ReferenceIdeal.HandRun.refCol_apply x i
  have hr : Cert.ReferenceIdeal.HandRun.refRow x = Cert.KernelIdeal.Val.normRow (feat x) := by
    funext y
    obtain ⟨q, j, rfl⟩ : ∃ (q : Fin 1) (j : Fin 1024), y = ix2 q j := ⟨y 0, y 1, eq_ix2 y⟩
    obtain rfl : q = 0 := Subsingleton.elim _ _
    exact Cert.ReferenceIdeal.HandRun.refRow_apply x j
  have hg : Cert.ReferenceIdeal.HandRun.refGram x = Cert.KernelIdeal.Val.innerMat (feat x) := by
    funext y
    obtain ⟨i, j, rfl⟩ : ∃ (i : Fin 1024) (j : Fin 1024), y = ix2 i j := ⟨y 0, y 1, eq_ix2 y⟩
    exact Cert.ReferenceIdeal.HandRun.refGram_apply x i j
  unfold Cert.KernelIdeal.Val.distMat
  rw [hc, hr, hg]

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2.2) (Cert.ReferenceIdeal.HandRun.run m ρ)

theorem preserves : Cert.preserves_Kernel_KernelIdeal := trivial

theorem algebraic : Cert.algebraic_KernelIdeal_ReferenceIdeal := by
  intro m ρ m' ρ' _ hagree
  refine ⟨fun c => homoLoss (Cert.KernelIdeal.Val.distMat (feat (m ((c.tc : Thread Cert.KernelIdeal.nD Cert.KernelIdeal.τ).loc Cert.KernelIdeal.main_arg0)))),
    fun c => heterLoss (Cert.KernelIdeal.Val.distMat (feat (m ((c.tc : Thread Cert.KernelIdeal.nD Cert.KernelIdeal.τ).loc Cert.KernelIdeal.main_arg0)))),
    Cert.KernelIdeal.Val.run m ρ, ?_⟩
  refine (θ_run Cert.ReferenceIdeal.defs _ _).mono (fun _ h c => ⟨?_, ?_, (h c).2.2⟩) (Cert.ReferenceIdeal.HandRun.run m' ρ')
  · rw [(h c).1, ref_dist, hagree c]
  · rw [(h c).2.1, ref_dist, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
